-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg3 : IVec S800000 32) (main_arg4 : IVec S800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg3 main_v54
  let main_c_21 : IVec S_ 32 := constantI S_ 32 50000#32
  let main_v56 : IVec S800000 32 := broadcastInDim S800000 ![] bcast_S_S800000 main_c_21
  let main_v57 : IVec S800000 1 := cmpi .slt main_arg3 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  let main_c_23 : IVec S_ 32 := constantI S_ 32 0#32
  let main_v61 : IVec S800000 32 := broadcastInDim S800000 ![] bcast_S_S800000 main_c_23
  let main_v62 : IVec S800000 1 := cmpi .sge main_arg4 main_v61
  let main_c_24 : IVec S_ 32 := constantI S_ 32 50000#32
  let main_v63 : IVec S800000 32 := broadcastInDim S800000 ![] bcast_S_S800000 main_c_24
  let main_v64 : IVec S800000 1 := cmpi .slt main_arg4 main_v63
  let main_v65 : IVec S800000 1 := andi main_v62 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v60 main_v66
  main_v67

def fn_part2 {F : FTy → Type} [FloatOps F] (main_arg3 : IVec S800000 32) (main_arg4 : IVec S800000 32) (main_arg9 : FVec F S128x128 .f32) (main_arg10 : FVec F S128 .f32) (main_arg11 : FVec F S64x128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_v48 main_v49 main_v50

def fn_part1 {F : FTy → Type} [FloatOps F] (main_arg3 : IVec S800000 32) (main_arg4 : IVec S800000 32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg9 main_arg10 main_arg11 main_arg12 main_v33

def fn {F : FTy → Type} [FloatOps F] (main_arg0 : FVec F S50000x64 .f32) (main_arg1 : FVec F S50000x64 .f32) (main_arg2 : FVec F S800000x64 .f32) (main_arg3 : IVec S800000 32) (main_arg4 : IVec S800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg6 main_arg7 main_arg8 main_arg9 main_arg10 main_arg11 main_arg12 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S8x8 : Shape := ⟨2, ![8, 8]⟩
abbrev S8x16x8 : Shape := ⟨3, ![8, 16, 8]⟩
abbrev S128x8 : Shape := ⟨2, ![128, 8]⟩
abbrev S8x128 : Shape := ⟨2, ![8, 128]⟩
abbrev S800000x8 : Shape := ⟨2, ![800000, 8]⟩
abbrev S3200x64 : Shape := ⟨2, ![3200, 64]⟩
abbrev S3200x128 : Shape := ⟨2, ![3200, 128]⟩
abbrev S3200x8 : Shape := ⟨2, ![3200, 8]⟩
abbrev S800000x136 : Shape := ⟨2, ![800000, 136]⟩
abbrev S50000x136 : Shape := ⟨2, ![50000, 136]⟩
abbrev S50000x8 : Shape := ⟨2, ![50000, 8]⟩
abbrev S50000x8x16 : Shape := ⟨3, ![50000, 8, 16]⟩
abbrev S50000x8x1 : Shape := ⟨3, ![50000, 8, 1]⟩
abbrev S800000x8x1 : Shape := ⟨3, ![800000, 8, 1]⟩

abbrev nBuf : Space → Nat
  | .hbm => 122
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000x64, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S128, .f32⟩
  | .hbm, ⟨13, _⟩ => ⟨S64x128, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x128, .f32⟩
  | .hbm, ⟨44, _⟩ => ⟨S800000x128, .i1⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S1, .i32⟩
  | .hbm, ⟨57, _⟩ => ⟨S_, .i32⟩
  | .hbm, ⟨58, _⟩ => ⟨S800000x1, .i32⟩
  | .hbm, ⟨59, _⟩ => ⟨S800000x1, .i1⟩
  | .hbm, ⟨60, _⟩ => ⟨S1x1, .i32⟩
  | .hbm, ⟨61, _⟩ => ⟨S800000x1, .i32⟩
  | .hbm, ⟨62, _⟩ => ⟨S800000x1, .i1⟩
  | .hbm, ⟨63, _⟩ => ⟨S800000x1, .i1⟩
  | .hbm, ⟨64, _⟩ => ⟨S_, .i1⟩
  | .hbm, ⟨65, _⟩ => ⟨S800000, .i1⟩
  | .hbm, ⟨66, _⟩ => ⟨S800000x128, .f32⟩
  | .hbm, ⟨67, _⟩ => ⟨S800000x128, .i1⟩
  | .hbm, ⟨68, _⟩ => ⟨S_, .f32⟩
  | .hbm, ⟨69, _⟩ => ⟨S800000x128, .f32⟩
  | .hbm, ⟨70, _⟩ => ⟨S800000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S1, .i32⟩
  | .hbm, ⟨80, _⟩ => ⟨S_, .i32⟩
  | .hbm, ⟨81, _⟩ => ⟨S800000x1, .i32⟩
  | .hbm, ⟨82, _⟩ => ⟨S800000x1, .i1⟩
  | .hbm, ⟨83, _⟩ => ⟨S1x1, .i32⟩
  | .hbm, ⟨84, _⟩ => ⟨S800000x1, .i32⟩
  | .hbm, ⟨85, _⟩ => ⟨S800000x1, .i1⟩
  | .hbm, ⟨86, _⟩ => ⟨S800000x1, .i1⟩
  | .hbm, ⟨87, _⟩ => ⟨S_, .i1⟩
  | .hbm, ⟨88, _⟩ => ⟨S800000, .i1⟩
  | .hbm, ⟨89, _⟩ => ⟨S800000x128, .f32⟩
  | .hbm, ⟨90, _⟩ => ⟨S800000x128, .i1⟩
  | .hbm, ⟨91, _⟩ => ⟨S_, .f32⟩
  | .hbm, ⟨92, _⟩ => ⟨S800000x128, .f32⟩
  | .hbm, ⟨93, _⟩ => ⟨S800000x128, .f32⟩
  | .hbm, ⟨94, _⟩ => ⟨S8x8, .i32⟩
  | .hbm, ⟨95, _⟩ => ⟨S8x8, .i32⟩
  | .hbm, ⟨96, _⟩ => ⟨S_, .i32⟩
  | .hbm, ⟨97, _⟩ => ⟨S8x8, .i32⟩
  | .hbm, ⟨98, _⟩ => ⟨S8x8, .i32⟩
  | .hbm, ⟨99, _⟩ => ⟨S8x8, .i1⟩
  | .hbm, ⟨100, _⟩ => ⟨S8x8, .f32⟩
  | .hbm, ⟨101, _⟩ => ⟨S8x16x8, .f32⟩
  | .hbm, ⟨102, _⟩ => ⟨S128x8, .f32⟩
  | .hbm, ⟨103, _⟩ => ⟨S8x128, .f32⟩
  | .hbm, ⟨104, _⟩ => ⟨S1x128, .f32⟩
  | .hbm, ⟨105, _⟩ => ⟨S800000x128, .f32⟩
  | .hbm, ⟨106, _⟩ => ⟨S800000x8, .f32⟩
  | .hbm, ⟨107, _⟩ => ⟨S800000x136, .f32⟩
  | .hbm, ⟨108, _⟩ => ⟨S_, .f32⟩
  | .hbm, ⟨109, _⟩ => ⟨S50000x136, .f32⟩
  | .hbm, ⟨110, _⟩ => ⟨S800000x1, .i32⟩
  | .hbm, ⟨111, _⟩ => ⟨S50000x136, .f32⟩
  | .hbm, ⟨112, _⟩ => ⟨S50000x128, .f32⟩
  | .hbm, ⟨113, _⟩ => ⟨S50000x8, .f32⟩
  | .hbm, ⟨114, _⟩ => ⟨S50000x8x16, .f32⟩
  | .hbm, ⟨115, _⟩ => ⟨S50000x8x1, .f32⟩
  | .hbm, ⟨116, _⟩ => ⟨S_, .f32⟩
  | .hbm, ⟨117, _⟩ => ⟨S50000x8x1, .f32⟩
  | .hbm, ⟨118, _⟩ => ⟨S50000x8x1, .f32⟩
  | .hbm, ⟨119, _⟩ => ⟨S50000x8x16, .f32⟩
  | .hbm, ⟨120, _⟩ => ⟨S50000x8x16, .f32⟩
  | .hbm, ⟨121, _⟩ => ⟨S800000x8x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S64x128, .f32⟩
  | .local _ .vmem, ⟨11, _⟩ => ⟨S64x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S3200x64, .f32⟩
  | .local _ .vmem, ⟨20, _⟩ => ⟨S3200x64, .f32⟩
  | .local _ .vmem, ⟨21, _⟩ => ⟨S3200x128, .f32⟩
  | .local _ .vmem, ⟨22, _⟩ => ⟨S3200x128, .f32⟩
  | .local _ .vmem, ⟨23, _⟩ => ⟨S3200x128, .f32⟩
  | .local _ .vmem, ⟨24, _⟩ => ⟨S3200x128, .f32⟩
  | .local _ .vmem, ⟨25, _⟩ => ⟨S3200x128, .f32⟩
  | .local _ .vmem, ⟨26, _⟩ => ⟨S3200x128, .f32⟩
  | .local _ .vmem, ⟨27, _⟩ => ⟨S64x128, .f32⟩
  | .local _ .vmem, ⟨28, _⟩ => ⟨S1x128, .f32⟩
  | .local _ .vmem, ⟨29, _⟩ => ⟨S128x8, .f32⟩
  | .local _ .vmem, ⟨30, _⟩ => ⟨S8x128, .f32⟩
  | .local _ .vmem, ⟨31, _⟩ => ⟨S3200x128, .f32⟩
  | .local _ .vmem, ⟨32, _⟩ => ⟨S3200x128, .f32⟩
  | .local _ .vmem, ⟨33, _⟩ => ⟨S3200x8, .f32⟩
  | .local _ .vmem, ⟨34, _⟩ => ⟨S3200x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v10 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v11 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_c : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23_0 : Ref sig .tc := ⟨.hbm, 105, rfl⟩
abbrev main_v23_1 : Ref sig .tc := ⟨.hbm, 106, rfl⟩
abbrev main_v24 : Ref sig .tc := ⟨.hbm, 107, rfl⟩
abbrev main_cst : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_0 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S3200x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S3200x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S128x128_S64x128_0_0 : S128x128.Slices ![0, 0] S64x128
  slices_S128x128_S64x128_64_0 : S128x128.Slices ![64, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S8x8 : S_.BroadcastsInDim S8x8 (![] : Fin 0 → Fin S8x8.rank)
  bcast_S8x8_S8x16x8_0_2 : S8x8.BroadcastsInDim S8x16x8 (![0, 2] : Fin 2 → Fin S8x16x8.rank)
  shapeCasts_S8x16x8_S128x8 : S8x16x8.ShapeCasts S128x8
  transposes_S128x8_S8x128_1_0 : S128x8.Transposes [1, 0] S8x128
  inb_S3200x64_S3200x64_0_0 : ∀ a, (![0, 0] : Fin 2 → Nat) a + S3200x64.size a ≤ S3200x64.size a
  h_S3200x64 : 0 < S3200x64.numel
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S3200x8_S3200x8_0_0 : ∀ a, (![0, 0] : Fin 2 → Nat) a + S3200x8.size a ≤ S3200x8.size a
  h_S3200x8 : 0 < S3200x8.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  concatenates_S800000x128_S800000x8_S800000x136_d1 : Shape.Concatenates [S800000x128, S800000x8] S800000x136 1
  bcast_S_S50000x136 : S_.BroadcastsInDim S50000x136 (![] : Fin 0 → Fin S50000x136.rank)
  slices_S50000x136_S50000x128_0_0 : S50000x136.Slices ![0, 0] S50000x128
  slices_S50000x136_S50000x8_0_128 : S50000x136.Slices ![0, 128] S50000x8
  shapeCasts_S50000x128_S50000x8x16 : S50000x128.ShapeCasts S50000x8x16
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S800000x8_S800000x8x1 : S800000x8.ShapeCasts S800000x8x1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  dot_S3200x64_S64x128_S3200x128_1_0_0_1_n_n_wf : DotDims.WF S3200x64 S64x128 S3200x128 [1] [0] [0] [1] [] []
  dot_S3200x128_S128x8_S3200x8_1_0_0_1_n_n_wf : DotDims.WF S3200x128 S128x8 S3200x8 [1] [0] [0] [1] [] []
  dot_S3200x8_S8x128_S3200x128_1_0_0_1_n_n_wf : DotDims.WF S3200x8 S8x128 S3200x128 [1] [0] [0] [1] [] []
  scatter_S50000x136_S800000x1_S800000x136_1_0_0_1_wf : ScatterDims.WF S50000x136 S800000x1 S800000x136 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x128.size a ≤ S50000x128.size a
  hwx0_12 : ∀ i : grid0.Coords, EltTy.bits .f32 = 32 ∨ (Rect.block (s := S50000x128) S5000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S50000x128.size a
  hwx0_13 : ∀ i : grid0.Coords, EltTy.bits .f32 = 32 ∨ (Rect.block (s := S50000x128) S5000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S800000x128.size a
  hwx1_1 : ∀ i : grid1.Coords, EltTy.bits .f32 = 32 ∨ (Rect.block (s := S800000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S800000x128.size a
  hwx1_2 : ∀ i : grid1.Coords, EltTy.bits .f32 = 32 ∨ (Rect.block (s := S800000x128) S3200x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S800000x128.size a
  hwx1_3 : ∀ i : grid1.Coords, EltTy.bits .f32 = 32 ∨ (Rect.block (s := S800000x128) S3200x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x8.size a ≤ S128x8.size a
  hwx1_6 : ∀ i : grid1.Coords, EltTy.bits .f32 = 32 ∨ (Rect.block (s := S128x8) S128x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S8x128.size a
  hwx1_7 : ∀ i : grid1.Coords, EltTy.bits .f32 = 32 ∨ (Rect.block (s := S8x128) S8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3200x128.size a ≤ S800000x128.size a
  hwx1_8 : ∀ i : grid1.Coords, EltTy.bits .f32 = 32 ∨ (Rect.block (s := S800000x128) S3200x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3200x8.size a ≤ S800000x8.size a
  hwx1_9 : ∀ i : grid1.Coords, EltTy.bits .f32 = 32 ∨ (Rect.block (s := S800000x8) S3200x8.size (cc1_transform_9 i) (hinb1_9 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x128_S128x8_S3200x8_1_0_0_1_n_n : DotDims S3200x128 S128x8 S3200x8 where
  lhsContracting := [1]
  rhsContracting := [0]
  lhsNonContracting := [0]
  rhsNonContracting := [1]
  lhsBatch := []
  rhsBatch := []
  wf := dot_S3200x128_S128x8_S3200x8_1_0_0_1_n_n_wf
def dot_S3200x8_S8x128_S3200x128_1_0_0_1_n_n : DotDims S3200x8 S8x128 S3200x128 where
  lhsContracting := [1]
  rhsContracting := [0]
  lhsNonContracting := [0]
  rhsNonContracting := [1]
  lhsBatch := []
  rhsBatch := []
  wf := dot_S3200x8_S8x128_S3200x128_1_0_0_1_n_n_wf
def scatter_S50000x136_S800000x1_S800000x136_1_0_0_1 : ScatterDims S50000x136 S800000x1 S800000x136 where
  updateWindowDims := [1]
  insertedWindowDims := [0]
  scatterDimsToOperandDims := [0]
  indexVectorDim := 1
  wf := scatter_S50000x136_S800000x1_S800000x136_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S5000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S5000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_2) S5000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg2) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S3200x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S128x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S8x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23_0) S3200x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v23_1) S3200x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S50000x128 : Shape := ⟨2, ![50000, 128]⟩
abbrev S1x128 : Shape := ⟨2, ![1, 128]⟩
abbrev S50000x8x16 : Shape := ⟨3, ![50000, 8, 16]⟩
abbrev S800000x128 : Shape := ⟨2, ![800000, 128]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000x64, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S128, .f32⟩
  | .hbm, ⟨13, _⟩ => ⟨S50000x128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S50000x8x16, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S50000x8x16, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S50000x8x16, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S800000x8x16, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x8x16, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x8x16, .f32⟩
  | .hbm, ⟨52, _⟩ => ⟨S800000x8x16, .f32⟩
  | .hbm, ⟨53, _⟩ => ⟨S_, .f32⟩
  | .hbm, ⟨54, _⟩ => ⟨S800000x8x16, .f32⟩
  | .hbm, ⟨55, _⟩ => ⟨S800000x8x16, .f32⟩
  | .hbm, ⟨56, _⟩ => ⟨S800000x8x16, .f32⟩
  | .hbm, ⟨57, _⟩ => ⟨S_, .f32⟩
  | .hbm, ⟨58, _⟩ => ⟨S800000x8, .f32⟩
  | .hbm, ⟨59, _⟩ => ⟨S800000x8x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S800000x8x1, .f32⟩
  | .hbm, ⟨64, _⟩ => ⟨S800000x8x1, .f32⟩
  | .hbm, ⟨65, _⟩ => ⟨S_, .f32⟩
  | .hbm, ⟨66, _⟩ => ⟨S800000x8x1, .f32⟩
  | .hbm, ⟨67, _⟩ => ⟨S800000x8x1, .f32⟩
  | .hbm, ⟨68, _⟩ => ⟨S800000x8x1, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x8x16, .f32⟩
  | .hbm, ⟨78, _⟩ => ⟨S800000x8x16, .f32⟩
  | .hbm, ⟨79, _⟩ => ⟨S800000x8x16, .f32⟩
  | .hbm, ⟨80, _⟩ => ⟨S_, .f32⟩
  | .hbm, ⟨81, _⟩ => ⟨S50000x8x16, .f32⟩
  | .hbm, ⟨82, _⟩ => ⟨S800000x1, .i32⟩
  | .hbm, ⟨83, _⟩ => ⟨S50000x8x16, .f32⟩
  | .hbm, ⟨84, _⟩ => ⟨S_, .f32⟩
  | .hbm, ⟨85, _⟩ => ⟨S50000x8x1, .f32⟩
  | .hbm, ⟨86, _⟩ => ⟨S800000x1, .i32⟩
  | .hbm, ⟨87, _⟩ => ⟨S50000x8x1, .f32⟩
  | .hbm, ⟨88, _⟩ => ⟨S_, .f32⟩
  | .hbm, ⟨89, _⟩ => ⟨S50000x8x1, .f32⟩
  | .hbm, ⟨90, _⟩ => ⟨S50000x8x1, .f32⟩
  | .hbm, ⟨91, _⟩ => ⟨S50000x8x16, .f32⟩
  | .hbm, ⟨92, _⟩ => ⟨S50000x8x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_cst_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v41 : Ref sig .tc := ⟨.hbm, 67, rfl⟩
abbrev main_v42 : Ref sig .tc := ⟨.hbm, 68, rfl⟩
abbrev main_c_6 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]

class Facts₀ : Prop where
  concatenates_S50000x64_S50000x64_S50000x128_d1 : Shape.Concatenates [S50000x64, S50000x64] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x64_S64x128_S800000x128_1_0_0_1_n_n_wf : DotDims.WF S800000x64 S64x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Spec.lean ====
/-
  The mathematics of a graph attention layer's message passing, with no program in it: arrays are functions from
  shape indices to the extended reals, index words are 32-bit words read signed.

  Nodes carry two feature rows `x`, `y` (64 lanes each); a projection with weights `W` (128 x 128) and bias `b` sends
  node `n` to `[x n | y n] · W + b` (128 lanes = 8 heads of 16). Edge `i` from node `src i` to node `dst i` has
  features `e i` projected to `E i = e i · We + be`; its score on head `h` is
  `exp (clip (sum over the head's 16 lanes of K[src i] * Q[dst i] * (1/4) * E i))`, its message on a lane is
  `V[src i]` times the lane's head's score; node `n` collects, over the edges with `dst i = n`, the messages and the
  scores, and returns their quotient (the scores' sum shifted by a small constant).

  Two spellings of each quantity: the one a blocked kernel computes (the projection as two half contractions; a
  head's sum and a head's broadcast as products with 0/1 selection tables; one collection over messages and scores
  side by side) and the one a whole-array program computes (one contraction over the joined rows; a sum over a
  head's lanes; two collections). The file `Bridge` proves them equal.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals of rank 1, 2, 3, and a vector of index words. -/
abbrev R1 (a : Nat) : Type := (⟨1, ![a]⟩ : Shape).Idx → EReal
abbrev R2 (a b : Nat) : Type := (⟨2, ![a, b]⟩ : Shape).Idx → EReal
abbrev R3 (a b c : Nat) : Type := (⟨3, ![a, b, c]⟩ : Shape).Idx → EReal
abbrev Words (a : Nat) : Type := (⟨1, ![a]⟩ : Shape).Idx → BitVec 32

/-- The scale 1/4, the clip bounds -5 and 5, and the denominator's shift, as the words both programs carry. -/
abbrev quarter : EReal := Ideal.ofBits .f32 0x3E800000#32
abbrev lo : EReal := Ideal.ofBits .f32 0xC0A00000#32
abbrev hi : EReal := Ideal.ofBits .f32 0x40A00000#32
abbrev eps : EReal := Ideal.ofBits .f32 0x358637BD#32

/-- Lane `j` of 128 belongs to head `j / 16`; head `h`'s lanes are `16 h + d`. -/
def head (j : Fin 128) : Fin 8 := ⟨j.val / 16, by omega⟩
def lane (h : Fin 8) (d : Fin 16) : Fin 128 := ⟨16 * h.val + d.val, by omega⟩

/-- The row of a 50000-row table an index word names: read signed, clamped into the table. -/
def rowOf (v : BitVec 32) : Fin 50000 := ⟨min v.toInt.toNat 49999, by omega⟩

/-- The edges that land on node number `r`: those whose destination word, read signed, is `r`. -/
def landing {n : Nat} (dst : Words n) (r : Nat) : Finset (Fin n) :=
  Finset.univ.filter fun i => (dst (ix1 i)).toInt = (r : Int)

/-- Every index word names a node: read signed it lies in [0, 50000). -/
def InRange {n : Nat} (idx : Words n) : Prop := ∀ i : Fin n, 0 ≤ (idx (ix1 i)).toInt ∧ (idx (ix1 i)).toInt < 50000

/-! ## The blocked spelling -/

/-- The first and the last 64 rows of a 128-row weight table, and a bias vector as a one-row table. -/
def topHalf (W : R2 128 128) : R2 64 128 := fun i => W (ix2 ⟨(i 0).val, by have := idx2_lt0 i; omega⟩ (i 1))
def botHalf (W : R2 128 128) : R2 64 128 := fun i => W (ix2 ⟨64 + (i 0).val, by have := idx2_lt0 i; omega⟩ (i 1))
def asRow (b : R1 128) : R2 1 128 := fun i => b (ix1 (i 1))

/-- `x · Wh + y · Wp + b`: two half contractions, then the bias row. -/
def proj {n : Nat} (x y : R2 n 64) (Wh Wp : R2 64 128) (b : R2 1 128) : R2 n 128 :=
  fun i => (∑ k : Fin 64, x (ix2 (i 0) k) * Wh (ix2 k (i 1)) + ∑ k : Fin 64, y (ix2 (i 0) k) * Wp (ix2 k (i 1)))
    + b (ix2 0 (i 1))

/-- `e · We + b`. -/
def eproj {n : Nat} (e : R2 n 64) (We : R2 64 128) (b : R2 1 128) : R2 n 128 :=
  fun i => (∑ k : Fin 64, e (ix2 (i 0) k) * We (ix2 k (i 1))) + b (ix2 0 (i 1))

/-- The rows of a node table the index words name. -/
def takeRows {n : Nat} (T : R2 50000 128) (idx : Words n) : R2 n 128 :=
  fun i => T (ix2 (rowOf (idx (ix1 (i 0)))) (i 1))

/-- The 0/1 table with a one where lane `j` belongs to head `h`, and its transpose. -/
def selS : R2 128 8 := fun i => if (i 0).val / 16 = (i 1).val then 1 else 0
def selSt : R2 8 128 := fun i => if (i 1).val / 16 = (i 0).val then 1 else 0

/-- The score term on a lane: `K * Q * (1/4) * E`. -/
def term {n : Nat} (e : R2 n 64) (Kg Qg : R2 n 128) (We : R2 64 128) (b : R2 1 128) : R2 n 128 :=
  fun i => ((Kg i * Qg i) * quarter) * eproj e We b i

/-- A head's score: the lanes' terms summed through the selection table, clipped, exponentiated. -/
def scoreK {n : Nat} (e : R2 n 64) (Kg Qg : R2 n 128) (We : R2 64 128) (b : R2 1 128) (S : R2 128 8) : R2 n 8 :=
  fun i => Ideal.exp (min hi (max lo (∑ j : Fin 128, term e Kg Qg We b (ix2 (i 0) j) * S (ix2 j (i 1)))))

/-- A lane's message: `V` times the head's score, broadcast through the transposed table. -/
def msgK {n : Nat} (e : R2 n 64) (Kg Qg Vg : R2 n 128) (We : R2 64 128) (b : R2 1 128) (S : R2 128 8) (St : R2 8 128) :
    R2 n 128 :=
  fun i => Vg i * ∑ h : Fin 8, scoreK e Kg Qg We b S (ix2 (i 0) h) * St (ix2 h (i 1))

/-- Messages and scores side by side: 128 + 8 columns. -/
def side {n : Nat} (msg : R2 n 128) (sc : R2 n 8) : R2 n 136 :=
  fun i => if h : (i 1).val < 128 then msg (ix2 (i 0) ⟨(i 1).val, h⟩) else sc (ix2 (i 0) ⟨(i 1).val - 128, by have := idx2_lt1 i; omega⟩)

/-- What lands on each node, column by column. -/
def collect {n C : Nat} (dst : Words n) (u : R2 n C) : R2 50000 C :=
  fun i => ∑ j ∈ landing dst (i 0).val, u (ix2 j (i 1))

/-- The blocked result: the collected messages over the collected scores plus the shift, per head and lane. -/
def outK0 {n : Nat} (dst : Words n) (msg : R2 n 128) (sc : R2 n 8) : R3 50000 8 16 :=
  fun i => Ideal.div (collect dst (side msg sc) (ix2 (i 0) ⟨16 * (i 1).val + (i 2).val, by
      have h1 : (i 1).val < 8 := (i 1).isLt; have h2 : (i 2).val < 16 := (i 2).isLt; omega⟩))
    (collect dst (side msg sc) (ix2 (i 0) ⟨128 + (i 1).val, by have h1 : (i 1).val < 8 := (i 1).isLt; omega⟩) + eps)

/-- The scores, with a unit axis appended. -/
def outK1 {n : Nat} (sc : R2 n 8) : R3 n 8 1 := fun i => sc (ix2 (i 0) (i 1))

/-! ## The whole-array spelling -/

/-- Two 64-lane rows joined into one of 128. -/
def cat {n : Nat} (x y : R2 n 64) : R2 n 128 :=
  fun i => if h : (i 1).val < 64 then x (ix2 (i 0) ⟨(i 1).val, h⟩) else y (ix2 (i 0) ⟨(i 1).val - 64, by have := idx2_lt1 i; omega⟩)

/-- `[x | y] · W + b`, per head and lane. -/
def projR {n : Nat} (x y : R2 n 64) (W : R2 128 128) (b : R1 128) : R3 n 8 16 :=
  fun i => (∑ k : Fin 128, cat x y (ix2 (i 0) k) * W (ix2 k (lane (i 1) (i 2)))) + b (ix1 (lane (i 1) (i 2)))

/-- `e · We + b`, per head and lane. -/
def eprojR {n : Nat} (e : R2 n 64) (We : R2 64 128) (b : R1 128) : R3 n 8 16 :=
  fun i => (∑ k : Fin 64, e (ix2 (i 0) k) * We (ix2 k (lane (i 1) (i 2)))) + b (ix1 (lane (i 1) (i 2)))

/-- A head's score: the sum over its 16 lanes, clipped, exponentiated. -/
def scoreR {n : Nat} (K Q : R3 50000 8 16) (E : R3 n 8 16) (src dst : Words n) : R3 n 8 1 :=
  fun i => Ideal.exp (min hi (max lo (∑ d : Fin 16,
    ((K (ix3 (rowOf (src (ix1 (i 0)))) (i 1) d) * Q (ix3 (rowOf (dst (ix1 (i 0)))) (i 1) d)) * quarter) * E (ix3 (i 0) (i 1) d))))

/-- What lands on each node, per head and position. -/
def collect3 {n B : Nat} (dst : Words n) (u : R3 n 8 B) : R3 50000 8 B :=
  fun i => ∑ j ∈ landing dst (i 0).val, u (ix3 j (i 1) (i 2))

/-- The whole-array result. -/
def outR0 {n : Nat} (V : R3 50000 8 16) (sc : R3 n 8 1) (src dst : Words n) : R3 50000 8 16 :=
  fun i => Ideal.div (collect3 dst (fun j : (⟨3, ![n, 8, 16]⟩ : Shape).Idx => V (ix3 (rowOf (src (ix1 (j 0)))) (j 1) (j 2)) * sc (ix3 (j 0) (j 1) 0)) i)
    (collect3 dst sc (ix3 (i 0) (i 1) 0) + eps)

/-! ## Both spellings as functions of the inputs -/

section Inputs
variable {n : Nat} (h p : R2 50000 64) (e : R2 n 64) (src dst : Words n)
  (Wq : R2 128 128) (bq : R1 128) (Wk : R2 128 128) (bk : R1 128) (Wv : R2 128 128) (bv : R1 128) (We : R2 64 128) (be : R1 128)

/-- The blocked node tables. -/
def kerQ : R2 50000 128 := proj h p (topHalf Wq) (botHalf Wq) (asRow bq)
def kerK : R2 50000 128 := proj h p (topHalf Wk) (botHalf Wk) (asRow bk)
def kerV : R2 50000 128 := proj h p (topHalf Wv) (botHalf Wv) (asRow bv)
/-- The blocked scores and messages. -/
def kerScore : R2 n 8 :=
  scoreK e (takeRows (kerK h p Wk bk) src) (takeRows (kerQ h p Wq bq) dst) We (asRow be) selS
def kerMsg : R2 n 128 :=
  msgK e (takeRows (kerK h p Wk bk) src) (takeRows (kerQ h p Wq bq) dst) (takeRows (kerV h p Wv bv) src) We (asRow be) selS selSt
/-- The blocked results. -/
def kerOut0 : R3 50000 8 16 := outK0 dst (kerMsg h p e src dst Wq bq Wk bk Wv bv We be) (kerScore h p e src dst Wq bq Wk bk We be)
def kerOut1 : R3 n 8 1 := outK1 (kerScore h p e src dst Wq bq Wk bk We be)

/-- The whole-array results. -/
def refOut1 : R3 n 8 1 := scoreR (projR h p Wk bk) (projR h p Wq bq) (eprojR e We be) src dst
def refOut0 : R3 50000 8 16 := outR0 (projR h p Wv bv) (refOut1 h p e src dst Wq bq Wk bk We be) src dst

end Inputs

end Cert.Spec

end
-- ==== Proof.Bridge.lean ====
/-
  The two spellings of the layer are one function. Three facts about finite sums over the extended reals carry it:
  a contraction over the 128 joined lanes is the contraction over the first 64 plus the contraction over the last 64;
  a sum of 128 lane terms against the 0/1 table of a head keeps that head's 16 lanes (`x * 0 = 0` and `x * 1 = x` for
  every extended real, infinite ones included); a sum over the 8 heads against the transposed table keeps the lane's
  own head. No order of summation matters: addition of extended reals is commutative and associative.
-/
import proofs.«414019_j17703855194487_2_alg».proof.Proof.Spec

noncomputable section

open scoped BigOperators

namespace Cert.Spec

open Idealize.ShloMosaic Idealize.ShloMosaic.ValueIdx

/-! ## Lanes and heads -/

theorem head_lane (h : Fin 8) (d : Fin 16) : head (lane h d) = h := by
  apply Fin.ext
  show (16 * h.val + d.val) / 16 = h.val
  have := d.isLt
  omega

theorem lane_val (h : Fin 8) (d : Fin 16) : (lane h d).val = 16 * h.val + d.val := rfl

/-- A sum over the 128 lanes is the sum over the heads of the sums over each head's 16 lanes. -/
theorem sum_lanes {M : Type} [AddCommMonoid M] (g : Fin 128 → M) :
    ∑ j, g j = ∑ a : Fin 8, ∑ d : Fin 16, g (lane a d) := by
  rw [← Fintype.sum_prod_type' (f := fun a d => g (lane a d))]
  rw [← Equiv.sum_comp (finProdFinEquiv (m := 8) (n := 16)) g]
  refine Finset.sum_congr rfl fun x _ => congrArg g (Fin.ext ?_)
  show x.2.val + 16 * x.1.val = 16 * x.1.val + x.2.val
  omega

/-- Against the 0/1 table of head `h` only the head's own lanes survive. -/
theorem sum_sel (f : Fin 128 → EReal) (h : Fin 8) :
    ∑ j : Fin 128, f j * (if j.val / 16 = h.val then (1 : EReal) else 0) = ∑ d : Fin 16, f (lane h d) := by
  rw [sum_lanes]
  have e : ∀ a : Fin 8, ∑ d : Fin 16, f (lane a d) * (if (lane a d).val / 16 = h.val then (1 : EReal) else 0)
      = if a = h then ∑ d : Fin 16, f (lane a d) else 0 := by
    intro a
    have hq : ∀ d : Fin 16, (lane a d).val / 16 = a.val := fun d => congrArg Fin.val (head_lane a d)
    by_cases hah : a = h
    · subst hah
      rw [if_pos rfl]
      exact Finset.sum_congr rfl fun d _ => by rw [hq d, if_pos rfl, mul_one]
    · rw [if_neg hah]
      exact Finset.sum_eq_zero fun d _ => by
        rw [hq d, if_neg (fun hh => hah (Fin.ext hh)), mul_zero]
  rw [Finset.sum_congr rfl fun a _ => e a, Finset.sum_ite_eq' Finset.univ h]
  simp

/-- Against the transposed table only the lane's own head survives. -/
theorem sum_selT (s : Fin 8 → EReal) (j : Fin 128) :
    ∑ h : Fin 8, s h * (if j.val / 16 = h.val then (1 : EReal) else 0) = s (head j) := by
  have e : ∀ h : Fin 8, s h * (if j.val / 16 = h.val then (1 : EReal) else 0) = if head j = h then s h else 0 := by
    intro h
    by_cases hh : head j = h
    · rw [if_pos hh, if_pos (show j.val / 16 = h.val from congrArg Fin.val hh), mul_one]
    · rw [if_neg hh, if_neg (fun e' : j.val / 16 = h.val => hh (Fin.ext e')), mul_zero]
  rw [Finset.sum_congr rfl fun h _ => e h, Finset.sum_ite_eq Finset.univ (head j)]
  simp

/-- A sum over 128 = 64 + 64 positions is the sum over the first 64 plus the sum over the last 64. -/
theorem sum_halves {M : Type} [AddCommMonoid M] (g : Fin 128 → M) :
    ∑ k : Fin 128, g k = ∑ k : Fin 64, g ⟨k.val, by omega⟩ + ∑ k : Fin 64, g ⟨64 + k.val, by omega⟩ := by
  have := Fin.sum_univ_add (a := 64) (b := 64) (f := fun k : Fin (64 + 64) => g ⟨k.val, k.isLt⟩)
  exact this

/-! ## The node tables -/

/-- The blocked projection at a head's lane is the whole-array projection at (head, lane). -/
theorem proj_lane {n : Nat} (x y : R2 n 64) (W : R2 128 128) (b : R1 128) (r : Fin n) (h : Fin 8) (d : Fin 16) :
    proj x y (topHalf W) (botHalf W) (asRow b) (ix2 r (lane h d)) = projR x y W b (ix3 r h d) := by
  show (∑ k : Fin 64, x (ix2 r k) * W (ix2 ⟨k.val, _⟩ (lane h d)) + ∑ k : Fin 64, y (ix2 r k) * W (ix2 ⟨64 + k.val, _⟩ (lane h d)))
      + b (ix1 (lane h d))
    = (∑ k : Fin 128, cat x y (ix2 r k) * W (ix2 k (lane h d))) + b (ix1 (lane h d))
  congr 1
  rw [sum_halves]
  congr 1

/-- The edge projection likewise. -/
theorem eproj_lane {n : Nat} (e : R2 n 64) (We : R2 64 128) (b : R1 128) (i : Fin n) (h : Fin 8) (d : Fin 16) :
    eproj e We (asRow b) (ix2 i (lane h d)) = eprojR e We b (ix3 i h d) := rfl

/-! ## The scores -/

section Inputs
variable {n : Nat} (h p : R2 50000 64) (e : R2 n 64) (src dst : Words n)
  (Wq : R2 128 128) (bq : R1 128) (Wk : R2 128 128) (bk : R1 128) (Wv : R2 128 128) (bv : R1 128) (We : R2 64 128) (be : R1 128)

/-- The blocked score of edge `i` on head `a` is the whole-array one. -/
theorem score_eq (i : Fin n) (a : Fin 8) :
    kerScore h p e src dst Wq bq Wk bk We be (ix2 i a) = refOut1 h p e src dst Wq bq Wk bk We be (ix3 i a 0) := by
  show Ideal.exp (min hi (max lo (∑ j : Fin 128,
        term e (takeRows (kerK h p Wk bk) src) (takeRows (kerQ h p Wq bq) dst) We (asRow be) (ix2 i j)
          * (if j.val / 16 = a.val then (1 : EReal) else 0))))
    = Ideal.exp (min hi (max lo (∑ d : Fin 16,
        ((projR h p Wk bk (ix3 (rowOf (src (ix1 i))) a d) * projR h p Wq bq (ix3 (rowOf (dst (ix1 i))) a d)) * quarter)
          * eprojR e We be (ix3 i a d))))
  rw [sum_sel (fun j => term e (takeRows (kerK h p Wk bk) src) (takeRows (kerQ h p Wq bq) dst) We (asRow be) (ix2 i j)) a]
  congr 3
  refine Finset.sum_congr rfl fun d _ => ?_
  show ((kerK h p Wk bk (ix2 (rowOf (src (ix1 i))) (lane a d)) * kerQ h p Wq bq (ix2 (rowOf (dst (ix1 i))) (lane a d))) * quarter)
      * eproj e We (asRow be) (ix2 i (lane a d)) = _
  rw [eproj_lane]
  unfold kerK kerQ
  rw [proj_lane, proj_lane]

/-- The second results agree. -/
theorem out1_eq : kerOut1 h p e src dst Wq bq Wk bk We be = refOut1 h p e src dst Wq bq Wk bk We be := by
  funext i
  obtain ⟨r, a, z, rfl⟩ : ∃ (r : Fin n) (a : Fin 8) (z : Fin 1), i = ix3 r a z := ⟨i 0, i 1, i 2, eq_ix3 i⟩
  obtain rfl : z = 0 := Subsingleton.elim _ _
  exact score_eq h p e src dst Wq bq Wk bk We be r a

/-- The blocked message of edge `i` on a head's lane: the node's row times the head's score. -/
theorem msg_eq (i : Fin n) (a : Fin 8) (d : Fin 16) :
    kerMsg h p e src dst Wq bq Wk bk Wv bv We be (ix2 i (lane a d))
      = projR h p Wv bv (ix3 (rowOf (src (ix1 i))) a d) * refOut1 h p e src dst Wq bq Wk bk We be (ix3 i a 0) := by
  show kerV h p Wv bv (ix2 (rowOf (src (ix1 i))) (lane a d))
      * (∑ b : Fin 8, kerScore h p e src dst Wq bq Wk bk We be (ix2 i b) * (if (lane a d).val / 16 = b.val then (1 : EReal) else 0)) = _
  rw [sum_selT (fun b => kerScore h p e src dst Wq bq Wk bk We be (ix2 i b)) (lane a d), head_lane, score_eq]
  unfold kerV
  rw [proj_lane]

/-! ## The results -/

/-- The first results agree. -/
theorem out0_eq : kerOut0 h p e src dst Wq bq Wk bk Wv bv We be = refOut0 h p e src dst Wq bq Wk bk Wv bv We be := by
  funext i
  obtain ⟨r, a, d, rfl⟩ : ∃ (r : Fin 50000) (a : Fin 8) (d : Fin 16), i = ix3 r a d := ⟨i 0, i 1, i 2, eq_ix3 i⟩
  show Ideal.div
      (∑ j ∈ landing dst r.val, side (kerMsg h p e src dst Wq bq Wk bk Wv bv We be) (kerScore h p e src dst Wq bq Wk bk We be)
        (ix2 j ⟨16 * a.val + d.val, _⟩))
      ((∑ j ∈ landing dst r.val, side (kerMsg h p e src dst Wq bq Wk bk Wv bv We be) (kerScore h p e src dst Wq bq Wk bk We be)
        (ix2 j ⟨128 + a.val, _⟩)) + eps)
    = Ideal.div
      (∑ j ∈ landing dst r.val, projR h p Wv bv (ix3 (rowOf (src (ix1 j))) a d) * refOut1 h p e src dst Wq bq Wk bk We be (ix3 j a 0))
      ((∑ j ∈ landing dst r.val, refOut1 h p e src dst Wq bq Wk bk We be (ix3 j a 0)) + eps)
  congr 1
  · refine Finset.sum_congr rfl fun j _ => ?_
    have hlt : 16 * a.val + d.val < 128 := by have := a.isLt; have := d.isLt; omega
    show (if hc : 16 * a.val + d.val < 128 then kerMsg h p e src dst Wq bq Wk bk Wv bv We be (ix2 j ⟨16 * a.val + d.val, hc⟩) else _) = _
    rw [dif_pos hlt]
    exact msg_eq h p e src dst Wq bq Wk bk Wv bv We be j a d
  · congr 1
    refine Finset.sum_congr rfl fun j _ => ?_
    show (if hc : 128 + a.val < 128 then _ else kerScore h p e src dst Wq bq Wk bk We be (ix2 j ⟨128 + a.val - 128, _⟩)) = _
    rw [dif_neg (by omega)]
    rw [← score_eq]
    congr 2
    apply Fin.ext
    show 128 + a.val - 128 = a.val
    omega

end Inputs

/-! ## The same, from arguments that agree -/

/-- The whole-array first result of arguments equal to the blocked program's is the blocked first result. -/
theorem out0_of_agree {n : Nat} {h h' : R2 50000 64} {p p' : R2 50000 64} {e e' : R2 n 64} {src src' : Words n} {dst dst' : Words n} {Wq Wq' : R2 128 128} {bq bq' : R1 128} {Wk Wk' : R2 128 128} {bk bk' : R1 128} {Wv Wv' : R2 128 128} {bv bv' : R1 128} {We We' : R2 64 128} {be be' : R1 128}
    (e_h : h' = h) (e_p : p' = p) (e_e : e' = e) (e_src : src' = src) (e_dst : dst' = dst) (e_Wq : Wq' = Wq) (e_bq : bq' = bq) (e_Wk : Wk' = Wk) (e_bk : bk' = bk) (e_Wv : Wv' = Wv) (e_bv : bv' = bv) (e_We : We' = We) (e_be : be' = be) :
    refOut0 h' p' e' src' dst' Wq' bq' Wk' bk' Wv' bv' We' be' = kerOut0 h p e src dst Wq bq Wk bk Wv bv We be := by
  subst e_h e_p e_e e_src e_dst e_Wq e_bq e_Wk e_bk e_Wv e_bv e_We e_be
  exact (out0_eq _ _ _ _ _ _ _ _ _ _ _ _ _).symm

/-- The same for the second result. -/
theorem out1_of_agree {n : Nat} {h h' : R2 50000 64} {p p' : R2 50000 64} {e e' : R2 n 64} {src src' : Words n} {dst dst' : Words n} {Wq Wq' : R2 128 128} {bq bq' : R1 128} {Wk Wk' : R2 128 128} {bk bk' : R1 128} {We We' : R2 64 128} {be be' : R1 128}
    (e_h : h' = h) (e_p : p' = p) (e_e : e' = e) (e_src : src' = src) (e_dst : dst' = dst) (e_Wq : Wq' = Wq) (e_bq : bq' = bq) (e_Wk : Wk' = Wk) (e_bk : bk' = bk) (e_We : We' = We) (e_be : be' = be) :
    refOut1 h' p' e' src' dst' Wq' bq' Wk' bk' We' be' = kerOut1 h p e src dst Wq bq Wk bk We be := by
  subst e_h e_p e_e e_src e_dst e_Wq e_bq e_Wk e_bk e_We e_be
  exact (out1_eq _ _ _ _ _ _ _ _ _ _ _).symm

end Cert.Spec

end
-- ==== Proof.PreDecode.lean ====
/-
  The precondition read back: its last two conjuncts say that every source word and every destination word, read
  signed, lies in [0, 50000) — each is a conjunction over all positions (an and-reduction that came out 1) of
  `word ≥ 0` and `word < 50000`.
-/
import proofs.«414019_j17703855194487_2_alg».proof.Defs
import proofs.«414019_j17703855194487_2_alg».proof.Proof.Gen.Pre_finite_inputs
import proofs.«414019_j17703855194487_2_alg».proof.Proof.Spec
import Idealize.ShloMosaic.Lib.ReduceAll
import Idealize.ShloMosaic.Lib.ValueIdx

noncomputable section

namespace Cert.PreDecode

open Idealize.ShloMosaic Idealize.ShloMosaic.ValueIdx Cert.Pre_finite_inputs

instance : Subsingleton S_.Idx := ⟨fun a b => funext fun d => d.elim0⟩

/-- One conjunct: an and-reduction of `(a ≥ 0) ∧ (a < 50000)` over all positions that is 1 bounds every word. -/
theorem inRange_of_all (a : IVec S800000 32) (z t : IVec S800000 32) (hz : ∀ j, z j = 0#32) (ht : ∀ j, t j = 50000#32)
    (hall : ∀ j, andi (cmpi .sge a z) (cmpi .slt a t) j = 1#1) : Cert.Spec.InRange a := by
  intro i
  obtain ⟨h1, h2⟩ := IntOp.andi_eq_one.1 (hall (ix1 i))
  have h1' := IntOp.cmpi_sge.1 h1
  have h2' := IntOp.cmpi_slt.1 h2
  rw [hz] at h1'
  rw [ht] at h2'
  have e0 : (0#32 : BitVec 32).toInt = 0 := by decide
  have e1 : (50000#32 : BitVec 32).toInt = 50000 := by decide
  rw [e0] at h1'
  rw [e1] at h2'
  exact ⟨h1', h2'⟩

/-- The precondition's function at 1 puts the source words and the destination words in range. -/
theorem inRange_of_fn [Cert.Pre_finite_inputs.Facts]
    (a0 a1 : FVec Ideal S50000x64 .f32) (a2 : FVec Ideal S800000x64 .f32) (a3 a4 : IVec S800000 32)
    (a5 : FVec Ideal S128x128 .f32) (a6 : FVec Ideal S128 .f32) (a7 : FVec Ideal S128x128 .f32) (a8 : FVec Ideal S128 .f32)
    (a9 : FVec Ideal S128x128 .f32) (a10 : FVec Ideal S128 .f32) (a11 : FVec Ideal S64x128 .f32) (a12 : FVec Ideal S128 .f32)
    (h : Cert.Pre_finite_inputs.fn (F := Ideal) a0 a1 a2 a3 a4 a5 a6 a7 a8 a9 a10 a11 a12 = fun _ => 1#1) :
    Cert.Spec.InRange a3 ∧ Cert.Spec.InRange a4 := by
  have h0 := congrFun h ix0
  dsimp only [Cert.Pre_finite_inputs.fn, Cert.Pre_finite_inputs.fn_part1, Cert.Pre_finite_inputs.fn_part2, Cert.Pre_finite_inputs.fn_part3] at h0
  obtain ⟨h60, h66⟩ := IntOp.andi_eq_one.1 h0
  obtain ⟨-, h59⟩ := IntOp.andi_eq_one.1 h60
  clear h0 h60
  exact ⟨inRange_of_all a3 _ _ (fun _ => rfl) (fun _ => rfl) (fun j => Host.reduce_andi_all _ _ _ _ _ h59 j),
    inRange_of_all a4 _ _ (fun _ => rfl) (fun _ => rfl) (fun j => Host.reduce_andi_all _ _ _ _ _ h66 j)⟩

end Cert.PreDecode

end
-- ==== Proof.NodeValue.lean ====
import proofs.«414019_j17703855194487_2_alg».proof.Proof.Gen.KernelIdeal.Frame
import proofs.«414019_j17703855194487_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Idealize.ShloMosaic Idealize.ShloMosaic.TcCoe Idealize.SL.Sem Idealize.ShloMosaic.ValueIdx
open Cert.KernelIdeal Cert.KernelIdeal.Gen
open scoped BigOperators

/-! ## One contraction of a 5000 x 64 block with a 64 x 128 table, read at an entry

The operand indices of the contraction at output entry (p, q) and contraction position k are (p, k) on the left and
(k, q) on the right: one lemma per axis. -/

theorem dot_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dot_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem dot_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem dot_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The contraction into the zero table at entry (p, q): the sum over k of left (p, k) times right (k, q). -/
theorem mm_apply {φ₁ φ₂ : FTy} (a : FVec Ideal S5000x64 φ₁) (w : FVec Ideal S64x128 φ₂) (p : Fin 5000) (q : Fin 128) :
    matmul dot_S5000x64_S64x128_S5000x128_1_0_0_1_n_n none a w (constant (F := Ideal) S5000x128 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact dot_lhs_0 _ _
    | ⟨1, _⟩ => exact (dot_lhs_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (dot_rhs_0 _ _).trans hk
    | ⟨1, _⟩ => exact dot_rhs_1 _ _)
  rw [el, er]

/-- The one-row table spread over 5000 rows reads its row at every row. -/
theorem bias_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- What a point's block of each output holds at entry (p, q), as a function of the point's five input blocks:
    the two half contractions added, then the bias row. -/
abbrev blockVal (x0 x1 : Vec Ideal S5000x64 .f32) (wh wp : Vec Ideal S64x128 .f32) (b : Vec Ideal S1x128 .f32)
    (p : Fin 5000) (q : Fin 128) : EReal :=
  (∑ k : Fin 64, x0 (ix2 p k) * wh (ix2 k q) + ∑ k : Fin 64, x1 (ix2 p k) * wp (ix2 k q)) + b (ix2 0 q)

theorem pay7_apply (x0 x1 : Vec Ideal S5000x64 .f32) (wh wp : Vec Ideal S64x128 .f32) (b : Vec Ideal S1x128 .f32)
    (p : Fin 5000) (q : Fin 128) : k0_pay7 x0 x1 wh wp b (ix2 p q) = blockVal x0 x1 wh wp b p q := by
  unfold k0_pay7 k0_pay3 k0_pay4
  simp only [shapeCast_self]
  rw [addf_apply, addf_apply, mm_apply, mm_apply, bias_apply]
  rfl

theorem pay1_apply (x0 x1 : Vec Ideal S5000x64 .f32) (wh wp : Vec Ideal S64x128 .f32) (b : Vec Ideal S1x128 .f32)
    (p : Fin 5000) (q : Fin 128) : k0_pay1 (k0_pay8 x0 x1 wh wp) b (ix2 p q) = blockVal x0 x1 wh wp b p q := by
  unfold k0_pay1 k0_pay8 k0_pay3 k0_pay4
  simp only [shapeCast_self]
  rw [addf_apply, addf_apply, mm_apply, mm_apply, bias_apply]
  rfl

theorem pay2_apply (x0 x1 : Vec Ideal S5000x64 .f32) (wh wp : Vec Ideal S64x128 .f32) (b : Vec Ideal S1x128 .f32)
    (p : Fin 5000) (q : Fin 128) :
    k0_pay2 (k0_pay3 x0) (k0_pay4 x1) (k0_pay5 wh) (k0_pay6 wp) b (ix2 p q) = blockVal x0 x1 wh wp b p q := by
  unfold k0_pay2 k0_pay3 k0_pay4 k0_pay5 k0_pay6
  simp only [shapeCast_self]
  rw [addf_apply, addf_apply, mm_apply, mm_apply, bias_apply]
  rfl

/-! ## Where each block sits in its array

Point t of the grid works on rows 5000 t .. 5000 t + 4999: the two feature tables and the three outputs are cut into
ten row blocks (block index (t, 0)), the weight halves and bias rows are one block each (block index (0, 0)). -/

theorem hz : (![0, 0] : Fin 2 → Nat) = fun _ => 0 := funext fun a => by fin_cases a <;> rfl

/-- The block indices, decided once over the ten points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

variable (V : (c : Dev nD) → (b : Ref sig .tc) → Buf (Elt Ideal) ((c : Thread nD τ).loc b))

/-- Row p of point t's block of the first feature table is row 5000 t + p of the table. -/
theorem blk_x (c : Dev nD) (t : Fin cfg0.N) (p : Fin 5000) (k : Fin 64) (r : Fin 50000) (hr : r.val = t.val * 5000 + p.val) :
    (iblk0 V c 0 t : Vec Ideal S5000x64 .f32) (ix2 p k) = (V c main_arg0 : Cert.Spec.R2 50000 64) (ix2 r k) := by
  obtain ⟨⟨e0, e1⟩, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The same for the second feature table. -/
theorem blk_y (c : Dev nD) (t : Fin cfg0.N) (p : Fin 5000) (k : Fin 64) (r : Fin 50000) (hr : r.val = t.val * 5000 + p.val) :
    (iblk0 V c 1 t : Vec Ideal S5000x64 .f32) (ix2 p k) = (V c main_arg1 : Cert.Spec.R2 50000 64) (ix2 r k) := by
  obtain ⟨-, ⟨e0, e1⟩, -⟩ := idx_facts t
  unfold iblk0
  rw [View.read_apply]
  show V c main_arg1 _ = V c main_arg1 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- A weight half's one block is the whole half, at every point. -/
theorem blk_w2 (c : Dev nD) (t : Fin cfg0.N) : (iblk0 V c 2 t : Vec Ideal S64x128 .f32) = (V c main_v0 : Cert.Spec.R2 64 128) := by
  obtain ⟨-, -, ⟨e0, e1⟩, -⟩ := idx_facts t
  funext y
  unfold iblk0
  rw [View.read_apply]
  show V c main_v0 _ = V c main_v0 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

theorem blk_w3 (c : Dev nD) (t : Fin cfg0.N) : (iblk0 V c 3 t : Vec Ideal S64x128 .f32) = (V c main_v1 : Cert.Spec.R2 64 128) := by
  obtain ⟨-, -, -, ⟨e0, e1⟩, -⟩ := idx_facts t
  funext y
  unfold iblk0
  rw [View.read_apply]
  show V c main_v1 _ = V c main_v1 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

/-- A bias row's one block is the whole row, at every point. -/
theorem blk_w4 (c : Dev nD) (t : Fin cfg0.N) : (iblk0 V c 4 t : Vec Ideal S1x128 .f32) = (V c main_v6 : Cert.Spec.R2 1 128) := by
  obtain ⟨-, -, -, -, ⟨e0, e1⟩, -⟩ := idx_facts t
  funext y
  unfold iblk0
  rw [View.read_apply]
  show V c main_v6 _ = V c main_v6 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem blk_w5 (c : Dev nD) (t : Fin cfg0.N) : (iblk0 V c 5 t : Vec Ideal S64x128 .f32) = (V c main_v2 : Cert.Spec.R2 64 128) := by
  obtain ⟨-, -, -, -, -, ⟨e0, e1⟩, -⟩ := idx_facts t
  funext y
  unfold iblk0
  rw [View.read_apply]
  show V c main_v2 _ = V c main_v2 _
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 128 + 1 * (y 1).val = (y 1).val; rw [e1]; omega

theorem blk_w6 (c : Dev nD) (t : Fin cfg0.N) : (iblk0 V c 6 t : Vec Ideal S64x128 .f32) = (V c main_v3 : Cert.Spec.R2 64 128) := by
  obtain ⟨-, -, -, -, -, -, ⟨e0, e1⟩, -⟩ := idx_facts t
  funext y
  unfold iblk0
  rw [View.read_apply]
  show V c main_v3 _ = V c main_v3 _
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 128 + 1 * (y 1).val = (y 1).val; rw [e1]; omega

theorem blk_w7 (c : Dev nD) (t : Fin cfg0.N) : (iblk0 V c 7 t : Vec Ideal S1x128 .f32) = (V c main_v7 : Cert.Spec.R2 1 128) := by
  obtain ⟨-, -, -, -, -, -, -, ⟨e0, e1⟩, -⟩ := idx_facts t
  funext y
  unfold iblk0
  rw [View.read_apply]
  show V c main_v7 _ = V c main_v7 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem blk_w8 (c : Dev nD) (t : Fin cfg0.N) : (iblk0 V c 8 t : Vec Ideal S64x128 .f32) = (V c main_v4 : Cert.Spec.R2 64 128) := by
  obtain ⟨-, -, -, -, -, -, -, -, ⟨e0, e1⟩, -⟩ := idx_facts t
  funext y
  unfold iblk0
  rw [View.read_apply]
  show V c main_v4 _ = V c main_v4 _
  congr 1
  funext a
  apply Fin.ext
  match a with
  | ⟨0, _⟩ => show win0_8.index t (0 : Fin 2) * 64 + 1 * (y 0).val = (y 0).val; rw [e0]; omega
  | ⟨1, _⟩ => show win0_8.index t (1 : Fin 2) * 128 + 1 * (y 1).val = (y 1).val; rw [e1]; omega

theorem blk_w9 (c : Dev nD) (t : Fin cfg0.N) : (iblk0 V c 9 t : Vec Ideal S64x128 .f32) = (V c main_v5 : Cert.Spec.R2 64 128) := by
  obtain ⟨-, -, -, -, -, -, -, -, -, ⟨e0, e1⟩, -⟩ := idx_facts t
  funext y
  unfold iblk0
  rw [View.read_apply]
  show V c main_v5 _ = V c main_v5 _
  congr 1
  funext a
  apply Fin.ext
  match a with
  | ⟨0, _⟩ => show win0_9.index t (0 : Fin 2) * 64 + 1 * (y 0).val = (y 0).val; rw [e0]; omega
  | ⟨1, _⟩ => show win0_9.index t (1 : Fin 2) * 128 + 1 * (y 1).val = (y 1).val; rw [e1]; omega

theorem blk_w10 (c : Dev nD) (t : Fin cfg0.N) : (iblk0 V c 10 t : Vec Ideal S1x128 .f32) = (V c main_v8 : Cert.Spec.R2 1 128) := by
  obtain ⟨-, -, -, -, -, -, -, -, -, -, ⟨e0, e1⟩, -⟩ := idx_facts t
  funext y
  unfold iblk0
  rw [View.read_apply]
  show V c main_v8 _ = V c main_v8 _
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-! ## A block entry is the projection's entry

If the two feature blocks are rows of the tables X, Y starting at row r - p, and the weight and bias blocks are the
tables themselves, then entry (p, q) of the block value is entry (r, q) of the projection. -/

theorem point_val (X Y : Cert.Spec.R2 50000 64) (Wh Wp : Cert.Spec.R2 64 128) (B : Cert.Spec.R2 1 128)
    (x0 x1 : Vec Ideal S5000x64 .f32) (wh wp : Vec Ideal S64x128 .f32) (b : Vec Ideal S1x128 .f32)
    (p : Fin 5000) (q : Fin 128) (r : Fin 50000)
    (h0 : ∀ k : Fin 64, x0 (ix2 p k) = X (ix2 r k)) (h1 : ∀ k : Fin 64, x1 (ix2 p k) = Y (ix2 r k))
    (h2 : wh = Wh) (h3 : wp = Wp) (h4 : b = B) :
    blockVal x0 x1 wh wp b p q = Cert.Spec.proj X Y Wh Wp B (ix2 r q) := by
  subst h2 h3 h4
  unfold Cert.Spec.proj
  show (∑ k : Fin 64, x0 (ix2 p k) * wh (ix2 k q) + ∑ k : Fin 64, x1 (ix2 p k) * wp (ix2 k q)) + b (ix2 0 q)
    = (∑ k : Fin 64, X (ix2 r k) * wh (ix2 k q) + ∑ k : Fin 64, Y (ix2 r k) * wp (ix2 k q)) + b (ix2 0 q)
  simp only [h0, h1]

/-- Entry (p, q) of point t's block of an output is entry (5000 t + p, q) of the output. -/
theorem emb_out11 (t : Fin cfg0.N) (p : Fin 5000) (q : Fin 128) (r : Fin 50000) (hr : r.val = t.val * 5000 + p.val) :
    ((cfg0.win 11).blk t).view.emb (ix2 p q) = (ix2 r q : S50000x128.Idx) := by
  obtain ⟨-, -, -, -, -, -, -, -, -, -, -, ⟨e0, e1⟩, -⟩ := idx_facts t
  funext a
  apply Fin.ext
  match a with
  | ⟨0, _⟩ => show win0_11.index t (0 : Fin 2) * 5000 + 1 * p.val = r.val; rw [e0, hr]; omega
  | ⟨1, _⟩ => show win0_11.index t (1 : Fin 2) * 128 + 1 * q.val = q.val; rw [e1]; omega

theorem emb_out12 (t : Fin cfg0.N) (p : Fin 5000) (q : Fin 128) (r : Fin 50000) (hr : r.val = t.val * 5000 + p.val) :
    ((cfg0.win 12).blk t).view.emb (ix2 p q) = (ix2 r q : S50000x128.Idx) := by
  obtain ⟨-, -, -, -, -, -, -, -, -, -, -, -, ⟨e0, e1⟩, -⟩ := idx_facts t
  funext a
  apply Fin.ext
  match a with
  | ⟨0, _⟩ => show win0_12.index t (0 : Fin 2) * 5000 + 1 * p.val = r.val; rw [e0, hr]; omega
  | ⟨1, _⟩ => show win0_12.index t (1 : Fin 2) * 128 + 1 * q.val = q.val; rw [e1]; omega

theorem emb_out13 (t : Fin cfg0.N) (p : Fin 5000) (q : Fin 128) (r : Fin 50000) (hr : r.val = t.val * 5000 + p.val) :
    ((cfg0.win 13).blk t).view.emb (ix2 p q) = (ix2 r q : S50000x128.Idx) := by
  obtain ⟨-, -, -, -, -, -, -, -, -, -, -, -, -, e0, e1⟩ := idx_facts t
  funext a
  apply Fin.ext
  match a with
  | ⟨0, _⟩ => show win0_13.index t (0 : Fin 2) * 5000 + 1 * p.val = r.val; rw [e0, hr]; omega
  | ⟨1, _⟩ => show win0_13.index t (1 : Fin 2) * 128 + 1 * q.val = q.val; rw [e1]; omega

/-- The row of the tables that row p of point t's blocks is. -/
def rowAt (t : Fin cfg0.N) (p : Fin 5000) : Fin 50000 :=
  ⟨t.val * 5000 + p.val, by have h : t.val < 10 := lt_of_lt_of_eq t.isLt N_0; have := p.isLt; omega⟩

/-! ## What each point writes back -/

/-- Point t writes back block t of the projection with the first weight pair. -/
theorem flushed_Q (c : Dev nD) (t : Fin cfg0.N) :
    (dat0 (F := Ideal) V c).flushed 11 t = ((cfg0.win 11).blk t).view.read (Elt Ideal)
      (Cert.Spec.proj (V c main_arg0) (V c main_arg1) (V c main_v0) (V c main_v1) (V c main_v6)) := by
  show (cfg0.win 11).cut (grid0.coords t) ((dat0 (F := Ideal) V c).after 11 t) = _
  rw [after0_11]
  unfold out0_11
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  rw [View.read_apply, emb_out11 t p q (rowAt t p) rfl]
  refine (pay7_apply (iblk0 V c 0 t) (iblk0 V c 1 t) (iblk0 V c 2 t) (iblk0 V c 3 t) (iblk0 V c 4 t) p q).trans ?_
  exact point_val (V c main_arg0) (V c main_arg1) (V c main_v0) (V c main_v1) (V c main_v6)
    (iblk0 V c 0 t) (iblk0 V c 1 t) (iblk0 V c 2 t) (iblk0 V c 3 t) (iblk0 V c 4 t) p q (rowAt t p)
    (fun k => blk_x V c t p k (rowAt t p) rfl) (fun k => blk_y V c t p k (rowAt t p) rfl)
    (blk_w2 V c t) (blk_w3 V c t) (blk_w4 V c t)

/-- Point t writes back block t of the projection with the second weight pair. -/
theorem flushed_K (c : Dev nD) (t : Fin cfg0.N) :
    (dat0 (F := Ideal) V c).flushed 12 t = ((cfg0.win 12).blk t).view.read (Elt Ideal)
      (Cert.Spec.proj (V c main_arg0) (V c main_arg1) (V c main_v2) (V c main_v3) (V c main_v7)) := by
  show (cfg0.win 12).cut (grid0.coords t) ((dat0 (F := Ideal) V c).after 12 t) = _
  rw [after0_12]
  unfold out0_12
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  rw [View.read_apply, emb_out12 t p q (rowAt t p) rfl]
  refine (pay1_apply (iblk0 V c 0 t) (iblk0 V c 1 t) (iblk0 V c 5 t) (iblk0 V c 6 t) (iblk0 V c 7 t) p q).trans ?_
  exact point_val (V c main_arg0) (V c main_arg1) (V c main_v2) (V c main_v3) (V c main_v7)
    (iblk0 V c 0 t) (iblk0 V c 1 t) (iblk0 V c 5 t) (iblk0 V c 6 t) (iblk0 V c 7 t) p q (rowAt t p)
    (fun k => blk_x V c t p k (rowAt t p) rfl) (fun k => blk_y V c t p k (rowAt t p) rfl)
    (blk_w5 V c t) (blk_w6 V c t) (blk_w7 V c t)

/-- Point t writes back block t of the projection with the third weight pair. -/
theorem flushed_V (c : Dev nD) (t : Fin cfg0.N) :
    (dat0 (F := Ideal) V c).flushed 13 t = ((cfg0.win 13).blk t).view.read (Elt Ideal)
      (Cert.Spec.proj (V c main_arg0) (V c main_arg1) (V c main_v4) (V c main_v5) (V c main_v8)) := by
  show (cfg0.win 13).cut (grid0.coords t) ((dat0 (F := Ideal) V c).after 13 t) = _
  rw [after0_13]
  unfold out0_13
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  rw [View.read_apply, emb_out13 t p q (rowAt t p) rfl]
  refine (pay2_apply (iblk0 V c 0 t) (iblk0 V c 1 t) (iblk0 V c 8 t) (iblk0 V c 9 t) (iblk0 V c 10 t) p q).trans ?_
  exact point_val (V c main_arg0) (V c main_arg1) (V c main_v4) (V c main_v5) (V c main_v8)
    (iblk0 V c 0 t) (iblk0 V c 1 t) (iblk0 V c 8 t) (iblk0 V c 9 t) (iblk0 V c 10 t) p q (rowAt t p)
    (fun k => blk_x V c t p k (rowAt t p) rfl) (fun k => blk_y V c t p k (rowAt t p) rfl)
    (blk_w8 V c t) (blk_w9 V c t) (blk_w10 V c t)

/-! ## The ten row blocks fill each output

An entry of an output is in point t's block iff each coordinate is in the block's range on its axis; row r is in the
block of point r / 5000. -/

theorem mem_blk11 (t : Fin cfg0.N) (i : S50000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v9_0).slice (win0_11.rect t)).set ↔ _
  rw [View.set_slice_whole, Rect.mem_set_unit]
  exact Iff.rfl

theorem mem_blk12 (t : Fin cfg0.N) (i : S50000x128.Idx) :
    i ∈ ((cfg0.win 12).blk t).view.set ↔ ∀ a : Fin 2, win0_12.index t a * S5000x128.size a ≤ (i a).val ∧ (i a).val < win0_12.index t a * S5000x128.size a + S5000x128.size a := by
  show i ∈ ((View.whole main_v9_1).slice (win0_12.rect t)).set ↔ _
  rw [View.set_slice_whole, Rect.mem_set_unit]
  exact Iff.rfl

theorem mem_blk13 (t : Fin cfg0.N) (i : S50000x128.Idx) :
    i ∈ ((cfg0.win 13).blk t).view.set ↔ ∀ a : Fin 2, win0_13.index t a * S5000x128.size a ≤ (i a).val ∧ (i a).val < win0_13.index t a * S5000x128.size a + S5000x128.size a := by
  show i ∈ ((View.whole main_v9_2).slice (win0_13.rect t)).set ↔ _
  rw [View.set_slice_whole, Rect.mem_set_unit]
  exact Iff.rfl

/-- The point whose blocks hold row r. -/
def pointOf (i : S50000x128.Idx) : Fin cfg0.N :=
  ⟨(i 0).val / 5000, by have h : (i 0).val < 50000 := (i 0).isLt; exact lt_of_lt_of_eq (show (i 0).val / 5000 < 10 by omega) N_0.symm⟩

theorem cover11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  obtain ⟨-, -, -, -, -, -, -, -, -, -, -, ⟨e0, e1⟩, -⟩ := idx_facts (pointOf i)
  have ht : (pointOf i).val = (i 0).val / 5000 := rfl
  refine ⟨pointOf i, flush0_11 _, ?_⟩
  rw [mem_blk11]
  intro a
  match a with
  | ⟨0, _⟩ => show win0_11.index (pointOf i) (0 : Fin 2) * 5000 ≤ (i 0).val ∧ (i 0).val < win0_11.index (pointOf i) (0 : Fin 2) * 5000 + 5000; rw [e0, ht]; omega
  | ⟨1, _⟩ => show win0_11.index (pointOf i) (1 : Fin 2) * 128 ≤ (i 1).val ∧ (i 1).val < win0_11.index (pointOf i) (1 : Fin 2) * 128 + 128; rw [e1]; omega

theorem cover12 (i : S50000x128.Idx) : ∃ t : Fin cfg0.N, (cfg0.win 12).flush t = true ∧ i ∈ ((cfg0.win 12).blk t).view.set := by
  have hi0 : (i 0).val < 50000 := (i 0).isLt
  have hi1 : (i 1).val < 128 := (i 1).isLt
  obtain ⟨-, -, -, -, -, -, -, -, -, -, -, -, ⟨e0, e1⟩, -⟩ := idx_facts (pointOf i)
  have ht : (pointOf i).val = (i 0).val / 5000 := rfl
  refine ⟨pointOf i, flush0_12 _, ?_⟩
  rw [mem_blk12]
  intro a
  match a with
  | ⟨0, _⟩ => show win0_12.index (pointOf i) (0 : Fin 2) * 5000 ≤ (i 0).val ∧ (i 0).val < win0_12.index (pointOf i) (0 : Fin 2) * 5000 + 5000; rw [e0, ht]; omega
  | ⟨1, _⟩ => show win0_12.index (pointOf i) (1 : Fin 2) * 128 ≤ (i 1).val ∧ (i 1).val < win0_12.index (pointOf i) (1 : Fin 2) * 128 + 128; rw [e1]; omega

theorem cover13 (i : S50000x128.Idx) : ∃ t : Fin cfg0.N, (cfg0.win 13).flush t = true ∧ i ∈ ((cfg0.win 13).blk t).view.set := by
  have hi0 : (i 0).val < 50000 := (i 0).isLt
  have hi1 : (i 1).val < 128 := (i 1).isLt
  obtain ⟨-, -, -, -, -, -, -, -, -, -, -, -, -, e0, e1⟩ := idx_facts (pointOf i)
  have ht : (pointOf i).val = (i 0).val / 5000 := rfl
  refine ⟨pointOf i, flush0_13 _, ?_⟩
  rw [mem_blk13]
  intro a
  match a with
  | ⟨0, _⟩ => show win0_13.index (pointOf i) (0 : Fin 2) * 5000 ≤ (i 0).val ∧ (i 0).val < win0_13.index (pointOf i) (0 : Fin 2) * 5000 + 5000; rw [e0, ht]; omega
  | ⟨1, _⟩ => show win0_13.index (pointOf i) (1 : Fin 2) * 128 ≤ (i 1).val ∧ (i 1).val < win0_13.index (pointOf i) (1 : Fin 2) * 128 + 128; rw [e1]; omega

/-! ## The three node tables after the ten points -/

theorem arr_Q (c : Dev nD) : (dat0 (F := Ideal) V c).arrAt 11 cfg0.N
    = Cert.Spec.proj (V c main_arg0) (V c main_arg1) (V c main_v0) (V c main_v1) (V c main_v6) :=
  (dat0 (F := Ideal) V c).arrAt_eq_of_cover 11
    (Cert.Spec.proj (V c main_arg0) (V c main_arg1) (V c main_v0) (V c main_v1) (V c main_v6))
    (fun t _ => flushed_Q V c t) cover11

theorem arr_K (c : Dev nD) : (dat0 (F := Ideal) V c).arrAt 12 cfg0.N
    = Cert.Spec.proj (V c main_arg0) (V c main_arg1) (V c main_v2) (V c main_v3) (V c main_v7) :=
  (dat0 (F := Ideal) V c).arrAt_eq_of_cover 12
    (Cert.Spec.proj (V c main_arg0) (V c main_arg1) (V c main_v2) (V c main_v3) (V c main_v7))
    (fun t _ => flushed_K V c t) cover12

theorem arr_V (c : Dev nD) : (dat0 (F := Ideal) V c).arrAt 13 cfg0.N
    = Cert.Spec.proj (V c main_arg0) (V c main_arg1) (V c main_v4) (V c main_v5) (V c main_v8) :=
  (dat0 (F := Ideal) V c).arrAt_eq_of_cover 13
    (Cert.Spec.proj (V c main_arg0) (V c main_arg1) (V c main_v4) (V c main_v5) (V c main_v8))
    (fun t _ => flushed_V V c t) cover13

end Cert.KernelIdeal.NodeValue

end
-- ==== Proof.EdgeValue.lean ====
import proofs.«414019_j17703855194487_2_alg».proof.Proof.Gen.KernelIdeal.Frame
import proofs.«414019_j17703855194487_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Idealize.ShloMosaic Idealize.ShloMosaic.TcCoe Idealize.SL.Sem Idealize.ShloMosaic.ValueIdx
open Cert.KernelIdeal Cert.KernelIdeal.Gen

/-! ## The three contractions at an index -/

theorem lhs_e_0 (i : S3200x128.Idx) (q : dot_S3200x64_S64x128_S3200x128_1_0_0_1_n_n.contr.Idx) :
    (dot_S3200x64_S64x128_S3200x128_1_0_0_1_n_n.lhsIdx i q 0).val = (i 0).val := by
  unfold DotDims.lhsIdx
  rw [dif_neg (show ¬(0 : Fin S3200x64.rank) ∈ dot_S3200x64_S64x128_S3200x128_1_0_0_1_n_n.lhsBatch by decide), dif_pos (show (0 : Fin S3200x64.rank) ∈ dot_S3200x64_S64x128_S3200x128_1_0_0_1_n_n.lhsNonContracting by decide)]
  rfl
theorem lhs_e_1 (i : S3200x128.Idx) (q : dot_S3200x64_S64x128_S3200x128_1_0_0_1_n_n.contr.Idx) :
    (dot_S3200x64_S64x128_S3200x128_1_0_0_1_n_n.lhsIdx i q 1).val = (q ⟨0, by decide⟩).val :=
  dot_S3200x64_S64x128_S3200x128_1_0_0_1_n_n.lhsIdx_val_of_single rfl i q
theorem rhs_e_0 (i : S3200x128.Idx) (q : dot_S3200x64_S64x128_S3200x128_1_0_0_1_n_n.contr.Idx) :
    (dot_S3200x64_S64x128_S3200x128_1_0_0_1_n_n.rhsIdx i q 0).val = (q ⟨0, by decide⟩).val :=
  dot_S3200x64_S64x128_S3200x128_1_0_0_1_n_n.rhsIdx_val_of_single rfl i q
theorem rhs_e_1 (i : S3200x128.Idx) (q : dot_S3200x64_S64x128_S3200x128_1_0_0_1_n_n.contr.Idx) :
    (dot_S3200x64_S64x128_S3200x128_1_0_0_1_n_n.rhsIdx i q 1).val = (i 1).val := by
  unfold DotDims.rhsIdx
  rw [dif_neg (show ¬(1 : Fin S64x128.rank) ∈ dot_S3200x64_S64x128_S3200x128_1_0_0_1_n_n.rhsBatch by decide), dif_pos (show (1 : Fin S64x128.rank) ∈ dot_S3200x64_S64x128_S3200x128_1_0_0_1_n_n.rhsNonContracting by decide)]
  rfl

/-- The contraction read at row `p`, column `j`: the sum over the shared axis of the products. -/
theorem mm_e {φ₁ φ₂ : FTy} (prec : Option ContractPrecision) (a : FVec Ideal ⟨2, ![3200, 64]⟩ φ₁) (b : FVec Ideal ⟨2, ![64, 128]⟩ φ₂) (p : Fin 3200) (j : Fin 128) :
    matmul dot_S3200x64_S64x128_S3200x128_1_0_0_1_n_n prec a b (constant (F := Ideal) ⟨2, ![3200, 128]⟩ .f32 0x00000000#32) (ix2 p j) = ∑ k : Fin 64, a (ix2 p k) * b (ix2 k j) := by
  refine (Ideal.matmul_constant_zero_apply dot_S3200x64_S64x128_S3200x128_1_0_0_1_n_n prec a b (ix2 p j)).trans ?_
  rw [← Equiv.sum_comp (ValueIdx.contrEquiv1 dot_S3200x64_S64x128_S3200x128_1_0_0_1_n_n 64 rfl rfl).symm]
  refine Finset.sum_congr rfl fun k _ => ?_
  have hk := ValueIdx.contrEquiv1_symm_val dot_S3200x64_S64x128_S3200x128_1_0_0_1_n_n 64 rfl rfl k
  have el : dot_S3200x64_S64x128_S3200x128_1_0_0_1_n_n.lhsIdx (ix2 p j) ((ValueIdx.contrEquiv1 dot_S3200x64_S64x128_S3200x128_1_0_0_1_n_n 64 rfl rfl).symm k) = ix2 p k := funext fun a => Fin.ext (by
    match a with
    | ⟨0, _⟩ => exact lhs_e_0 _ _
    | ⟨1, _⟩ => exact (lhs_e_1 _ _).trans hk)
  have er : dot_S3200x64_S64x128_S3200x128_1_0_0_1_n_n.rhsIdx (ix2 p j) ((ValueIdx.contrEquiv1 dot_S3200x64_S64x128_S3200x128_1_0_0_1_n_n 64 rfl rfl).symm k) = ix2 k j := funext fun a => Fin.ext (by
    match a with
    | ⟨0, _⟩ => exact (rhs_e_0 _ _).trans hk
    | ⟨1, _⟩ => exact rhs_e_1 _ _)
  rw [el, er]

theorem lhs_s_0 (i : S3200x8.Idx) (q : dot_S3200x128_S128x8_S3200x8_1_0_0_1_n_n.contr.Idx) :
    (dot_S3200x128_S128x8_S3200x8_1_0_0_1_n_n.lhsIdx i q 0).val = (i 0).val := by
  unfold DotDims.lhsIdx
  rw [dif_neg (show ¬(0 : Fin S3200x128.rank) ∈ dot_S3200x128_S128x8_S3200x8_1_0_0_1_n_n.lhsBatch by decide), dif_pos (show (0 : Fin S3200x128.rank) ∈ dot_S3200x128_S128x8_S3200x8_1_0_0_1_n_n.lhsNonContracting by decide)]
  rfl
theorem lhs_s_1 (i : S3200x8.Idx) (q : dot_S3200x128_S128x8_S3200x8_1_0_0_1_n_n.contr.Idx) :
    (dot_S3200x128_S128x8_S3200x8_1_0_0_1_n_n.lhsIdx i q 1).val = (q ⟨0, by decide⟩).val :=
  dot_S3200x128_S128x8_S3200x8_1_0_0_1_n_n.lhsIdx_val_of_single rfl i q
theorem rhs_s_0 (i : S3200x8.Idx) (q : dot_S3200x128_S128x8_S3200x8_1_0_0_1_n_n.contr.Idx) :
    (dot_S3200x128_S128x8_S3200x8_1_0_0_1_n_n.rhsIdx i q 0).val = (q ⟨0, by decide⟩).val :=
  dot_S3200x128_S128x8_S3200x8_1_0_0_1_n_n.rhsIdx_val_of_single rfl i q
theorem rhs_s_1 (i : S3200x8.Idx) (q : dot_S3200x128_S128x8_S3200x8_1_0_0_1_n_n.contr.Idx) :
    (dot_S3200x128_S128x8_S3200x8_1_0_0_1_n_n.rhsIdx i q 1).val = (i 1).val := by
  unfold DotDims.rhsIdx
  rw [dif_neg (show ¬(1 : Fin S128x8.rank) ∈ dot_S3200x128_S128x8_S3200x8_1_0_0_1_n_n.rhsBatch by decide), dif_pos (show (1 : Fin S128x8.rank) ∈ dot_S3200x128_S128x8_S3200x8_1_0_0_1_n_n.rhsNonContracting by decide)]
  rfl

/-- The contraction read at row `p`, column `j`: the sum over the shared axis of the products. -/
theorem mm_s {φ₁ φ₂ : FTy} (prec : Option ContractPrecision) (a : FVec Ideal ⟨2, ![3200, 128]⟩ φ₁) (b : FVec Ideal ⟨2, ![128, 8]⟩ φ₂) (p : Fin 3200) (j : Fin 8) :
    matmul dot_S3200x128_S128x8_S3200x8_1_0_0_1_n_n prec a b (constant (F := Ideal) ⟨2, ![3200, 8]⟩ .f32 0x00000000#32) (ix2 p j) = ∑ k : Fin 128, a (ix2 p k) * b (ix2 k j) := by
  refine (Ideal.matmul_constant_zero_apply dot_S3200x128_S128x8_S3200x8_1_0_0_1_n_n prec a b (ix2 p j)).trans ?_
  rw [← Equiv.sum_comp (ValueIdx.contrEquiv1 dot_S3200x128_S128x8_S3200x8_1_0_0_1_n_n 128 rfl rfl).symm]
  refine Finset.sum_congr rfl fun k _ => ?_
  have hk := ValueIdx.contrEquiv1_symm_val dot_S3200x128_S128x8_S3200x8_1_0_0_1_n_n 128 rfl rfl k
  have el : dot_S3200x128_S128x8_S3200x8_1_0_0_1_n_n.lhsIdx (ix2 p j) ((ValueIdx.contrEquiv1 dot_S3200x128_S128x8_S3200x8_1_0_0_1_n_n 128 rfl rfl).symm k) = ix2 p k := funext fun a => Fin.ext (by
    match a with
    | ⟨0, _⟩ => exact lhs_s_0 _ _
    | ⟨1, _⟩ => exact (lhs_s_1 _ _).trans hk)
  have er : dot_S3200x128_S128x8_S3200x8_1_0_0_1_n_n.rhsIdx (ix2 p j) ((ValueIdx.contrEquiv1 dot_S3200x128_S128x8_S3200x8_1_0_0_1_n_n 128 rfl rfl).symm k) = ix2 k j := funext fun a => Fin.ext (by
    match a with
    | ⟨0, _⟩ => exact (rhs_s_0 _ _).trans hk
    | ⟨1, _⟩ => exact rhs_s_1 _ _)
  rw [el, er]

theorem lhs_t_0 (i : S3200x128.Idx) (q : dot_S3200x8_S8x128_S3200x128_1_0_0_1_n_n.contr.Idx) :
    (dot_S3200x8_S8x128_S3200x128_1_0_0_1_n_n.lhsIdx i q 0).val = (i 0).val := by
  unfold DotDims.lhsIdx
  rw [dif_neg (show ¬(0 : Fin S3200x8.rank) ∈ dot_S3200x8_S8x128_S3200x128_1_0_0_1_n_n.lhsBatch by decide), dif_pos (show (0 : Fin S3200x8.rank) ∈ dot_S3200x8_S8x128_S3200x128_1_0_0_1_n_n.lhsNonContracting by decide)]
  rfl
theorem lhs_t_1 (i : S3200x128.Idx) (q : dot_S3200x8_S8x128_S3200x128_1_0_0_1_n_n.contr.Idx) :
    (dot_S3200x8_S8x128_S3200x128_1_0_0_1_n_n.lhsIdx i q 1).val = (q ⟨0, by decide⟩).val :=
  dot_S3200x8_S8x128_S3200x128_1_0_0_1_n_n.lhsIdx_val_of_single rfl i q
theorem rhs_t_0 (i : S3200x128.Idx) (q : dot_S3200x8_S8x128_S3200x128_1_0_0_1_n_n.contr.Idx) :
    (dot_S3200x8_S8x128_S3200x128_1_0_0_1_n_n.rhsIdx i q 0).val = (q ⟨0, by decide⟩).val :=
  dot_S3200x8_S8x128_S3200x128_1_0_0_1_n_n.rhsIdx_val_of_single rfl i q
theorem rhs_t_1 (i : S3200x128.Idx) (q : dot_S3200x8_S8x128_S3200x128_1_0_0_1_n_n.contr.Idx) :
    (dot_S3200x8_S8x128_S3200x128_1_0_0_1_n_n.rhsIdx i q 1).val = (i 1).val := by
  unfold DotDims.rhsIdx
  rw [dif_neg (show ¬(1 : Fin S8x128.rank) ∈ dot_S3200x8_S8x128_S3200x128_1_0_0_1_n_n.rhsBatch by decide), dif_pos (show (1 : Fin S8x128.rank) ∈ dot_S3200x8_S8x128_S3200x128_1_0_0_1_n_n.rhsNonContracting by decide)]
  rfl

/-- The contraction read at row `p`, column `j`: the sum over the shared axis of the products. -/
theorem mm_t {φ₁ φ₂ : FTy} (prec : Option ContractPrecision) (a : FVec Ideal ⟨2, ![3200, 8]⟩ φ₁) (b : FVec Ideal ⟨2, ![8, 128]⟩ φ₂) (p : Fin 3200) (j : Fin 128) :
    matmul dot_S3200x8_S8x128_S3200x128_1_0_0_1_n_n prec a b (constant (F := Ideal) ⟨2, ![3200, 128]⟩ .f32 0x00000000#32) (ix2 p j) = ∑ k : Fin 8, a (ix2 p k) * b (ix2 k j) := by
  refine (Ideal.matmul_constant_zero_apply dot_S3200x8_S8x128_S3200x128_1_0_0_1_n_n prec a b (ix2 p j)).trans ?_
  rw [← Equiv.sum_comp (ValueIdx.contrEquiv1 dot_S3200x8_S8x128_S3200x128_1_0_0_1_n_n 8 rfl rfl).symm]
  refine Finset.sum_congr rfl fun k _ => ?_
  have hk := ValueIdx.contrEquiv1_symm_val dot_S3200x8_S8x128_S3200x128_1_0_0_1_n_n 8 rfl rfl k
  have el : dot_S3200x8_S8x128_S3200x128_1_0_0_1_n_n.lhsIdx (ix2 p j) ((ValueIdx.contrEquiv1 dot_S3200x8_S8x128_S3200x128_1_0_0_1_n_n 8 rfl rfl).symm k) = ix2 p k := funext fun a => Fin.ext (by
    match a with
    | ⟨0, _⟩ => exact lhs_t_0 _ _
    | ⟨1, _⟩ => exact (lhs_t_1 _ _).trans hk)
  have er : dot_S3200x8_S8x128_S3200x128_1_0_0_1_n_n.rhsIdx (ix2 p j) ((ValueIdx.contrEquiv1 dot_S3200x8_S8x128_S3200x128_1_0_0_1_n_n 8 rfl rfl).symm k) = ix2 k j := funext fun a => Fin.ext (by
    match a with
    | ⟨0, _⟩ => exact (rhs_t_0 _ _).trans hk
    | ⟨1, _⟩ => exact rhs_t_1 _ _)
  rw [el, er]

/-! ## The payloads at an index -/

/-- The score payload at row `p`, head `h`: the lanes' terms `K * Q * (1/4) * (e · We + b)` summed through the
    selection table, clipped to [-5, 5], exponentiated. -/
theorem pay1_apply (v0 : Vec Ideal S3200x64 .f32) (v2 : Vec Ideal S64x128 .f32) (v5 : Vec Ideal S1x128 .f32)
    (v9 v11 : Vec Ideal S3200x128 .f32) (v19 : Vec Ideal S128x8 .f32) (p : Fin 3200) (h : Fin 8) :
    k1_pay1 (F := Ideal) v0 v2 v5 v9 v11 v19 (ix2 p h)
      = Ideal.exp (min Spec.hi (max Spec.lo (∑ j : Fin 128,
          (((v9 (ix2 p j) * v11 (ix2 p j)) * Spec.quarter) * ((∑ k : Fin 64, v0 (ix2 p k) * v2 (ix2 k j)) + v5 (ix2 0 j)))
            * v19 (ix2 j h)))) := by
  unfold k1_pay1
  refine congrArg Ideal.exp (congrArg (min Spec.hi) (congrArg (max Spec.lo) ?_))
  refine (mm_s (some .fp32) _ _ p h).trans ?_
  refine Finset.sum_congr rfl fun j _ => ?_
  simp only [shapeCast_self]
  refine congrArg (· * v19 (ix2 j h)) ?_
  refine congrArg ((((v9 (ix2 p j) * v11 (ix2 p j)) * Spec.quarter)) * ·) ?_
  refine congrArg₂ (· + ·) (mm_e none _ _ p j) ?_
  exact broadcastTo_apply _ broadcasts_S1x128_S3200x128 (ix2 p j) (ix2 0 j) (fun a => by
    match a with
    | ⟨0, _⟩ => rfl
    | ⟨1, _⟩ => rfl)

/-- The message payload at row `p`, lane `q`: `V` times the heads' scores broadcast through the transposed table. -/
theorem pay2_apply (v0 : Vec Ideal S3200x64 .f32) (v2 : Vec Ideal S64x128 .f32) (v5 : Vec Ideal S1x128 .f32)
    (v9 v11 v13 : Vec Ideal S3200x128 .f32) (v19 : Vec Ideal S128x8 .f32) (v28 : Vec Ideal S8x128 .f32) (p : Fin 3200) (q : Fin 128) :
    k1_pay2 (F := Ideal) v0 v2 v5 v9 v11 v13 v19 v28 (ix2 p q)
      = v13 (ix2 p q) * ∑ h : Fin 8, k1_pay1 (F := Ideal) v0 v2 v5 v9 v11 v19 (ix2 p h) * v28 (ix2 h q) := by
  unfold k1_pay2
  simp only [shapeCast_self]
  refine congrArg (v13 (ix2 p q) * ·) ?_
  exact mm_t (some .fp32) _ _ p q

/-! ## The specification at an index -/

theorem scoreK_apply {n : Nat} (e : Spec.R2 n 64) (Kg Qg : Spec.R2 n 128) (We : Spec.R2 64 128) (b : Spec.R2 1 128) (S : Spec.R2 128 8)
    (r : Fin n) (h : Fin 8) :
    Spec.scoreK e Kg Qg We b S (ix2 r h) = Ideal.exp (min Spec.hi (max Spec.lo (∑ j : Fin 128,
      (((Kg (ix2 r j) * Qg (ix2 r j)) * Spec.quarter) * ((∑ k : Fin 64, e (ix2 r k) * We (ix2 k j)) + b (ix2 0 j))) * S (ix2 j h)))) := rfl

theorem msgK_apply {n : Nat} (e : Spec.R2 n 64) (Kg Qg Vg : Spec.R2 n 128) (We : Spec.R2 64 128) (b : Spec.R2 1 128) (S : Spec.R2 128 8)
    (St : Spec.R2 8 128) (r : Fin n) (q : Fin 128) :
    Spec.msgK e Kg Qg Vg We b S St (ix2 r q) = Vg (ix2 r q) * ∑ h : Fin 8, Spec.scoreK e Kg Qg We b S (ix2 r h) * St (ix2 h q) := rfl

/-! ## The blocks: where each window's block sits in its array -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 250 points: the edge windows (features, the three gathered tables, the two outputs)
    are at row block `t`, the four parameter windows at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0
    ∧ win1_9.index t (0 : Fin 2) = t.val
    ∧ win1_9.index t (1 : Fin 2) = 0 :=
  (by decide +kernel : ∀ t : Fin grid1.N, _)

/-- Row `p` of point `t`'s block of the edge features is row `3200 t + p` of the array. -/
theorem eblk_apply (c : Dev nD) (t : Fin cfg1.N) (p : Fin 3200) (k : Fin 64) (r : Fin 800000) (hr : r.val = t.val * 3200 + p.val) :
    (iblk1 (F := Ideal) V c 0 t : Vec Ideal S3200x64 .f32) (ix2 p k) = (V c main_arg2 : S800000x64.Idx → EReal) (ix2 r k) := by
  have e0 : win1_0.index t (0 : Fin 2) = t.val := (idx_facts t).1
  have e1 : win1_0.index t (1 : Fin 2) = 0 := (idx_facts t).2.1
  unfold iblk1
  rw [View.read_apply]
  show V c main_arg2 _ = V c main_arg2 _
  congr 1
  funext a; apply Fin.ext
  match a with
  | ⟨0, _⟩ => show win1_0.index t (0 : Fin 2) * 3200 + 1 * p.val = r.val; omega
  | ⟨1, _⟩ => show win1_0.index t (1 : Fin 2) * 64 + 1 * k.val = k.val; omega

/-- The same for the keys gathered at the sources, -/
theorem kblk_apply (c : Dev nD) (t : Fin cfg1.N) (p : Fin 3200) (k : Fin 128) (r : Fin 800000) (hr : r.val = t.val * 3200 + p.val) :
    (iblk1 (F := Ideal) V c 1 t : Vec Ideal S3200x128 .f32) (ix2 p k) = (V c main_v10 : S800000x128.Idx → EReal) (ix2 r k) := by
  have e0 : win1_1.index t (0 : Fin 2) = t.val := (idx_facts t).2.2.1
  have e1 : win1_1.index t (1 : Fin 2) = 0 := (idx_facts t).2.2.2.1
  unfold iblk1
  rw [View.read_apply]
  show V c main_v10 _ = V c main_v10 _
  congr 1
  funext a; apply Fin.ext
  match a with
  | ⟨0, _⟩ => show win1_1.index t (0 : Fin 2) * 3200 + 1 * p.val = r.val; omega
  | ⟨1, _⟩ => show win1_1.index t (1 : Fin 2) * 128 + 1 * k.val = k.val; omega

/-- the queries gathered at the destinations, -/
theorem qblk_apply (c : Dev nD) (t : Fin cfg1.N) (p : Fin 3200) (k : Fin 128) (r : Fin 800000) (hr : r.val = t.val * 3200 + p.val) :
    (iblk1 (F := Ideal) V c 2 t : Vec Ideal S3200x128 .f32) (ix2 p k) = (V c main_v11 : S800000x128.Idx → EReal) (ix2 r k) := by
  have e0 : win1_2.index t (0 : Fin 2) = t.val := (idx_facts t).2.2.2.2.1
  have e1 : win1_2.index t (1 : Fin 2) = 0 := (idx_facts t).2.2.2.2.2.1
  unfold iblk1
  rw [View.read_apply]
  show V c main_v11 _ = V c main_v11 _
  congr 1
  funext a; apply Fin.ext
  match a with
  | ⟨0, _⟩ => show win1_2.index t (0 : Fin 2) * 3200 + 1 * p.val = r.val; omega
  | ⟨1, _⟩ => show win1_2.index t (1 : Fin 2) * 128 + 1 * k.val = k.val; omega

/-- and the values gathered at the sources. -/
theorem vblk_apply (c : Dev nD) (t : Fin cfg1.N) (p : Fin 3200) (k : Fin 128) (r : Fin 800000) (hr : r.val = t.val * 3200 + p.val) :
    (iblk1 (F := Ideal) V c 3 t : Vec Ideal S3200x128 .f32) (ix2 p k) = (V c main_v12 : S800000x128.Idx → EReal) (ix2 r k) := by
  have e0 : win1_3.index t (0 : Fin 2) = t.val := (idx_facts t).2.2.2.2.2.2.1
  have e1 : win1_3.index t (1 : Fin 2) = 0 := (idx_facts t).2.2.2.2.2.2.2.1
  unfold iblk1
  rw [View.read_apply]
  show V c main_v12 _ = V c main_v12 _
  congr 1
  funext a; apply Fin.ext
  match a with
  | ⟨0, _⟩ => show win1_3.index t (0 : Fin 2) * 3200 + 1 * p.val = r.val; omega
  | ⟨1, _⟩ => show win1_3.index t (1 : Fin 2) * 128 + 1 * k.val = k.val; omega

/-- The edge projection's weights are one block: the whole table at every point. -/
theorem wblk_apply (c : Dev nD) (t : Fin cfg1.N) (p : Fin 64) (k : Fin 128) :
    (iblk1 (F := Ideal) V c 4 t : Vec Ideal S64x128 .f32) (ix2 p k) = (V c main_arg11 : S64x128.Idx → EReal) (ix2 p k) := by
  have e0 : win1_4.index t (0 : Fin 2) = 0 := (idx_facts t).2.2.2.2.2.2.2.2.1
  have e1 : win1_4.index t (1 : Fin 2) = 0 := (idx_facts t).2.2.2.2.2.2.2.2.2.1
  unfold iblk1
  rw [View.read_apply]
  show V c main_arg11 _ = V c main_arg11 _
  congr 1
  funext a; apply Fin.ext
  match a with
  | ⟨0, _⟩ => show win1_4.index t (0 : Fin 2) * 64 + 1 * p.val = p.val; omega
  | ⟨1, _⟩ => show win1_4.index t (1 : Fin 2) * 128 + 1 * k.val = k.val; omega

/-- So is the bias row, -/
theorem bblk_apply (c : Dev nD) (t : Fin cfg1.N) (p : Fin 1) (k : Fin 128) :
    (iblk1 (F := Ideal) V c 5 t : Vec Ideal S1x128 .f32) (ix2 p k) = (V c main_v22 : S1x128.Idx → EReal) (ix2 p k) := by
  have e0 : win1_5.index t (0 : Fin 2) = 0 := (idx_facts t).2.2.2.2.2.2.2.2.2.2.1
  have e1 : win1_5.index t (1 : Fin 2) = 0 := (idx_facts t).2.2.2.2.2.2.2.2.2.2.2.1
  unfold iblk1
  rw [View.read_apply]
  show V c main_v22 _ = V c main_v22 _
  congr 1
  funext a; apply Fin.ext
  match a with
  | ⟨0, _⟩ => show win1_5.index t (0 : Fin 2) * 1 + 1 * p.val = p.val; omega
  | ⟨1, _⟩ => show win1_5.index t (1 : Fin 2) * 128 + 1 * k.val = k.val; omega

/-- the lane-to-head selection table, -/
theorem sblk_apply (c : Dev nD) (t : Fin cfg1.N) (p : Fin 128) (k : Fin 8) :
    (iblk1 (F := Ideal) V c 6 t : Vec Ideal S128x8 .f32) (ix2 p k) = (V c main_v20 : S128x8.Idx → EReal) (ix2 p k) := by
  have e0 : win1_6.index t (0 : Fin 2) = 0 := (idx_facts t).2.2.2.2.2.2.2.2.2.2.2.2.1
  have e1 : win1_6.index t (1 : Fin 2) = 0 := (idx_facts t).2.2.2.2.2.2.2.2.2.2.2.2.2.1
  unfold iblk1
  rw [View.read_apply]
  show V c main_v20 _ = V c main_v20 _
  congr 1
  funext a; apply Fin.ext
  match a with
  | ⟨0, _⟩ => show win1_6.index t (0 : Fin 2) * 128 + 1 * p.val = p.val; omega
  | ⟨1, _⟩ => show win1_6.index t (1 : Fin 2) * 8 + 1 * k.val = k.val; omega

/-- and its transpose. -/
theorem stblk_apply (c : Dev nD) (t : Fin cfg1.N) (p : Fin 8) (k : Fin 128) :
    (iblk1 (F := Ideal) V c 7 t : Vec Ideal S8x128 .f32) (ix2 p k) = (V c main_v21 : S8x128.Idx → EReal) (ix2 p k) := by
  have e0 : win1_7.index t (0 : Fin 2) = 0 := (idx_facts t).2.2.2.2.2.2.2.2.2.2.2.2.2.2.1
  have e1 : win1_7.index t (1 : Fin 2) = 0 := (idx_facts t).2.2.2.2.2.2.2.2.2.2.2.2.2.2.2.1
  unfold iblk1
  rw [View.read_apply]
  show V c main_v21 _ = V c main_v21 _
  congr 1
  funext a; apply Fin.ext
  match a with
  | ⟨0, _⟩ => show win1_7.index t (0 : Fin 2) * 8 + 1 * p.val = p.val; omega
  | ⟨1, _⟩ => show win1_7.index t (1 : Fin 2) * 128 + 1 * k.val = k.val; omega

/-- Entry `(p, h)` of point `t`'s block of the score array is entry `(3200 t + p, h)` of the array. -/
theorem emb_score (t : Fin cfg1.N) (p : Fin 3200) (h : Fin 8) (r : Fin 800000) (hr : r.val = t.val * 3200 + p.val) :
    ((cfg1.win 9).blk t).view.emb (ix2 p h) = (ix2 r h : S800000x8.Idx) := by
  have e0 : win1_9.index t (0 : Fin 2) = t.val := (idx_facts t).2.2.2.2.2.2.2.2.2.2.2.2.2.2.2.2.2.2.1
  have e1 : win1_9.index t (1 : Fin 2) = 0 := (idx_facts t).2.2.2.2.2.2.2.2.2.2.2.2.2.2.2.2.2.2.2
  funext a; apply Fin.ext
  match a with
  | ⟨0, _⟩ => show win1_9.index t (0 : Fin 2) * 3200 + 1 * p.val = r.val; omega
  | ⟨1, _⟩ => show win1_9.index t (1 : Fin 2) * 8 + 1 * h.val = h.val; omega

/-- Entry `(p, q)` of point `t`'s block of the message array is entry `(3200 t + p, q)` of the array. -/
theorem emb_msg (t : Fin cfg1.N) (p : Fin 3200) (q : Fin 128) (r : Fin 800000) (hr : r.val = t.val * 3200 + p.val) :
    ((cfg1.win 8).blk t).view.emb (ix2 p q) = (ix2 r q : S800000x128.Idx) := by
  have e0 : win1_8.index t (0 : Fin 2) = t.val := (idx_facts t).2.2.2.2.2.2.2.2.2.2.2.2.2.2.2.2.1
  have e1 : win1_8.index t (1 : Fin 2) = 0 := (idx_facts t).2.2.2.2.2.2.2.2.2.2.2.2.2.2.2.2.2.1
  funext a; apply Fin.ext
  match a with
  | ⟨0, _⟩ => show win1_8.index t (0 : Fin 2) * 3200 + 1 * p.val = r.val; omega
  | ⟨1, _⟩ => show win1_8.index t (1 : Fin 2) * 128 + 1 * q.val = q.val; omega

/-! ## What each point writes back -/

/-- The score payload of point `t`'s blocks at row `p` is the score of the whole arrays at row `3200 t + p`. -/
theorem score_point (c : Dev nD) (t : Fin cfg1.N) (p : Fin 3200) (h : Fin 8) (r : Fin 800000) (hr : r.val = t.val * 3200 + p.val) :
    k1_pay1 (F := Ideal) (iblk1 V c 0 t) (iblk1 V c 4 t) (iblk1 V c 5 t) (iblk1 V c 1 t) (iblk1 V c 2 t) (iblk1 V c 6 t) (ix2 p h) = (Spec.scoreK (V c main_arg2) (V c main_v10) (V c main_v11) (V c main_arg11) (V c main_v22) (V c main_v20)) (ix2 r h) := by
  refine (pay1_apply (iblk1 V c 0 t) (iblk1 V c 4 t) (iblk1 V c 5 t) (iblk1 V c 1 t) (iblk1 V c 2 t) (iblk1 V c 6 t) p h).trans ?_
  refine Eq.trans ?_ (scoreK_apply _ _ _ _ _ _ r h).symm
  simp only [eblk_apply V c t p _ r hr, kblk_apply V c t p _ r hr, qblk_apply V c t p _ r hr, wblk_apply V c t, bblk_apply V c t,
    sblk_apply V c t]

/-- Point `t` writes back block `t` of the scores of the whole arrays. -/
theorem flushed_score (c : Dev nD) (t : Fin cfg1.N) :
    (dat1 (F := Ideal) V c).flushed 9 t = ((cfg1.win 9).blk t).view.read (Elt Ideal) (Spec.scoreK (V c main_arg2) (V c main_v10) (V c main_v11) (V c main_arg11) (V c main_v22) (V c main_v20)) := by
  have hN : cfg1.N = 250 := N_1
  show (cfg1.win 9).cut (grid1.coords t) ((dat1 V c).after 9 t) = _
  rw [after1_9]
  unfold out1_9
  rw [View.canon_unit_zero hz]
  simp only [View.ld_unit_zero (S := S3200x64) hz, View.ld_unit_zero (S := S64x128) hz, View.ld_unit_zero (S := S1x128) hz,
    View.ld_unit_zero (S := S3200x128) hz, View.ld_unit_zero (S := S128x8) hz]
  funext j
  obtain ⟨p, h, rfl⟩ : ∃ (p : Fin 3200) (h : Fin 8), j = ix2 p h := ⟨j 0, j 1, eq_ix2 j⟩
  obtain ⟨r, hr⟩ : ∃ r : Fin 800000, r.val = t.val * 3200 + p.val :=
    ⟨⟨t.val * 3200 + p.val, by have := t.isLt; have := p.isLt; omega⟩, rfl⟩
  refine (score_point V c t p h r hr).trans ?_
  show (Spec.scoreK (V c main_arg2) (V c main_v10) (V c main_v11) (V c main_arg11) (V c main_v22) (V c main_v20)) (ix2 r h) = (Spec.scoreK (V c main_arg2) (V c main_v10) (V c main_v11) (V c main_arg11) (V c main_v22) (V c main_v20)) (((cfg1.win 9).blk t).view.emb (ix2 p h))
  rw [emb_score t p h r hr]

/-- Point `t` writes back block `t` of the messages of the whole arrays. -/
theorem flushed_msg (c : Dev nD) (t : Fin cfg1.N) :
    (dat1 (F := Ideal) V c).flushed 8 t = ((cfg1.win 8).blk t).view.read (Elt Ideal) (Spec.msgK (V c main_arg2) (V c main_v10) (V c main_v11) (V c main_v12) (V c main_arg11) (V c main_v22) (V c main_v20) (V c main_v21)) := by
  have hN : cfg1.N = 250 := N_1
  show (cfg1.win 8).cut (grid1.coords t) ((dat1 V c).after 8 t) = _
  rw [after1_8]
  unfold out1_8
  rw [View.canon_unit_zero hz]
  simp only [View.ld_unit_zero (S := S3200x64) hz, View.ld_unit_zero (S := S64x128) hz, View.ld_unit_zero (S := S1x128) hz,
    View.ld_unit_zero (S := S3200x128) hz, View.ld_unit_zero (S := S128x8) hz, View.ld_unit_zero (S := S8x128) hz]
  funext j
  obtain ⟨p, q, rfl⟩ : ∃ (p : Fin 3200) (q : Fin 128), j = ix2 p q := ⟨j 0, j 1, eq_ix2 j⟩
  obtain ⟨r, hr⟩ : ∃ r : Fin 800000, r.val = t.val * 3200 + p.val :=
    ⟨⟨t.val * 3200 + p.val, by have := t.isLt; have := p.isLt; omega⟩, rfl⟩
  show _ = (Spec.msgK (V c main_arg2) (V c main_v10) (V c main_v11) (V c main_v12) (V c main_arg11) (V c main_v22) (V c main_v20) (V c main_v21)) (((cfg1.win 8).blk t).view.emb (ix2 p q))
  rw [emb_msg t p q r hr]
  refine (pay2_apply (iblk1 V c 0 t) (iblk1 V c 4 t) (iblk1 V c 5 t) (iblk1 V c 1 t) (iblk1 V c 2 t) (iblk1 V c 3 t) (iblk1 V c 6 t) (iblk1 V c 7 t) p q).trans ?_
  refine Eq.trans ?_ (msgK_apply _ _ _ _ _ _ _ _ r q).symm
  rw [vblk_apply V c t p q r hr]
  congr 1
  refine Finset.sum_congr rfl fun h _ => ?_
  rw [stblk_apply V c t h q, score_point V c t p h r hr]

/-! ## The blocks tile the arrays -/

/-- An entry of the array is in point `t`'s block iff each coordinate is in the block's range on its axis. -/
theorem mem_blk9 (t : Fin cfg1.N) (i : S800000x8.Idx) :
    i ∈ ((cfg1.win 9).blk t).view.set ↔ ∀ a : Fin 2, win1_9.index t a * S3200x8.size a ≤ (i a).val ∧ (i a).val < win1_9.index t a * S3200x8.size a + S3200x8.size a := by
  show i ∈ ((View.whole main_v23_1).slice (win1_9.rect t)).set ↔ _
  rw [View.set_slice_whole, Rect.mem_set_unit]
  exact Iff.rfl

/-- Row `r` is in the block of point `r / 3200`: the 250 row blocks tile the 800000 rows. -/
theorem cover9 (i : S800000x8.Idx) : ∃ t : Fin cfg1.N, (cfg1.win 9).flush t = true ∧ i ∈ ((cfg1.win 9).blk t).view.set := by
  have hN : cfg1.N = 250 := N_1
  have hi0 : (i 0).val < 800000 := (i 0).isLt
  have hi1 : (i 1).val < 8 := (i 1).isLt
  obtain ⟨t, ht⟩ : ∃ t : Fin cfg1.N, t.val = (i 0).val / 3200 := ⟨⟨(i 0).val / 3200, by omega⟩, rfl⟩
  have e0 : win1_9.index t (0 : Fin 2) = t.val := (idx_facts t).2.2.2.2.2.2.2.2.2.2.2.2.2.2.2.2.2.2.1
  have e1 : win1_9.index t (1 : Fin 2) = 0 := (idx_facts t).2.2.2.2.2.2.2.2.2.2.2.2.2.2.2.2.2.2.2
  refine ⟨t, flush1_9 t, ?_⟩
  rw [mem_blk9]
  intro a
  match a with
  | ⟨0, _⟩ => show win1_9.index t (0 : Fin 2) * 3200 ≤ (i 0).val ∧ (i 0).val < win1_9.index t (0 : Fin 2) * 3200 + 3200; omega
  | ⟨1, _⟩ => show win1_9.index t (1 : Fin 2) * 8 ≤ (i 1).val ∧ (i 1).val < win1_9.index t (1 : Fin 2) * 8 + 8; omega

/-- An entry of the array is in point `t`'s block iff each coordinate is in the block's range on its axis. -/
theorem mem_blk8 (t : Fin cfg1.N) (i : S800000x128.Idx) :
    i ∈ ((cfg1.win 8).blk t).view.set ↔ ∀ a : Fin 2, win1_8.index t a * S3200x128.size a ≤ (i a).val ∧ (i a).val < win1_8.index t a * S3200x128.size a + S3200x128.size a := by
  show i ∈ ((View.whole main_v23_0).slice (win1_8.rect t)).set ↔ _
  rw [View.set_slice_whole, Rect.mem_set_unit]
  exact Iff.rfl

/-- Row `r` is in the block of point `r / 3200`: the 250 row blocks tile the 800000 rows. -/
theorem cover8 (i : S800000x128.Idx) : ∃ t : Fin cfg1.N, (cfg1.win 8).flush t = true ∧ i ∈ ((cfg1.win 8).blk t).view.set := by
  have hN : cfg1.N = 250 := N_1
  have hi0 : (i 0).val < 800000 := (i 0).isLt
  have hi1 : (i 1).val < 128 := (i 1).isLt
  obtain ⟨t, ht⟩ : ∃ t : Fin cfg1.N, t.val = (i 0).val / 3200 := ⟨⟨(i 0).val / 3200, by omega⟩, rfl⟩
  have e0 : win1_8.index t (0 : Fin 2) = t.val := (idx_facts t).2.2.2.2.2.2.2.2.2.2.2.2.2.2.2.2.1
  have e1 : win1_8.index t (1 : Fin 2) = 0 := (idx_facts t).2.2.2.2.2.2.2.2.2.2.2.2.2.2.2.2.2.1
  refine ⟨t, flush1_8 t, ?_⟩
  rw [mem_blk8]
  intro a
  match a with
  | ⟨0, _⟩ => show win1_8.index t (0 : Fin 2) * 3200 ≤ (i 0).val ∧ (i 0).val < win1_8.index t (0 : Fin 2) * 3200 + 3200; omega
  | ⟨1, _⟩ => show win1_8.index t (1 : Fin 2) * 128 ≤ (i 1).val ∧ (i 1).val < win1_8.index t (1 : Fin 2) * 128 + 128; omega

/-! ## The arrays after the run -/

theorem arr_score (c : Dev nD) : (dat1 (F := Ideal) V c).arrAt 9 cfg1.N
    = Cert.Spec.scoreK (V c main_arg2) (V c main_v10) (V c main_v11) (V c main_arg11) (V c main_v22) (V c main_v20) :=
  (dat1 (F := Ideal) V c).arrAt_eq_of_cover 9 (Spec.scoreK (V c main_arg2) (V c main_v10) (V c main_v11) (V c main_arg11) (V c main_v22) (V c main_v20)) (fun t _ => flushed_score V c t) cover9

theorem arr_msg (c : Dev nD) : (dat1 (F := Ideal) V c).arrAt 8 cfg1.N
    = Cert.Spec.msgK (V c main_arg2) (V c main_v10) (V c main_v11) (V c main_v12) (V c main_arg11) (V c main_v22) (V c main_v20) (V c main_v21) :=
  (dat1 (F := Ideal) V c).arrAt_eq_of_cover 8 (Spec.msgK (V c main_arg2) (V c main_v10) (V c main_v11) (V c main_v12) (V c main_arg11) (V c main_v22) (V c main_v20) (V c main_v21)) (fun t _ => flushed_msg V c t) cover8

end Cert.KernelIdeal.EdgeValue

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.HostEntry.lean ====
import proofs.«414019_j17703855194487_2_alg».proof.Proof.Gen.KernelIdeal.Frame
import proofs.«414019_j17703855194487_2_alg».proof.Proof.Spec
import proofs.«414019_j17703855194487_2_alg».proof.Proof.LibRowIndex
import proofs.«414019_j17703855194487_2_alg».proof.Proof.LibTypedRef
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.HostEntry

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## Pure facts: a half of a weight table, a vector as a row -/

/-- The first 64 rows of a 128-row table, cut out as a slice at offset (0, 0). -/
theorem slice_top (X : Cert.Spec.R2 128 128) (h : (⟨2, ![128, 128]⟩ : Shape).Slices ![0, 0] ⟨2, ![64, 128]⟩) :
    extractStridedSlice ⟨2, ![64, 128]⟩ ![0, 0] X h = Cert.Spec.topHalf X := by
  funext i
  obtain ⟨p, q, rfl⟩ : ∃ p q, i = ix2 p q := ⟨i 0, i 1, eq_ix2 i⟩
  exact slice2_axis0_apply 0 X h p q _ (Nat.zero_add _).symm

/-- The last 64 rows, cut out as a slice at offset (64, 0). -/
theorem slice_bot (X : Cert.Spec.R2 128 128) (h : (⟨2, ![128, 128]⟩ : Shape).Slices ![64, 0] ⟨2, ![64, 128]⟩) :
    extractStridedSlice ⟨2, ![64, 128]⟩ ![64, 0] X h = Cert.Spec.botHalf X := by
  funext i
  obtain ⟨p, q, rfl⟩ : ∃ p q, i = ix2 p q := ⟨i 0, i 1, eq_ix2 i⟩
  exact slice2_axis0_apply 64 X h p q _ rfl

/-- A 128-vector recast as a 1 x 128 table is the vector laid out as one row. -/
theorem cast_row (b : Cert.Spec.R1 128) (h : (⟨1, ![128]⟩ : Shape).ShapeCasts ⟨2, ![1, 128]⟩) :
    shapeCast ⟨2, ![1, 128]⟩ b h = Cert.Spec.asRow b := by
  funext i
  obtain ⟨u, q, rfl⟩ : ∃ u q, i = ix2 u q := ⟨i 0, i 1, eq_ix2 i⟩
  exact shapeCast_a_1a_apply b h u q

/-! ## Region 0's entry contents: the arguments, the weight halves, the biases as rows -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_v0 (c : Dev nD) : V1 m ρ c main_v0 = Cert.Spec.topHalf (m ((c : Thread nD τ).loc main_arg5)) := by
  show StableHlo.after hostOps0 (W0 m ρ c) (Proc.devRef .tc main_v0) = _
  after_results
  exact slice_top _ _
theorem V1_v1 (c : Dev nD) : V1 m ρ c main_v1 = Cert.Spec.botHalf (m ((c : Thread nD τ).loc main_arg5)) := by
  show StableHlo.after hostOps0 (W0 m ρ c) (Proc.devRef .tc main_v1) = _
  after_results
  exact slice_bot _ _
theorem V1_v2 (c : Dev nD) : V1 m ρ c main_v2 = Cert.Spec.topHalf (m ((c : Thread nD τ).loc main_arg7)) := by
  show StableHlo.after hostOps0 (W0 m ρ c) (Proc.devRef .tc main_v2) = _
  after_results
  exact slice_top _ _
theorem V1_v3 (c : Dev nD) : V1 m ρ c main_v3 = Cert.Spec.botHalf (m ((c : Thread nD τ).loc main_arg7)) := by
  show StableHlo.after hostOps0 (W0 m ρ c) (Proc.devRef .tc main_v3) = _
  after_results
  exact slice_bot _ _
theorem V1_v4 (c : Dev nD) : V1 m ρ c main_v4 = Cert.Spec.topHalf (m ((c : Thread nD τ).loc main_arg9)) := by
  show StableHlo.after hostOps0 (W0 m ρ c) (Proc.devRef .tc main_v4) = _
  after_results
  exact slice_top _ _
theorem V1_v5 (c : Dev nD) : V1 m ρ c main_v5 = Cert.Spec.botHalf (m ((c : Thread nD τ).loc main_arg9)) := by
  show StableHlo.after hostOps0 (W0 m ρ c) (Proc.devRef .tc main_v5) = _
  after_results
  exact slice_bot _ _
theorem V1_v6 (c : Dev nD) : V1 m ρ c main_v6 = Cert.Spec.asRow (m ((c : Thread nD τ).loc main_arg6)) := by
  show StableHlo.after hostOps0 (W0 m ρ c) (Proc.devRef .tc main_v6) = _
  after_results
  exact cast_row _ _
theorem V1_v7 (c : Dev nD) : V1 m ρ c main_v7 = Cert.Spec.asRow (m ((c : Thread nD τ).loc main_arg8)) := by
  show StableHlo.after hostOps0 (W0 m ρ c) (Proc.devRef .tc main_v7) = _
  after_results
  exact cast_row _ _
theorem V1_v8 (c : Dev nD) : V1 m ρ c main_v8 = Cert.Spec.asRow (m ((c : Thread nD τ).loc main_arg10)) := by
  show StableHlo.after hostOps0 (W0 m ρ c) (Proc.devRef .tc main_v8) = _
  after_results
  exact cast_row _ _

/-! ## Pure facts: the rows of a table that index words name

An index word that reads, signed, in [0, 50000) is left alone by the wrap of negative indices, passes the range test,
and names its own row of the table. -/

/-- A word that reads, signed, in [0, 50000) reads the same unsigned. -/
theorem word_small {a : BitVec 32} (h0 : 0 ≤ a.toInt) (h1 : a.toInt < 50000) : a.toNat < 50000 := by
  have e := BitVec.toInt_eq_toNat_cond a
  by_cases hc : 2 * a.toNat < 2 ^ 32
  · rw [if_pos hc] at e; omega
  · rw [if_neg hc] at e; have hlt := a.isLt; omega

/-- The rank-1 index at a coordinate, in its two spellings. -/
theorem ofFin_eq_ix1 {n : Nat} (e : Fin n) : Shape.Idx.ofFin e = ix1 e := by
  funext a
  obtain rfl : a = 0 := Subsingleton.elim _ _
  exact Fin.ext rfl

/-- A position of a column, and a position of a table, in their two spellings. -/
theorem ixP_eq_ix2 {n : Nat} (p : Fin n) : StableHlo.Predicate.ixP p = ix2 p (0 : Fin 1) := by
  funext a; match a with | ⟨0, _⟩ => rfl | ⟨1, _⟩ => rfl
theorem ij_eq_ix2 {n k : Nat} (p : Fin n) (q : Fin k) : StableHlo.Predicate.ij p q = ix2 p q := by
  funext a; match a with | ⟨0, _⟩ => rfl | ⟨1, _⟩ => rfl

/-- A vector kept as a column reads, at row e, the vector at e. -/
theorem bcast_col {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (StableHlo.Predicate.ixP e) = v (ix1 e) :=
  (StableHlo.Predicate.bcast_col1 h v e).trans (congrArg v (ofFin_eq_ix1 e))

/-- A vector laid along the rows of a table reads, at (e, j), the vector at e. -/
theorem bcast_lead {α : Type} {n k : Nat} (h : (⟨1, ![n]⟩ : Shape).BroadcastsInDim ⟨2, ![n, k]⟩ ![0])
    (v : (⟨1, ![n]⟩ : Shape).Idx → α) (e : Fin n) (j : Fin k) :
    broadcastInDim ⟨2, ![n, k]⟩ ![0] h v (ix2 e j) = v (ix1 e) :=
  broadcastInDim_apply _ h v _ _ fun a => by
    obtain rfl : a = 0 := Subsingleton.elim _ _
    show e.val = if n = 1 then 0 else e.val
    split
    · next h1 => have := e.isLt; omega
    · rfl

/-- A conjunction of ones is one. -/
theorem fold_andi_ones {ι : Type} [DecidableEq ι] (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih fun i hi => h i (Finset.mem_cons_of_mem hi)]
    rfl

section Take
variable {n : Nat}

/-- The wrap of negative indices (add 50000 to a word that reads negative) leaves a word in range alone. -/
theorem wrap_read (b0 : (⟨0, ![]⟩ : Shape).BroadcastsInDim ⟨1, ![n]⟩ ![])
    (bc : (⟨1, ![n]⟩ : Shape).BroadcastsInDim ⟨2, ![n, 1]⟩ ![0])
    (idx : Cert.Spec.Words n) (h : Cert.Spec.InRange idx) (e : Fin n) :
    broadcastInDim ⟨2, ![n, 1]⟩ ![0] bc
        (select (cmpi .slt idx (broadcastInDim ⟨1, ![n]⟩ ![] b0 (constantI ⟨0, ![]⟩ 32 0#32)))
          (addi idx (broadcastInDim ⟨1, ![n]⟩ ![] b0 (constantI ⟨0, ![]⟩ 32 50000#32))) idx)
        (StableHlo.Predicate.ixP e) = idx (ix1 e) := by
  rw [bcast_col]
  show Scalar.select (IntOp.cmpi .slt (idx (ix1 e)) 0#32) _ (idx (ix1 e)) = _
  have hsm := word_small (h e).1 (h e).2
  have hz : IntOp.cmpi .slt (idx (ix1 e)) 0#32 = 0#1 := eq_zero_of_ne_one fun h1 => by
    have := (StableHlo.Predicate.slt_iff_toNat (by omega) (by decide)).mp h1
    simp at this
  rw [hz, select_zero]

/-- The range test (0 ≤ i ∧ i ≤ 49999, and-reduced over the unit axis) is one at every word in range. -/
theorem mask_read (col : IVec ⟨2, ![n, 1]⟩ 32) (hcol : ∀ e : Fin n, (col (StableHlo.Predicate.ixP e)).toNat < 50000)
    (b0 : (⟨0, ![]⟩ : Shape).BroadcastsInDim ⟨2, ![n, 1]⟩ ![])
    (b1 : (⟨1, ![1]⟩ : Shape).BroadcastsInDim ⟨2, ![1, 1]⟩ ![1])
    (b11 : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel) (e : Fin n) :
    Host.reduce IntOp.andi
        (andi (cmpi .sge col (broadcastInDim ⟨2, ![n, 1]⟩ ![] b0 (constantI ⟨0, ![]⟩ 32 0#32)))
          (cmpi .sle col (broadcastInDim ⟨2, ![n, 1]⟩ ![0, 1] b11
            (broadcastInDim ⟨2, ![1, 1]⟩ ![1] b1 (constantI ⟨1, ![1]⟩ 32 49999#32)))))
        (constantI ⟨0, ![]⟩ 1 1#1) hr hu (ix1 e) = 1#1 := by
  classical
  rw [Host.reduce_eq_fold]
  refine fold_andi_ones _ _ fun i _ => ?_
  obtain ⟨p, u, rfl⟩ : ∃ p u, i = ix2 p u := ⟨i 0, i 1, eq_ix2 i⟩
  obtain rfl : u = 0 := Subsingleton.elim _ _
  have hc : (col (ix2 p 0)).toNat < 50000 := by have := hcol p; rwa [ixP_eq_ix2] at this
  show IntOp.andi (IntOp.cmpi .sge (col (ix2 p 0)) 0#32) (IntOp.cmpi .sle (col (ix2 p 0)) 49999#32) = 1#1
  rw [(StableHlo.Predicate.sge_iff_toNat (by omega) (by decide)).mpr (by simp),
    (StableHlo.Predicate.sle_iff_toNat (by omega) (by decide)).mpr (by simp; omega)]
  rfl

/-- The take: where the mask is one the result is the gathered row, and the row a word in range names is its own. -/
theorem take_core (d : GatherDims ⟨2, ![50000, 128]⟩ ⟨2, ![n, 1]⟩ ⟨2, ![n, 128]⟩)
    (hoff : d.offsetDims = [1]) (hcoll : d.collapsedSliceDims = [0]) (hob : d.operandBatchingDims = [])
    (hsim : d.startIndexMap = [0]) (hivd : d.indexVectorDim = 1)
    (bm : (⟨1, ![n]⟩ : Shape).BroadcastsInDim ⟨2, ![n, 128]⟩ ![0])
    (T : Cert.Spec.R2 50000 128) (idx : Cert.Spec.Words n) (col : IVec ⟨2, ![n, 1]⟩ 32) (mask : IVec ⟨1, ![n]⟩ 1)
    (z : Cert.Spec.R2 n 128)
    (hcol : ∀ e : Fin n, col (StableHlo.Predicate.ixP e) = idx (ix1 e)) (hmask : ∀ e : Fin n, mask (ix1 e) = 1#1) :
    select (broadcastInDim ⟨2, ![n, 128]⟩ ![0] bm mask) (Host.gather d T col) z = Cert.Spec.takeRows T idx := by
  funext i
  obtain ⟨e, j, rfl⟩ : ∃ e j, i = ix2 e j := ⟨i 0, i 1, eq_ix2 i⟩
  rw [select_apply, bcast_lead, hmask e, select_one]
  have hg := RowIndex.gather_rows d hoff hcoll hob hsim hivd T col e j (by decide)
  rw [ij_eq_ix2, ij_eq_ix2] at hg
  refine hg.trans ?_
  refine congrArg (fun r => T (ix2 r j)) (Fin.ext ?_)
  show min (col (StableHlo.Predicate.ixP e)).toInt.toNat 49999 = min (idx (ix1 e)).toInt.toNat 49999
  rw [hcol e]

end Take

section Take
variable {n : Nat}

/-- The whole take stretch: wrap, range test and-reduced, gather, select against the fill value. -/
theorem take_all (d : GatherDims ⟨2, ![50000, 128]⟩ ⟨2, ![n, 1]⟩ ⟨2, ![n, 128]⟩)
    (hoff : d.offsetDims = [1]) (hcoll : d.collapsedSliceDims = [0]) (hob : d.operandBatchingDims = [])
    (hsim : d.startIndexMap = [0]) (hivd : d.indexVectorDim = 1)
    (b0 : (⟨0, ![]⟩ : Shape).BroadcastsInDim ⟨1, ![n]⟩ ![])
    (bc : (⟨1, ![n]⟩ : Shape).BroadcastsInDim ⟨2, ![n, 1]⟩ ![0])
    (b0' : (⟨0, ![]⟩ : Shape).BroadcastsInDim ⟨2, ![n, 1]⟩ ![])
    (b1 : (⟨1, ![1]⟩ : Shape).BroadcastsInDim ⟨2, ![1, 1]⟩ ![1])
    (b11 : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel)
    (bm : (⟨1, ![n]⟩ : Shape).BroadcastsInDim ⟨2, ![n, 128]⟩ ![0])
    (T : Cert.Spec.R2 50000 128) (idx : Cert.Spec.Words n) (z : Cert.Spec.R2 n 128) (h : Cert.Spec.InRange idx) :
    select
      (broadcastInDim ⟨2, ![n, 128]⟩ ![0] bm
        (Host.reduce IntOp.andi
          (andi
            (cmpi .sge
              (broadcastInDim ⟨2, ![n, 1]⟩ ![0] bc
                (select (cmpi .slt idx (broadcastInDim ⟨1, ![n]⟩ ![] b0 (constantI ⟨0, ![]⟩ 32 0#32)))
                  (addi idx (broadcastInDim ⟨1, ![n]⟩ ![] b0 (constantI ⟨0, ![]⟩ 32 50000#32))) idx))
              (broadcastInDim ⟨2, ![n, 1]⟩ ![] b0' (constantI ⟨0, ![]⟩ 32 0#32)))
            (cmpi .sle
              (broadcastInDim ⟨2, ![n, 1]⟩ ![0] bc
                (select (cmpi .slt idx (broadcastInDim ⟨1, ![n]⟩ ![] b0 (constantI ⟨0, ![]⟩ 32 0#32)))
                  (addi idx (broadcastInDim ⟨1, ![n]⟩ ![] b0 (constantI ⟨0, ![]⟩ 32 50000#32))) idx))
              (broadcastInDim ⟨2, ![n, 1]⟩ ![0, 1] b11
                (broadcastInDim ⟨2, ![1, 1]⟩ ![1] b1 (constantI ⟨1, ![1]⟩ 32 49999#32)))))
          (constantI ⟨0, ![]⟩ 1 1#1) hr hu))
      (Host.gather d T
        (broadcastInDim ⟨2, ![n, 1]⟩ ![0] bc
          (select (cmpi .slt idx (broadcastInDim ⟨1, ![n]⟩ ![] b0 (constantI ⟨0, ![]⟩ 32 0#32)))
            (addi idx (broadcastInDim ⟨1, ![n]⟩ ![] b0 (constantI ⟨0, ![]⟩ 32 50000#32))) idx)))
      z = Cert.Spec.takeRows T idx :=
  take_core d hoff hcoll hob hsim hivd bm T idx _ _ z (fun e => wrap_read b0 bc idx h e) fun e =>
    mask_read _ (fun e' => lt_of_eq_of_lt (congrArg BitVec.toNat (wrap_read b0 bc idx h e'))
      (word_small (h e').1 (h e').2)) b0' b1 b11 hr hu e

end Take

/-! ## Pure facts: the 0/1 selection table -/

/-- Rows == columns on 8 x 8 as 0/1 reals, laid along axes 0 and 2 of 8 x 16 x 8 and recast to 128 x 8: row
    r = 16 a + b comes from (a, b, column), so the entry is one exactly where r / 16 is the column. -/
theorem sel_term (h1 : (⟨2, ![8, 8]⟩ : Shape).BroadcastsInDim ⟨3, ![8, 16, 8]⟩ ![0, 2])
    (h2 : (⟨0, ![]⟩ : Shape).BroadcastsInDim ⟨2, ![8, 8]⟩ ![])
    (h3 : (⟨3, ![8, 16, 8]⟩ : Shape).ShapeCasts ⟨2, ![128, 8]⟩) :
    shapeCast ⟨2, ![128, 8]⟩
      (broadcastInDim ⟨3, ![8, 16, 8]⟩ ![0, 2] h1
        (uitofp (F := Ideal) .f32
          (cmpi .eq
            (addi (iotaInDim ⟨2, ![8, 8]⟩ 32 0) (broadcastInDim ⟨2, ![8, 8]⟩ ![] h2 (constantI ⟨0, ![]⟩ 32 0#32)))
            (iotaInDim ⟨2, ![8, 8]⟩ 32 1)))) h3 = Cert.Spec.selS := by
  funext i
  obtain ⟨r, q, rfl⟩ : ∃ r q, i = ix2 r q := ⟨i 0, i 1, eq_ix2 i⟩
  have hr := r.isLt
  refine (shapeCast_apply _ h3 (ix2 r q)
    (ix3 (⟨r.val / 16, by omega⟩ : Fin 8) (⟨r.val % 16, by omega⟩ : Fin 16) q) ?_).trans ?_
  · rw [Shape.rowMajor_val_three, Shape.rowMajor_val_two]
    show (r.val / 16 * 16 + r.val % 16) * 8 + q.val = r.val * 8 + q.val
    omega
  refine (broadcastInDim_apply _ h1 _ _ (ix2 (⟨r.val / 16, by omega⟩ : Fin 8) q) ?_).trans ?_
  · intro a; match a with | ⟨0, _⟩ => rfl | ⟨1, _⟩ => rfl
  show (((IntOp.cmpi .eq (IntOp.addi (BitVec.ofNat 32 (r.val / 16)) 0#32) (BitVec.ofNat 32 q.val)).toNat : ℝ) : EReal)
    = if r.val / 16 = q.val then 1 else 0
  by_cases h : r.val / 16 = q.val
  · have e : IntOp.cmpi .eq (IntOp.addi (BitVec.ofNat 32 (r.val / 16)) 0#32) (BitVec.ofNat 32 q.val) = 1#1 :=
      StableHlo.Predicate.cmpi_eq_iff.mpr (by
        show BitVec.ofNat 32 (r.val / 16) + 0#32 = _
        rw [BitVec.add_zero, h])
    rw [e, if_pos h]; simp
  · have e : IntOp.cmpi .eq (IntOp.addi (BitVec.ofNat 32 (r.val / 16)) 0#32) (BitVec.ofNat 32 q.val) = 0#1 :=
      eq_zero_of_ne_one fun h1 => h (by
        have h2 : BitVec.ofNat 32 (r.val / 16) + 0#32 = BitVec.ofNat 32 q.val :=
          StableHlo.Predicate.cmpi_eq_iff.mp h1
        rw [BitVec.add_zero] at h2
        have h3 := congrArg BitVec.toNat h2
        simp only [BitVec.toNat_ofNat] at h3
        have := q.isLt
        omega)
    rw [e, if_neg h]; simp

/-- A buffer none of a stretch's operations writes keeps its contents through the stretch. -/
local macro "unwritten" : tactic => `(tactic| (
  refine StableHlo.after_of_forall_not_mem _ _ (List.forall_iff_forall_mem.mp ?_)
  simp only [List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The take stretch as one term

Wrap (add 50000 where the word reads negative), keep the words as a column, test 0 ≤ i ≤ 49999 and and-reduce over the
unit axis, gather the rows, and select the gathered row where the test holds, else the fill value. -/

section TakeTerm
variable {F : FTy → Type} [FloatOps F]

/-- The wrapped index words, as a column. -/
def wrapCol (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The take of a 50000 x 128 table by 800000 index words. -/
def takeTerm (T : (⟨S50000x128, .f32⟩ : BufTy).Contents (Elt F)) (idx : (⟨S800000, .i32⟩ : BufTy).Contents (Elt F)) :
    (⟨S800000x128, .f32⟩ : BufTy).Contents (Elt F) :=
  select
    (broadcastInDim S800000x128 ![0] bcast_S800000_S800000x128_0
      (Host.reduce IntOp.andi
        (andi
          (cmpi .sge (wrapCol (F := F) idx) (broadcastInDim S800000x1 ![] bcast_S_S800000x1 (constantI S_ 32 0#32)))
          (cmpi .sle (wrapCol (F := F) idx)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 T (wrapCol (F := F) idx))
    (broadcastInDim S800000x128 ![] bcast_S_S800000x128 (constant S_ .f32 0x7FC00000#32))

/-- Contents read or written through a typed reference to a literal buffer are the contents. -/
theorem toBuf_v10 (X : (⟨S800000x128, .f32⟩ : BufTy).Contents (Elt F)) :
    (.of main_v10 : StableHlo.TRef sig ⟨S800000x128, .f32⟩).toBuf X = X := eq_of_heq (cast_heq _ _)
theorem toBuf_v11 (X : (⟨S800000x128, .f32⟩ : BufTy).Contents (Elt F)) :
    (.of main_v11 : StableHlo.TRef sig ⟨S800000x128, .f32⟩).toBuf X = X := eq_of_heq (cast_heq _ _)
theorem toBuf_v12 (X : (⟨S800000x128, .f32⟩ : BufTy).Contents (Elt F)) :
    (.of main_v12 : StableHlo.TRef sig ⟨S800000x128, .f32⟩).toBuf X = X := eq_of_heq (cast_heq _ _)
theorem ofBuf_arg3 (X : (⟨S800000, .i32⟩ : BufTy).Contents (Elt F)) :
    (.of main_arg3 : StableHlo.TRef sig ⟨S800000, .i32⟩).ofBuf X = X := eq_of_heq (cast_heq _ _)
theorem ofBuf_arg4 (X : (⟨S800000, .i32⟩ : BufTy).Contents (Elt F)) :
    (.of main_arg4 : StableHlo.TRef sig ⟨S800000, .i32⟩).ofBuf X = X := eq_of_heq (cast_heq _ _)
theorem ofBuf_v9_0 (X : (⟨S50000x128, .f32⟩ : BufTy).Contents (Elt F)) :
    (.of main_v9_0 : StableHlo.TRef sig ⟨S50000x128, .f32⟩).ofBuf X = X := eq_of_heq (cast_heq _ _)
theorem ofBuf_v9_1 (X : (⟨S50000x128, .f32⟩ : BufTy).Contents (Elt F)) :
    (.of main_v9_1 : StableHlo.TRef sig ⟨S50000x128, .f32⟩).ofBuf X = X := eq_of_heq (cast_heq _ _)
theorem ofBuf_v9_2 (X : (⟨S50000x128, .f32⟩ : BufTy).Contents (Elt F)) :
    (.of main_v9_2 : StableHlo.TRef sig ⟨S50000x128, .f32⟩).ofBuf X = X := eq_of_heq (cast_heq _ _)

/-- The first take stretch leaves, in its result buffer, the take of the table in main_v9_1 by the words of argument 3. -/
theorem take0_term (V : Valuation τ sig (Elt F)) :
    StableHlo.after (hostOps1 (F := F)) V (Proc.devRef .tc main_v10)
      = takeTerm (F := F) (V (Proc.devRef .tc main_v9_1)) (V (Proc.devRef .tc main_arg3)) := by
  after_results_simp
  simp only [StableHlo.TRef.ofBuf_toBuf]
  rw [toBuf_v10, ofBuf_arg3, ofBuf_v9_1]
  unfold takeTerm wrapCol
  rfl

/-- The second, the take of the table in main_v9_0 by the words of argument 4. -/
theorem take1_term (V : Valuation τ sig (Elt F)) :
    StableHlo.after (hostOps1_1 (F := F)) V (Proc.devRef .tc main_v11)
      = takeTerm (F := F) (V (Proc.devRef .tc main_v9_0)) (V (Proc.devRef .tc main_arg4)) := by
  after_results_simp
  simp only [StableHlo.TRef.ofBuf_toBuf]
  rw [toBuf_v11, ofBuf_arg4, ofBuf_v9_0]
  unfold takeTerm wrapCol
  rfl

/-- The third, the take of the table in main_v9_2 by the words of argument 3. -/
theorem take2_term (V : Valuation τ sig (Elt F)) :
    StableHlo.after (hostOps1_2 (F := F)) V (Proc.devRef .tc main_v12)
      = takeTerm (F := F) (V (Proc.devRef .tc main_v9_2)) (V (Proc.devRef .tc main_arg3)) := by
  after_results_simp
  simp only [StableHlo.TRef.ofBuf_toBuf]
  rw [toBuf_v12, ofBuf_arg3, ofBuf_v9_2]
  unfold takeTerm wrapCol
  rfl

end TakeTerm

/-! ## Region 1's entry contents -/

theorem V6_arg2 (c : Dev nD) : V6 m ρ c main_arg2 = m ((c : Thread nD τ).loc main_arg2) := by
  show StableHlo.after hostOps1_3 (W5 m ρ c) (Proc.devRef .tc main_arg2) = _
  after_results
  rw [W2_of_ne m ρ c main_arg2 (by decide)]
  show StableHlo.after hostOps0 (W0 m ρ c) (Proc.devRef .tc main_arg2) = _
  after_results
theorem V6_arg11 (c : Dev nD) : V6 m ρ c main_arg11 = m ((c : Thread nD τ).loc main_arg11) := by
  show StableHlo.after hostOps1_3 (W5 m ρ c) (Proc.devRef .tc main_arg11) = _
  after_results
  rw [W2_of_ne m ρ c main_arg11 (by decide)]
  show StableHlo.after hostOps0 (W0 m ρ c) (Proc.devRef .tc main_arg11) = _
  after_results

/-! ### The index arguments and the node tables, as the take stretches find them -/

theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem W3_arg4 (c : Dev nD) : W3 m ρ c (Proc.devRef .tc main_arg4) = m ((c : Thread nD τ).loc main_arg4) := by
  have e3 : W3 m ρ c (Proc.devRef .tc main_arg4) = W2 m ρ c (Proc.devRef .tc main_arg4) := by unwritten
  exact e3.trans (W2_arg4 m ρ c)
theorem W4_arg3 (c : Dev nD) : W4 m ρ c (Proc.devRef .tc main_arg3) = m ((c : Thread nD τ).loc main_arg3) := by
  have e4 : W4 m ρ c (Proc.devRef .tc main_arg3) = W3 m ρ c (Proc.devRef .tc main_arg3) := by unwritten
  have e3 : W3 m ρ c (Proc.devRef .tc main_arg3) = W2 m ρ c (Proc.devRef .tc main_arg3) := by unwritten
  exact e4.trans (e3.trans (W2_arg3 m ρ c))
theorem W3_v9_0 (c : Dev nD) : W3 m ρ c (Proc.devRef .tc main_v9_0) = W2 m ρ c (Proc.devRef .tc main_v9_0) := by
  unwritten
theorem W4_v9_2 (c : Dev nD) : W4 m ρ c (Proc.devRef .tc main_v9_2) = W2 m ρ c (Proc.devRef .tc main_v9_2) := by
  have e4 : W4 m ρ c (Proc.devRef .tc main_v9_2) = W3 m ρ c (Proc.devRef .tc main_v9_2) := by unwritten
  have e3 : W3 m ρ c (Proc.devRef .tc main_v9_2) = W2 m ρ c (Proc.devRef .tc main_v9_2) := by unwritten
  exact e4.trans e3

/-- The rows of K the source words name (the mask of the take is all ones when every word names a node). -/
theorem V6_v10 (c : Dev nD) (hs : Cert.Spec.InRange (m ((c : Thread nD τ).loc main_arg3))) :
    V6 m ρ c main_v10 = Cert.Spec.takeRows (W2 m ρ c (Proc.devRef .tc main_v9_1)) (m ((c : Thread nD τ).loc main_arg3)) := by
  have e6 : W6 m ρ c (Proc.devRef .tc main_v10) = W5 m ρ c (Proc.devRef .tc main_v10) := by unwritten
  have e5 : W5 m ρ c (Proc.devRef .tc main_v10) = W4 m ρ c (Proc.devRef .tc main_v10) := by unwritten
  have e4 : W4 m ρ c (Proc.devRef .tc main_v10) = W3 m ρ c (Proc.devRef .tc main_v10) := by unwritten
  refine e6.trans (e5.trans (e4.trans ((take0_term (W2 m ρ c)).trans ?_)))
  rw [W2_arg3 m ρ c]
  unfold takeTerm wrapCol
  exact take_all _ rfl rfl rfl rfl rfl _ _ _ _ _ _ _ _ _ _ _ hs
/-- The rows of Q the destination words name. -/
theorem V6_v11 (c : Dev nD) (hd : Cert.Spec.InRange (m ((c : Thread nD τ).loc main_arg4))) :
    V6 m ρ c main_v11 = Cert.Spec.takeRows (W2 m ρ c (Proc.devRef .tc main_v9_0)) (m ((c : Thread nD τ).loc main_arg4)) := by
  have e6 : W6 m ρ c (Proc.devRef .tc main_v11) = W5 m ρ c (Proc.devRef .tc main_v11) := by unwritten
  have e5 : W5 m ρ c (Proc.devRef .tc main_v11) = W4 m ρ c (Proc.devRef .tc main_v11) := by unwritten
  refine e6.trans (e5.trans ((take1_term (W3 m ρ c)).trans ?_))
  rw [W3_arg4 m ρ c, W3_v9_0 m ρ c]
  unfold takeTerm wrapCol
  exact take_all _ rfl rfl rfl rfl rfl _ _ _ _ _ _ _ _ _ _ _ hd
/-- The rows of V the source words name. -/
theorem V6_v12 (c : Dev nD) (hs : Cert.Spec.InRange (m ((c : Thread nD τ).loc main_arg3))) :
    V6 m ρ c main_v12 = Cert.Spec.takeRows (W2 m ρ c (Proc.devRef .tc main_v9_2)) (m ((c : Thread nD τ).loc main_arg3)) := by
  have e6 : W6 m ρ c (Proc.devRef .tc main_v12) = W5 m ρ c (Proc.devRef .tc main_v12) := by unwritten
  refine e6.trans ((take2_term (W4 m ρ c)).trans ?_)
  rw [W4_arg3 m ρ c, W4_v9_2 m ρ c]
  unfold takeTerm wrapCol
  exact take_all _ rfl rfl rfl rfl rfl _ _ _ _ _ _ _ _ _ _ _ hs
theorem V6_v20 (c : Dev nD) : V6 m ρ c main_v20 = Cert.Spec.selS := by
  show StableHlo.after hostOps1_3 (W5 m ρ c) (Proc.devRef .tc main_v20) = _
  after_results
  exact sel_term _ _ _
theorem V6_v21 (c : Dev nD) : V6 m ρ c main_v21 = Cert.Spec.selSt := by
  show StableHlo.after hostOps1_3 (W5 m ρ c) (Proc.devRef .tc main_v21) = _
  after_results
  funext i
  obtain ⟨q, r, rfl⟩ : ∃ q r, i = ix2 q r := ⟨i 0, i 1, eq_ix2 i⟩
  refine (transpose_ix2_apply _ _ q r).trans ?_
  exact congrFun (sel_term _ _ _) (ix2 r q)
theorem V6_v22 (c : Dev nD) : V6 m ρ c main_v22 = Cert.Spec.asRow (m ((c : Thread nD τ).loc main_arg12)) := by
  show StableHlo.after hostOps1_3 (W5 m ρ c) (Proc.devRef .tc main_v22) = _
  after_results
  rw [W2_of_ne m ρ c main_arg12 (by decide)]
  show (fun i => shapeCast (⟨2, ![1, 128]⟩ : Shape) (StableHlo.after hostOps0 (W0 m ρ c) (Proc.devRef .tc main_arg12)) _ i) = _
  after_results
  exact cast_row _ _

end Cert.KernelIdeal.HostEntry

end
-- ==== Proof.LibRowSum.lean ====
import proofs.«414019_j17703855194487_2_alg».proof.Proof.LibRowIndex
import Idealize.ShloMosaic.PureOps.Ideal
import Idealize.ShloMosaic.Lib.ValueIdx

/-!
# Row scatters summed, and rows of rank-3 tables

For a table of `N` rows indexed along its rows by a column of `n` index words:

* the updates of a row scatter that land on element `(r, col)` are exactly those in column `col` whose index word,
  read signed, is `r`; so a sum over the landing updates is a sum over those positions;
* the same for a table whose rows are `A × B` rectangles (the row axis inserted, both rectangle axes the window);
* a row gather from such a table reads, at `(e, a, b)`, row `idx[e]` (read signed, clamped into the table) at `(a, b)`.
-/

open scoped BigOperators

namespace Idealize.ShloMosaic.RowIndex

open Idealize.ShloMosaic Idealize.ShloMosaic.StableHlo.Predicate Idealize.ShloMosaic.ValueIdx

/-! ## The row scatter into an `[N, C]` table -/

/-- The column axis is the window: an update's window coordinate on it is its own column. -/
theorem scatter_rows_window1 {N C n : Nat} (d : ScatterDims ⟨2, ![N, C]⟩ ⟨2, ![n, 1]⟩ ⟨2, ![n, C]⟩)
    (hu : d.updateWindowDims = [1]) (hi : d.insertedWindowDims = [0]) (y : (⟨2, ![n, C]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 2, q = 1 → (y q).val = (y 1).val := fun q hq => by subst hq; rfl
  exact e _ (by rfl)

/-- The column axis is not named by the scatter index: the window starts at column `0`. -/
theorem scatter_rows_start1 {N C n w : Nat} (d : ScatterDims ⟨2, ![N, C]⟩ ⟨2, ![n, 1]⟩ ⟨2, ![n, C]⟩)
    (hs : d.scatterDimsToOperandDims = [0]) (idx : IVec ⟨2, ![n, 1]⟩ w) (y : (⟨2, ![n, C]⟩ : Shape).Idx) :
    d.start y idx 1 = 0 := by
  unfold ScatterDims.start
  rw [dif_neg (by rw [hs]; simp)]

/-- Update `j` lands on `i` exactly when its index word reads row `i 0` and its column is `i 1`. -/
theorem scatter_rows_iff {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (j : (⟨2, ![n, C]⟩ : Shape).Idx)
    (i : (⟨2, ![N, C]⟩ : Shape).Idx) :
    d.resultIdx? j idx = some i ↔
      (idx (ixP (n := n) (j 0))).toInt = ((i 0).val : Int) ∧ (j 1).val = (i 1).val := by
  have hst0 := scatter_rows_start d hu hs hv idx j
  have hw0 := scatter_rows_window0 d hi j
  have hst1 := scatter_rows_start1 d hs idx j
  have hw1 := scatter_rows_window1 d hu hi j
  have hiN : (i 0).val < N := (i 0).isLt
  have hjC : (j 1).val < C := (j 1).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      simp only [] at hi0 hi1
      constructor <;> omega
    · exact absurd h (by simp)
  · rintro ⟨h0, h1⟩
    have hall : ∀ a, 0 ≤ d.start j idx a + d.window j a ∧ d.start j idx a + d.window j a < (⟨2, ![N, C]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (C : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega

/-- A sum over the updates of a row scatter that land on `i = (r, col)` is the sum, over the positions whose index
    word reads `r`, of the update at `(position, col)`. -/
theorem scatter_rows_sum {M : Type} [AddCommMonoid M] {N C n w : Nat}
    (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (upd : (⟨2, ![n, C]⟩ : Shape).Idx → M)
    (i : (⟨2, ![N, C]⟩ : Shape).Idx) :
    ∑ j ∈ Finset.univ.filter (fun j => d.resultIdx? j idx = some i), upd j
      = ∑ e ∈ Finset.univ.filter (fun e : Fin n => (idx (ixP e)).toInt = ((i 0).val : Int)), upd (ij e (i 1)) := by
  have key := scatter_rows_iff d hu hi hs hv idx
  have back : ∀ j : (⟨2, ![n, C]⟩ : Shape).Idx, (j 1).val = (i 1).val → ij (n := n) (m := C) (j 0) (i 1) = j := by
    intro j h1
    funext b
    match b with
    | ⟨0, _⟩ => rfl
    | ⟨1, _⟩ => exact Fin.ext h1.symm
  refine Finset.sum_nbij' (fun j => (j 0 : Fin n)) (fun e => ij e (i 1)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ij e (i 1)) i).2 ⟨(Finset.mem_filter.mp he).2, rfl⟩⟩
  · intro j hj
    rw [Finset.mem_filter] at hj
    exact back j ((key j i).1 hj.2).2
  · intro e _
    rfl
  · intro j hj
    rw [Finset.mem_filter] at hj
    show upd j = upd (ij (j 0) (i 1))
    rw [back j ((key j i).1 hj.2).2]

/-! ## The row scatter into an `[N, A, B]` table -/

/-- The start of update `y`'s window on the row axis is its scatter index, read signed. -/
theorem scatter_rows3_start {N A B n w : Nat} (d : ScatterDims ⟨3, ![N, A, B]⟩ ⟨2, ![n, 1]⟩ ⟨3, ![n, A, B]⟩)
    (hu : d.updateWindowDims = [1, 2]) (hs : d.scatterDimsToOperandDims = [0]) (hv : d.indexVectorDim = 1)
    (idx : IVec ⟨2, ![n, 1]⟩ w) (y : (⟨3, ![n, A, B]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 3, q = 0 → (y q).val = (y 0).val := fun q hq => by subst hq; rfl
    exact e _ (by rfl)
  | ⟨1, _⟩ =>
    unfold ScatterDims.siIdx
    rw [dif_pos (by simp)]
    apply Fin.ext
    show List.idxOf (0 : Fin 3) [0] = 0
    simp

/-- The two rectangle axes are not named by the scatter index: the window starts at `0` on them. -/
theorem scatter_rows3_start_ne {N A B n w : Nat} (d : ScatterDims ⟨3, ![N, A, B]⟩ ⟨2, ![n, 1]⟩ ⟨3, ![n, A, B]⟩)
    (hs : d.scatterDimsToOperandDims = [0]) (idx : IVec ⟨2, ![n, 1]⟩ w) (y : (⟨3, ![n, A, B]⟩ : Shape).Idx)
    (a : Fin 3) (ha : a ≠ 0) : d.start y idx a = 0 := by
  unfold ScatterDims.start
  rw [dif_neg (by rw [hs]; simpa using ha)]

/-- The row axis is inserted: an update has no window coordinate on it. -/
theorem scatter_rows3_window0 {N A B n : Nat} (d : ScatterDims ⟨3, ![N, A, B]⟩ ⟨2, ![n, 1]⟩ ⟨3, ![n, A, B]⟩)
    (hi : d.insertedWindowDims = [0]) (y : (⟨3, ![n, A, B]⟩ : Shape).Idx) : d.window y 0 = 0 := by
  unfold ScatterDims.window
  rw [dif_neg (by rw [ScatterDims.sKept, hi]; simp [Shape.kept])]

/-- The first rectangle axis is a window axis: an update's window coordinate on it is its own. -/
theorem scatter_rows3_window1 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 3, q = 1 → (y q).val = (y 1).val := fun q hq => by subst hq; rfl
  exact e _ (by rfl)

/-- The second rectangle axis is a window axis: an update's window coordinate on it is its own. -/
theorem scatter_rows3_window2 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 2 = (y 2).val := by
  obtain ⟨uw, iw, sd, iv, wf⟩ := d
  dsimp only at hu hi
  subst hu hi
  unfold ScatterDims.window
  rw [dif_pos (by simp [ScatterDims.sKept, Shape.kept])]
  have e : ∀ q : Fin 3, q = 2 → (y q).val = (y 2).val := fun q hq => by subst hq; rfl
  exact e _ (by rfl)

/-- Update `j` lands on `i` exactly when its index word reads row `i 0` and its rectangle coordinates are `i`'s. -/
theorem scatter_rows3_iff {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (j : (⟨3, ![n, A, B]⟩ : Shape).Idx)
    (i : (⟨3, ![N, A, B]⟩ : Shape).Idx) :
    d.resultIdx? j idx = some i ↔
      (idx (ixP (n := n) (j 0))).toInt = ((i 0).val : Int) ∧ (j 1).val = (i 1).val ∧ (j 2).val = (i 2).val := by
  have hst0 := scatter_rows3_start d hu hs hv idx j
  have hw0 := scatter_rows3_window0 d hi j
  have hst1 := scatter_rows3_start_ne d hs idx j 1 (by decide)
  have hst2 := scatter_rows3_start_ne d hs idx j 2 (by decide)
  have hw1 := scatter_rows3_window1 d hu hi j
  have hw2 := scatter_rows3_window2 d hu hi j
  have hiN : (i 0).val < N := (i 0).isLt
  have hjA : (j 1).val < A := (j 1).isLt
  have hjB : (j 2).val < B := (j 2).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      have hi2 := congrArg Fin.val (congrFun (Option.some.inj h) 2)
      simp only [] at hi0 hi1 hi2
      refine ⟨?_, ?_, ?_⟩ <;> omega
    · exact absurd h (by simp)
  · rintro ⟨h0, h1, h2⟩
    have hall : ∀ a, 0 ≤ d.start j idx a + d.window j a ∧ d.start j idx a + d.window j a < (⟨3, ![N, A, B]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (A : Int)
        omega
      | ⟨2, _⟩ =>
        show 0 ≤ d.start j idx 2 + d.window j 2 ∧ d.start j idx 2 + d.window j 2 < (B : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega
    | ⟨2, _⟩ =>
      apply Fin.ext
      show (d.start j idx 2 + d.window j 2).toNat = (i 2).val
      omega

/-- The same for rows that are `A × B` rectangles. -/
theorem scatter_rows3_sum {M : Type} [AddCommMonoid M] {N A B n w : Nat}
    (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (upd : (⟨3, ![n, A, B]⟩ : Shape).Idx → M)
    (i : (⟨3, ![N, A, B]⟩ : Shape).Idx) :
    ∑ j ∈ Finset.univ.filter (fun j => d.resultIdx? j idx = some i), upd j
      = ∑ e ∈ Finset.univ.filter (fun e : Fin n => (idx (ixP e)).toInt = ((i 0).val : Int)), upd (ix3 e (i 1) (i 2)) := by
  have key := scatter_rows3_iff d hu hi hs hv idx
  have back : ∀ j : (⟨3, ![n, A, B]⟩ : Shape).Idx, (j 1).val = (i 1).val → (j 2).val = (i 2).val →
      ix3 (n0 := n) (n1 := A) (n2 := B) (j 0) (i 1) (i 2) = j := by
    intro j h1 h2
    funext b
    match b with
    | ⟨0, _⟩ => rfl
    | ⟨1, _⟩ => exact Fin.ext h1.symm
    | ⟨2, _⟩ => exact Fin.ext h2.symm
  refine Finset.sum_nbij' (fun j => (j 0 : Fin n)) (fun e => ix3 e (i 1) (i 2)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ix3 e (i 1) (i 2)) i).2 ⟨(Finset.mem_filter.mp he).2, rfl, rfl⟩⟩
  · intro j hj
    rw [Finset.mem_filter] at hj
    have hk := (key j i).1 hj.2
    exact back j hk.2.1 hk.2.2
  · intro e _
    rfl
  · intro j hj
    rw [Finset.mem_filter] at hj
    have hk := (key j i).1 hj.2
    show upd j = upd (ix3 (j 0) (i 1) (i 2))
    rw [back j hk.2.1 hk.2.2]

/-! ## The row gather from an `[N, A, B]` table -/

/-- The start of result `y`'s slice on the row axis is its start index, read signed and clamped into the table. -/
theorem gather_rows3_start {N A B n w : Nat} (d : GatherDims ⟨3, ![N, A, B]⟩ ⟨2, ![n, 1]⟩ ⟨3, ![n, A, B]⟩)
    (hoff : d.offsetDims = [1, 2]) (hcoll : d.collapsedSliceDims = [0])
    (hsim : d.startIndexMap = [0]) (hivd : d.indexVectorDim = 1)
    (idx : IVec ⟨2, ![n, 1]⟩ w) (y : (⟨3, ![n, A, B]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 3, q = 0 → (y q).val = (y 0).val := fun q hq => by subst hq; rfl
    exact e _ (by rfl)
  | ⟨1, _⟩ =>
    unfold GatherDims.siIdx
    rw [dif_pos (by simp)]
    apply Fin.ext
    show List.idxOf (0 : Fin 3) [0] = 0
    simp

/-- The first rectangle axis is kept: result `y`'s offset on it is its own coordinate. -/
theorem gather_rows3_off1 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 1 → (y q).val = (y 1).val := fun q hq => by subst hq; rfl
  exact e _ (by rfl)

/-- The second rectangle axis is kept: result `y`'s offset on it is its own coordinate. -/
theorem gather_rows3_off2 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 2 = (y 2).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 2 → (y q).val = (y 2).val := fun q hq => by subst hq; rfl
  exact e _ (by rfl)

/-- A row gather from a table of `A × B` rows read at `(e, a, b)`: row `idx[e]`, read signed and clamped into the
    table, at `(a, b)`. -/
theorem gather_rows3 {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (a : Fin A) (b : Fin B) (hN : 0 < N) :
    Host.gather d x idx (ix3 e a b) = x (ix3 ⟨min (idx (ixP e)).toInt.toNat (N - 1), by omega⟩ a b) := by
  unfold Host.gather
  congr 1
  funext c
  have hnb : ∀ c : Fin 3, c ∉ d.operandBatchingDims := fun c => by rw [hob]; exact List.not_mem_nil
  have hst0 : ∀ c : Fin 3, c ≠ 0 → d.start (ix3 e a b) idx c = 0 := fun c hc => by
    unfold GatherDims.start
    rw [dif_neg (by rw [hsim]; simpa using hc)]
  match c with
  | ⟨0, _⟩ =>
    apply Fin.ext
    have hb := d.batchCoord_eq_zero (ix3 e a b) 0 (hnb 0)
    have ho := d.offCoord_eq_zero (ix3 e a b) 0 (by rw [GatherDims.mem_sKept, hcoll]; simp)
    have hst : d.start (ix3 e a b) idx 0 = min (idx (ixP e)).toInt.toNat (N - 1) :=
      gather_rows3_start d hoff hcoll hsim hivd idx (ix3 e a b)
    show d.start (ix3 e a b) idx 0 + d.batchCoord (ix3 e a b) 0 + d.offCoord (ix3 e a b) 0 = min (idx (ixP e)).toInt.toNat (N - 1)
    omega
  | ⟨1, _⟩ =>
    apply Fin.ext
    have hb := d.batchCoord_eq_zero (ix3 e a b) 1 (hnb 1)
    have ho : d.offCoord (ix3 e a b) 1 = a.val := gather_rows3_off1 d hoff hcoll hob (ix3 e a b)
    have hst := hst0 1 (by decide)
    show d.start (ix3 e a b) idx 1 + d.batchCoord (ix3 e a b) 1 + d.offCoord (ix3 e a b) 1 = a.val
    omega
  | ⟨2, _⟩ =>
    apply Fin.ext
    have hb := d.batchCoord_eq_zero (ix3 e a b) 2 (hnb 2)
    have ho : d.offCoord (ix3 e a b) 2 = b.val := gather_rows3_off2 d hoff hcoll hob (ix3 e a b)
    have hst := hst0 2 (by decide)
    show d.start (ix3 e a b) idx 2 + d.batchCoord (ix3 e a b) 2 + d.offCoord (ix3 e a b) 2 = b.val
    omega

end Idealize.ShloMosaic.RowIndex
-- ==== Proof.HostTail.lean ====
import proofs.«414019_j17703855194487_2_alg».proof.Proof.Gen.KernelIdeal.Frame
import proofs.«414019_j17703855194487_2_alg».proof.Proof.Spec
import proofs.«414019_j17703855194487_2_alg».proof.Proof.LibRowSum
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.HostTail

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The accumulating scatter at an index: the operand's element plus the updates that land on it. -/
theorem scatterAdd_apply {s si su : Shape} (d : ScatterDims s si su) {w : Nat} (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl

/-- A collection at an index: the sum over the positions whose word reads the row. -/
theorem collect_apply {n C : Nat} (dst : Cert.Spec.Words n) (u : Cert.Spec.R2 n C) (i : (⟨2, ![50000, C]⟩ : Shape).Idx) :
    Cert.Spec.collect dst u i
      = ∑ j ∈ Finset.univ.filter (fun j : Fin n => (dst (ix1 j)).toInt = ((i 0).val : Int)), u (ix2 j (i 1)) := rfl

/-- A scalar spread over any shape reads the scalar everywhere. -/
theorem bcast_const_apply {t : Shape} (h : S_.BroadcastsInDim t (![] : Fin 0 → Fin t.rank)) (b : BitVec 32) (i : t.Idx) :
    broadcastInDim t ![] h (constant (F := Ideal) S_ .f32 b) i = Ideal.ofBits .f32 b := rfl

open Idealize.ShloMosaic.StableHlo.Predicate in
/-- The concatenation of messages and scores read at (e, col): the message below column 128, the score past it. -/
theorem cat_apply (msg : Cert.Spec.R2 800000 128) (sc : Cert.Spec.R2 800000 8) (e : Fin 800000) (col : Fin 136) :
    concatenate S800000x136 1 [⟨S800000x128, msg⟩, ⟨S800000x8, sc⟩] concatenates_S800000x128_S800000x8_S800000x136_d1 (ij e col)
      = Cert.Spec.side msg sc (ix2 e col) := by
  unfold Cert.Spec.side
  by_cases h : col.val < 128
  · rw [dif_pos (show ((ix2 e col : (⟨2, ![800000, 136]⟩ : Shape).Idx) 1).val < 128 from h)]
    refine concatenate_pair_apply_left (1 : Fin 2) msg sc _ (ij e col) rfl (ix2 e ⟨col.val, h⟩) ?_
    intro b
    match b with
    | ⟨0, _⟩ => rfl
    | ⟨1, _⟩ => rfl
  · rw [dif_neg (show ¬ ((ix2 e col : (⟨2, ![800000, 136]⟩ : Shape).Idx) 1).val < 128 from h)]
    refine concatenate_pair_apply_right (1 : Fin 2) msg sc _ (ij e col) rfl rfl (ix2 e ⟨col.val - 128, by have := col.isLt; omega⟩) ?_ ?_
    · intro b hb
      match b, hb with
      | ⟨0, _⟩, _ => rfl
      | ⟨1, _⟩, hb => exact absurd rfl hb
    · show col.val - 128 + 128 = col.val
      omega

open Idealize.ShloMosaic.StableHlo.Predicate in
theorem scat_apply (dst : Cert.Spec.Words 800000) (msg : Cert.Spec.R2 800000 128) (sc : Cert.Spec.R2 800000 8)
    (i : (⟨2, ![50000, 136]⟩ : Shape).Idx) :
    Host.scatterAdd (F := Ideal) (φ := .f32) scatter_S50000x136_S800000x1_S800000x136_1_0_0_1
      (broadcastInDim S50000x136 ![] bcast_S_S50000x136 (constant (F := Ideal) S_ .f32 0x00000000#32))
      (broadcastInDim S800000x1 ![0] bcast_S800000_S800000x1_0 dst)
      (concatenate S800000x136 1 [⟨S800000x128, msg⟩, ⟨S800000x8, sc⟩] concatenates_S800000x128_S800000x8_S800000x136_d1) i
    = Cert.Spec.collect dst (Cert.Spec.side msg sc) i := by
  rw [scatterAdd_apply, bcast_const_apply, Ideal.ofBits_zero_f32, zero_add, collect_apply]
  rw [RowIndex.scatter_rows_sum scatter_S50000x136_S800000x1_S800000x136_1_0_0_1 rfl rfl rfl rfl]
  refine Finset.sum_congr ?_ fun e _ => cat_apply msg sc e (i 1)
  refine Finset.filter_congr fun e _ => ?_
  rw [bcast_col1]
  have he : (Shape.Idx.ofFin e : (⟨1, ![800000]⟩ : Shape).Idx) = ix1 e := by
    funext b; match b with | ⟨0, _⟩ => rfl
  rw [he]

/-- The host's quotient at an index is the quotient of the elements. -/
theorem hostDivf_apply' {s : Shape} (x y : FVec Ideal s .f32) (i : s.Idx) :
    Host.divf (F := Ideal) x y i = Ideal.div (x i) (y i) := rfl

/-- The blocked result at (r, h, d): the collected lane 16 h + d over the collected score column 128 + h, shifted. -/
theorem outK0_apply {n : Nat} (dst : Cert.Spec.Words n) (msg : Cert.Spec.R2 n 128) (sc : Cert.Spec.R2 n 8)
    (a : Fin 50000) (b : Fin 8) (d : Fin 16) :
    Cert.Spec.outK0 dst msg sc (ix3 a b d)
      = Ideal.div (Cert.Spec.collect dst (Cert.Spec.side msg sc) (ix2 a ⟨16 * b.val + d.val, by omega⟩))
          (Cert.Spec.collect dst (Cert.Spec.side msg sc) (ix2 a ⟨128 + b.val, by omega⟩) + Cert.Spec.eps) := rfl

/-- What follows the scatter, for any 50000 x 136 table S: element (r, h, d) of the result is S (r, 16 h + d) over
    S (r, 128 + h) plus the shift. -/
theorem tail_apply (S : FVec Ideal S50000x136 .f32) (a : Fin 50000) (b : Fin 8) (d : Fin 16) :
    Host.divf (F := Ideal)
      (shapeCast S50000x8x16 (extractStridedSlice S50000x128 ![0, 0] S slices_S50000x136_S50000x128_0_0) shapeCasts_S50000x128_S50000x8x16)
      (broadcastInDim S50000x8x16 ![0, 1, 2] bcast_S50000x8x1_S50000x8x16_0_1_2
        (addf (shapeCast S50000x8x1 (extractStridedSlice S50000x8 ![0, 128] S slices_S50000x136_S50000x8_0_128) shapeCasts_S50000x8_S50000x8x1)
          (broadcastInDim S50000x8x1 ![] bcast_S_S50000x8x1 (constant (F := Ideal) S_ .f32 0x358637BD#32)))) (ix3 a b d)
    = Ideal.div (S (ix2 a ⟨16 * b.val + d.val, by omega⟩)) (S (ix2 a ⟨128 + b.val, by omega⟩) + Cert.Spec.eps) := by
  rw [hostDivf_apply']
  have hnum : shapeCast S50000x8x16 (extractStridedSlice S50000x128 ![0, 0] S slices_S50000x136_S50000x128_0_0)
      shapeCasts_S50000x128_S50000x8x16 (ix3 a b d) = S (ix2 a ⟨16 * b.val + d.val, by omega⟩) := by
    refine (shapeCast_apply _ _ _ (ix2 a ⟨16 * b.val + d.val, by omega⟩) ?_).trans ?_
    · rw [Shape.rowMajor_val_two, Shape.rowMajor_val_three]
      show a.val * 128 + (16 * b.val + d.val) = (a.val * 8 + b.val) * 16 + d.val
      omega
    · refine extractStridedSlice_apply _ _ _ _ (ix2 a ⟨16 * b.val + d.val, by omega⟩) fun x => ?_
      match x with
      | ⟨0, _⟩ => show a.val = 0 + a.val; omega
      | ⟨1, _⟩ => show 16 * b.val + d.val = 0 + (16 * b.val + d.val); omega
  have hden : broadcastInDim S50000x8x16 ![0, 1, 2] bcast_S50000x8x1_S50000x8x16_0_1_2
        (addf (shapeCast S50000x8x1 (extractStridedSlice S50000x8 ![0, 128] S slices_S50000x136_S50000x8_0_128) shapeCasts_S50000x8_S50000x8x1)
          (broadcastInDim S50000x8x1 ![] bcast_S_S50000x8x1 (constant (F := Ideal) S_ .f32 0x358637BD#32))) (ix3 a b d)
      = S (ix2 a ⟨128 + b.val, by omega⟩) + Cert.Spec.eps := by
    refine (broadcastInDim_apply _ _ _ _ (ix3 a b (0 : Fin 1)) fun x => ?_).trans ?_
    · match x with
      | ⟨0, _⟩ => rfl
      | ⟨1, _⟩ => rfl
      | ⟨2, _⟩ => rfl
    · rw [addf_apply, bcast_const_apply]
      refine congrArg (· + Cert.Spec.eps) ?_
      refine (shapeCast_apply _ _ _ (ix2 a b) ?_).trans ?_
      · rw [Shape.rowMajor_val_two, Shape.rowMajor_val_three]
        show a.val * 8 + b.val = (a.val * 8 + b.val) * 1 + 0
        omega
      · refine extractStridedSlice_apply _ _ _ _ (ix2 a ⟨128 + b.val, by omega⟩) fun x => ?_
        match x with
        | ⟨0, _⟩ => show a.val = 0 + a.val; omega
        | ⟨1, _⟩ => show 128 + b.val = 128 + b.val; rfl
  rw [hnum, hden]

/-- The destination words are never written: at the second region's exit they are as launched. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

set_option maxHeartbeats 4000000 in
/-- The first result: the collected messages over the collected scores plus the shift. -/
theorem W8_v35 (c : Dev nD) : W8 m ρ c (Proc.devRef .tc main_v35)
    = Cert.Spec.outK0 (m ((c : Thread nD τ).loc main_arg4)) (W7 m ρ c (Proc.devRef .tc main_v23_0)) (W7 m ρ c (Proc.devRef .tc main_v23_1)) := by
  show StableHlo.after hostOps2 _ (Proc.devRef .tc main_v35) = _
  after_results
  rw [W7_main_arg4 m ρ c]
  generalize hS : Host.scatterAdd (F := Ideal) (φ := .f32) scatter_S50000x136_S800000x1_S800000x136_1_0_0_1
    (broadcastInDim S50000x136 ![] bcast_S_S50000x136 (constant (F := Ideal) S_ FTy.f32 0x00000000#32))
    (broadcastInDim S800000x1 ![0] bcast_S800000_S800000x1_0 (m ((c : Thread nD τ).loc main_arg4) : IVec S800000 32))
    (concatenate S800000x136 1 [⟨S800000x128, (W7 m ρ c (Proc.devRef .tc main_v23_0) : FVec Ideal S800000x128 .f32)⟩,
        ⟨S800000x8, (W7 m ρ c (Proc.devRef .tc main_v23_1) : FVec Ideal S800000x8 .f32)⟩]
      concatenates_S800000x128_S800000x8_S800000x136_d1) = S
  have hSi : ∀ i, S i = Cert.Spec.collect (m ((c : Thread nD τ).loc main_arg4))
      (Cert.Spec.side (W7 m ρ c (Proc.devRef .tc main_v23_0)) (W7 m ρ c (Proc.devRef .tc main_v23_1))) i := fun i => by
    rw [← hS]; exact scat_apply _ _ _ i
  clear hS
  funext i
  obtain ⟨a, b, d, rfl⟩ : ∃ a b d, i = ix3 a b d := ⟨_, _, _, eq_ix3 i⟩
  refine (tail_apply S a b d).trans ?_
  rw [hSi, hSi, outK0_apply]

/-- The second result: the scores with a unit axis appended. -/
theorem W8_v36 (c : Dev nD) : W8 m ρ c (Proc.devRef .tc main_v36) = Cert.Spec.outK1 (W7 m ρ c (Proc.devRef .tc main_v23_1)) := by
  show StableHlo.after hostOps2 _ (Proc.devRef .tc main_v36) = _
  after_results
  funext i
  obtain ⟨a, b, d, rfl⟩ : ∃ a b d, i = ix3 a b d := ⟨_, _, _, eq_ix3 i⟩
  show shapeCast S800000x8x1 (W7 m ρ c (Proc.devRef .tc main_v23_1)) shapeCasts_S800000x8_S800000x8x1 (ix3 a b d) = _
  refine (shapeCast_apply _ _ _ (ix2 a b) ?_).trans rfl
  rw [Shape.rowMajor_val_two, Shape.rowMajor_val_three]
  have hd : d.val = 0 := by have := d.isLt; omega
  show a.val * 8 + b.val = (a.val * 8 + b.val) * 1 + d.val
  omega

end Cert.KernelIdeal.HostTail

end
-- ==== Proof.KernelValue.lean ====
/-
  The blocked program's two result arrays as functions of its thirteen argument arrays: the first call's exit holds
  the three node tables (the projection of the launch arrays through the weight halves and the bias rows); the second
  call finds the rows of those tables that the source and destination words name, the edge features, the weights and
  the two 0/1 tables, and leaves the scores and the messages; the operations after it collect them per node and divide.
-/
import proofs.«414019_j17703855194487_2_alg».proof.Proof.NodeValue
import proofs.«414019_j17703855194487_2_alg».proof.Proof.EdgeValue
import proofs.«414019_j17703855194487_2_alg».proof.Proof.HostEntry
import proofs.«414019_j17703855194487_2_alg».proof.Proof.HostTail
import proofs.«414019_j17703855194487_2_alg».proof.Proof.Spec

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The first call's exit: the node tables -/

theorem W2_Q (c : Dev nD) : W2 m ρ c (Proc.devRef .tc main_v9_0) = Cert.Spec.kerQ (m ((c : Thread nD τ).loc main_arg0)) (m ((c : Thread nD τ).loc main_arg1)) (m ((c : Thread nD τ).loc main_arg5)) (m ((c : Thread nD τ).loc main_arg6)) :=
  (W2_arr m ρ c 11).trans ((NodeValue.arr_Q (V1 m ρ) c).trans (by
    rw [HostEntry.V1_arg0, HostEntry.V1_arg1, HostEntry.V1_v0, HostEntry.V1_v1, HostEntry.V1_v6]; rfl))

theorem W2_K (c : Dev nD) : W2 m ρ c (Proc.devRef .tc main_v9_1) = Cert.Spec.kerK (m ((c : Thread nD τ).loc main_arg0)) (m ((c : Thread nD τ).loc main_arg1)) (m ((c : Thread nD τ).loc main_arg7)) (m ((c : Thread nD τ).loc main_arg8)) :=
  (W2_arr m ρ c 12).trans ((NodeValue.arr_K (V1 m ρ) c).trans (by
    rw [HostEntry.V1_arg0, HostEntry.V1_arg1, HostEntry.V1_v2, HostEntry.V1_v3, HostEntry.V1_v7]; rfl))

theorem W2_V (c : Dev nD) : W2 m ρ c (Proc.devRef .tc main_v9_2) = Cert.Spec.kerV (m ((c : Thread nD τ).loc main_arg0)) (m ((c : Thread nD τ).loc main_arg1)) (m ((c : Thread nD τ).loc main_arg9)) (m ((c : Thread nD τ).loc main_arg10)) :=
  (W2_arr m ρ c 13).trans ((NodeValue.arr_V (V1 m ρ) c).trans (by
    rw [HostEntry.V1_arg0, HostEntry.V1_arg1, HostEntry.V1_v4, HostEntry.V1_v5, HostEntry.V1_v8]; rfl))

/-! ## The second call's exit: the scores and the messages -/

theorem W7_score (c : Dev nD) (hs : Cert.Spec.InRange (m ((c : Thread nD τ).loc main_arg3))) (hd : Cert.Spec.InRange (m ((c : Thread nD τ).loc main_arg4))) :
    W7 m ρ c (Proc.devRef .tc main_v23_1) = Cert.Spec.kerScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) :=
  (W7_arr m ρ c 9).trans ((EdgeValue.arr_score (V6 m ρ) c).trans (by
    rw [HostEntry.V6_arg2, HostEntry.V6_v10 m ρ c hs, HostEntry.V6_v11 m ρ c hd, HostEntry.V6_arg11, HostEntry.V6_v22,
      HostEntry.V6_v20, W2_K, W2_Q]; rfl))

theorem W7_msg (c : Dev nD) (hs : Cert.Spec.InRange (m ((c : Thread nD τ).loc main_arg3))) (hd : Cert.Spec.InRange (m ((c : Thread nD τ).loc main_arg4))) :
    W7 m ρ c (Proc.devRef .tc main_v23_0) = Cert.Spec.kerMsg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W7_arr m ρ c 8).trans ((EdgeValue.arr_msg (V6 m ρ) c).trans (by
    rw [HostEntry.V6_arg2, HostEntry.V6_v10 m ρ c hs, HostEntry.V6_v11 m ρ c hd, HostEntry.V6_v12 m ρ c hs, HostEntry.V6_arg11,
      HostEntry.V6_v22, HostEntry.V6_v20, HostEntry.V6_v21, W2_K, W2_Q, W2_V]; rfl))

/-! ## The results -/

theorem W8_out0 (c : Dev nD) (hs : Cert.Spec.InRange (m ((c : Thread nD τ).loc main_arg3))) (hd : Cert.Spec.InRange (m ((c : Thread nD τ).loc main_arg4))) :
    W8 m ρ c (Proc.devRef .tc main_v35) = Cert.Spec.kerOut0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [HostTail.W8_v35, W7_msg m ρ c hs hd, W7_score m ρ c hs hd]; rfl

theorem W8_out1 (c : Dev nD) (hs : Cert.Spec.InRange (m ((c : Thread nD τ).loc main_arg3))) (hd : Cert.Spec.InRange (m ((c : Thread nD τ).loc main_arg4))) :
    W8 m ρ c (Proc.devRef .tc main_v36) = Cert.Spec.kerOut1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  rw [HostTail.W8_v36, W7_score m ρ c hs hd]; rfl

end Cert.KernelIdeal.KernelValue

end
-- ==== Proof.RefValue.lean ====
import proofs.«414019_j17703855194487_2_alg».proof.Proof.Gen.ReferenceIdeal.Read
import proofs.«414019_j17703855194487_2_alg».proof.Proof.Spec
import proofs.«414019_j17703855194487_2_alg».proof.Proof.LibRowSum
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

/-!
# The whole-array program's two results, index by index

Every stage of the program is read at an index. The joined rows against a weight column plus the bias give the three
projected node tables at (row, head, lane) — lane `16 h + d` of 128 is position (h, d) of 8 x 16 —, and likewise the
projected edge features. A word that reads in [0, 50000) is not negative, so the wrap `w < 0 ? w + 50000 : w` leaves it
alone and a row gather reads the row the word names. The score of edge e on head h is the exponential of the clipped
sum over the head's 16 lanes of K[src e] * Q[dst e] * (1/4) * E e; a row scatter-add into a zero table collects, on node
r, the updates of the edges whose destination word reads r. The first result is the quotient of the collected messages
by the collected scores shifted by a small constant.
-/

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open scoped BigOperators

/-- The joined rows read at (r, k): the first table below lane 64, the second from lane 64 on. -/
theorem cat_apply (x0 x1 : Cert.Spec.R2 50000 64) (r : Fin 50000) (k : Fin 128) :
    Read.val_main_v0 (F := Ideal) x0 x1 (ix2 r k) = Cert.Spec.cat x0 x1 (ix2 r k) := by
  unfold Read.val_main_v0 Cert.Spec.cat
  by_cases hk : k.val < 64
  · rw [dif_pos (show ((ix2 r k : (⟨2, ![50000, 128]⟩ : Shape).Idx) 1).val < 64 from hk)]
    refine concatenate_pair_apply_left (1 : Fin 2) x0 x1 concatenates_S50000x64_S50000x64_S50000x128_d1 (ix2 r k) rfl
      (ix2 r ⟨k.val, hk⟩) (fun b => ?_)
    match b with
    | ⟨0, _⟩ => rfl
    | ⟨1, _⟩ => rfl
  · rw [dif_neg (show ¬ ((ix2 r k : (⟨2, ![50000, 128]⟩ : Shape).Idx) 1).val < 64 from hk)]
    refine concatenate_pair_apply_right (1 : Fin 2) x0 x1 concatenates_S50000x64_S50000x64_S50000x128_d1 (ix2 r k) rfl rfl
      (ix2 r ⟨k.val - 64, by have := k.isLt; omega⟩) (fun b hb => ?_) ?_
    · match b with
      | ⟨0, _⟩ => rfl
      | ⟨1, _⟩ => exact absurd rfl hb
    · show (k.val - 64) + 64 = k.val
      omega

/-- The projected table read at (r, h, d): the joined row against column `16 h + d` of the weights, plus the bias. -/
theorem proj_apply (x0 x1 : Cert.Spec.R2 50000 64) (W : Cert.Spec.R2 128 128) (b : Cert.Spec.R1 128)
    (r : Fin 50000) (h : Fin 8) (d : Fin 16) :
    Read.val_main_v5 (F := Ideal) x0 x1 W b (ix3 r h d) = Cert.Spec.projR x0 x1 W b (ix3 r h d) := by
  have e5 : Read.idx_main_v5 (ix3 r h d) = ix2 r (Cert.Spec.lane h d) := funext fun a => Fin.ext (by
    have hh := h.isLt; have hd := d.isLt
    match a with
    | ⟨0, _⟩ => show ((r.val * 8 + h.val) * 16 + d.val) / 128 = r.val; omega
    | ⟨1, _⟩ => show ((r.val * 8 + h.val) * 16 + d.val) % 128 = 16 * h.val + d.val; omega)
  have el : ∀ k : Fin 128, Read.lidx_main_v1 (ix2 r (Cert.Spec.lane h d)) k = ix2 r k := fun k => funext fun a => Fin.ext (by
    match a with
    | ⟨0, _⟩ => rfl
    | ⟨1, _⟩ => rfl)
  have er : ∀ k : Fin 128, Read.ridx_main_v1 (ix2 r (Cert.Spec.lane h d)) k = ix2 k (Cert.Spec.lane h d) := fun k => funext fun a => Fin.ext (by
    match a with
    | ⟨0, _⟩ => rfl
    | ⟨1, _⟩ => rfl)
  have e3 : Read.idx_main_v2 (Read.idx_main_v3 (ix2 r (Cert.Spec.lane h d))) = ix1 (Cert.Spec.lane h d) := funext fun a => Fin.ext (by
    match a with
    | ⟨0, _⟩ => rfl)
  rw [Read.val_main_v5_apply, e5, Read.val_main_v4_apply, Read.val_main_v1_apply, Read.val_main_v3_apply, Read.val_main_v2_apply, e3,
    Ideal.addf_def]
  unfold Cert.Spec.projR
  refine congrArg (· + b (ix1 (Cert.Spec.lane h d))) (Finset.sum_congr rfl fun k _ => ?_)
  rw [el, er, cat_apply]

/-- A word that reads non-negative is not below zero, so the wrap `w < 0 ? w + 50000 : w` leaves it alone. -/
theorem wrap_id (w : BitVec 32) (hw : 0 ≤ w.toInt) :
    Scalar.select (IntOp.cmpi .slt w 0#32) (IntOp.addi w 50000#32) w = w := by
  have h0 : IntOp.cmpi .slt w 0#32 = 0#1 := by
    unfold IntOp.cmpi
    show BitVec.ofBool (w.slt 0#32) = 0#1
    have : w.slt 0#32 = false := by
      rw [BitVec.slt]
      simp only [BitVec.toInt_zero, decide_eq_false_iff_not, not_lt]
      exact hw
    rw [this]; rfl
  rw [h0, select_zero]

/-- The wrapped index column at position e is the word itself, for words that name a node. -/
theorem col_apply (x3 : Cert.Spec.Words 800000) (hs : Cert.Spec.InRange x3) (e : Fin 800000) :
    Read.val_main_v26 (F := Ideal) x3 (StableHlo.Predicate.ixP e) = x3 (ix1 e) := by
  have e26 : Read.idx_main_v26 (StableHlo.Predicate.ixP e) = ix1 e := funext fun a => Fin.ext (by
    match a with
    | ⟨0, _⟩ => rfl)
  rw [Read.val_main_v26_apply, e26, Read.val_main_v25_apply, Read.val_main_v22_apply, Read.val_main_v24_apply, Read.val_main_v21_apply,
    Read.val_main_v23_apply, Read.val_main_c_apply, Read.val_main_c_0_apply]
  exact wrap_id _ (hs e).1

/-- The projected edge features read at (e, h, d). -/
theorem eproj_apply (x2 : Cert.Spec.R2 800000 64) (W : Cert.Spec.R2 64 128) (b : Cert.Spec.R1 128)
    (e : Fin 800000) (h : Fin 8) (d : Fin 16) :
    Read.val_main_v20 (F := Ideal) x2 W b (ix3 e h d) = Cert.Spec.eprojR x2 W b (ix3 e h d) := by
  have e20 : Read.idx_main_v20 (ix3 e h d) = ix2 e (Cert.Spec.lane h d) := funext fun a => Fin.ext (by
    have hh := h.isLt; have hd := d.isLt
    match a with
    | ⟨0, _⟩ => show ((e.val * 8 + h.val) * 16 + d.val) / 128 = e.val; omega
    | ⟨1, _⟩ => show ((e.val * 8 + h.val) * 16 + d.val) % 128 = 16 * h.val + d.val; omega)
  have el : ∀ k : Fin 64, Read.lidx_main_v16 (ix2 e (Cert.Spec.lane h d)) k = ix2 e k := fun k => funext fun a => Fin.ext (by
    match a with
    | ⟨0, _⟩ => rfl
    | ⟨1, _⟩ => rfl)
  have er : ∀ k : Fin 64, Read.ridx_main_v16 (ix2 e (Cert.Spec.lane h d)) k = ix2 k (Cert.Spec.lane h d) := fun k => funext fun a => Fin.ext (by
    match a with
    | ⟨0, _⟩ => rfl
    | ⟨1, _⟩ => rfl)
  have e18 : Read.idx_main_v17 (Read.idx_main_v18 (ix2 e (Cert.Spec.lane h d))) = ix1 (Cert.Spec.lane h d) := funext fun a => Fin.ext (by
    match a with
    | ⟨0, _⟩ => rfl)
  rw [Read.val_main_v20_apply, e20, Read.val_main_v19_apply, Read.val_main_v16_apply, Read.val_main_v18_apply, Read.val_main_v17_apply, e18,
    Ideal.addf_def]
  unfold Cert.Spec.eprojR
  refine congrArg (· + b (ix1 (Cert.Spec.lane h d))) (Finset.sum_congr rfl fun k _ => ?_)
  rw [el, er]

/-- A row gather of a projected table by the wrapped source column reads the row the word names. -/
theorem gather_apply (x0 x1 : Cert.Spec.R2 50000 64) (W : Cert.Spec.R2 128 128) (b : Cert.Spec.R1 128)
    (x3 : Cert.Spec.Words 800000) (hs : Cert.Spec.InRange x3) (e : Fin 800000) (h : Fin 8) (d : Fin 16) :
    Host.gather gather_S50000x8x16_S800000x1_S800000x8x16_12_0_n_n_0_1_1816 (Read.val_main_v5 (F := Ideal) x0 x1 W b)
        (Read.val_main_v26 (F := Ideal) x3) (ix3 e h d)
      = Cert.Spec.projR x0 x1 W b (ix3 (Cert.Spec.rowOf (x3 (ix1 e))) h d) := by
  refine (RowIndex.gather_rows3 gather_S50000x8x16_S800000x1_S800000x8x16_12_0_n_n_0_1_1816 rfl rfl rfl rfl rfl
    (Read.val_main_v5 (F := Ideal) x0 x1 W b) (Read.val_main_v26 (F := Ideal) x3) e h d (by decide)).trans ?_
  refine (congrArg (fun q : Fin 50000 => Read.val_main_v5 (F := Ideal) x0 x1 W b (ix3 q h d)) (Fin.ext ?_)).trans
    (proj_apply x0 x1 W b (Cert.Spec.rowOf (x3 (ix1 e))) h d)
  show min (Read.val_main_v26 (F := Ideal) x3 (StableHlo.Predicate.ixP e)).toInt.toNat (50000 - 1) = min (x3 (ix1 e)).toInt.toNat 49999
  rw [col_apply x3 hs e]

section Score
variable (x0 x1 : Cert.Spec.R2 50000 64) (x2 : Cert.Spec.R2 800000 64) (x3 x4 : Cert.Spec.Words 800000)
  (x5 : Cert.Spec.R2 128 128) (x6 : Cert.Spec.R1 128) (x7 : Cert.Spec.R2 128 128) (x8 : Cert.Spec.R1 128)
  (x11 : Cert.Spec.R2 64 128) (x12 : Cert.Spec.R1 128)

/-- The score's term on lane (h, k) of edge e. -/
theorem term_apply (hs : Cert.Spec.InRange x3) (hd : Cert.Spec.InRange x4) (e : Fin 800000) (h : Fin 8) (k : Fin 16) :
    Read.val_main_v38 (F := Ideal) x0 x1 x2 x3 x4 x5 x6 x7 x8 x11 x12 (ix3 e h k)
      = ((Cert.Spec.projR x0 x1 x7 x8 (ix3 (Cert.Spec.rowOf (x3 (ix1 e))) h k)
          * Cert.Spec.projR x0 x1 x5 x6 (ix3 (Cert.Spec.rowOf (x4 (ix1 e))) h k)) * Cert.Spec.quarter)
        * Cert.Spec.eprojR x2 x11 x12 (ix3 e h k) := by
  have h27 : Read.val_main_v27 (F := Ideal) x0 x1 x3 x7 x8 (ix3 e h k)
      = Cert.Spec.projR x0 x1 x7 x8 (ix3 (Cert.Spec.rowOf (x3 (ix1 e))) h k) := gather_apply x0 x1 x7 x8 x3 hs e h k
  have h34 : Read.val_main_v34 (F := Ideal) x0 x1 x4 x5 x6 (ix3 e h k)
      = Cert.Spec.projR x0 x1 x5 x6 (ix3 (Cert.Spec.rowOf (x4 (ix1 e))) h k) := gather_apply x0 x1 x5 x6 x4 hd e h k
  rw [Read.val_main_v38_apply, Read.val_main_v37_apply, Read.val_main_v35_apply, Read.val_main_v36_apply, Read.val_main_cst_apply,
    h27, h34, eproj_apply]
  rfl

/-- The scores, index by index. -/
theorem score_apply (hs : Cert.Spec.InRange x3) (hd : Cert.Spec.InRange x4) (e : Fin 800000) (h : Fin 8) (z : Fin 1) :
    Read.val_main_v42 (F := Ideal) x0 x1 x2 x3 x4 x5 x6 x7 x8 x11 x12 (ix3 e h z)
      = Cert.Spec.refOut1 x0 x1 x2 x3 x4 x5 x6 x7 x8 x11 x12 (ix3 e h z) := by
  have e40 : Read.idx_main_v40 (ix3 e h z) = ix2 e h := funext fun a => Fin.ext (by
    match a with
    | ⟨0, _⟩ => rfl
    | ⟨1, _⟩ => rfl)
  have e39 : ∀ k : Fin 16, Read.idx_main_v39 (ix2 e h) k = ix3 e h k := fun k => funext fun a => Fin.ext (by
    match a with
    | ⟨0, _⟩ => rfl
    | ⟨1, _⟩ => rfl
    | ⟨2, _⟩ => rfl)
  rw [Read.val_main_v42_apply, Read.val_main_v41_apply, Read.val_main_call0_v4_apply, Read.val_main_call0_v3_apply, Read.val_main_cst_5_apply,
    Read.val_main_call0_v2_apply, Read.val_main_call0_v1_apply, Read.val_main_call0_v0_apply, Read.val_main_cst_4_apply,
    Read.val_main_v40_apply, e40, Read.val_main_v39_apply, Read.val_main_cst_3_apply]
  simp only [e39, term_apply x0 x1 x2 x3 x4 x5 x6 x7 x8 x11 x12 hs hd]
  simp only [Ideal.ofBits_def, Ideal.ofBits_zero_f32, zero_add]
  rfl

end Score

/-- A row scatter-add into a table of A x B rows, read at (r, a, b): the operand there plus the updates at (e, a, b) over the
    positions e whose index word reads r. -/
theorem scatter3_apply {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (x : FVec Ideal ⟨3, ![N, A, B]⟩ .f32) (idx : IVec ⟨2, ![n, 1]⟩ w)
    (upd : FVec Ideal ⟨3, ![n, A, B]⟩ .f32) (r : Fin N) (a : Fin A) (b : Fin B) :
    Host.scatterAdd d x idx upd (ix3 r a b)
      = x (ix3 r a b) + ∑ e ∈ Finset.univ.filter (fun e : Fin n => (idx (StableHlo.Predicate.ixP e)).toInt = ((r.val : Nat) : Int)),
          upd (ix3 e a b) :=
  congrArg (x (ix3 r a b) + ·) (RowIndex.scatter_rows3_sum d hu hi hs hv idx upd (ix3 r a b))

/-- The positions whose destination word reads r, through the destination column. -/
theorem landing_eq (x4 : Cert.Spec.Words 800000) (r : Fin 50000) :
    (Finset.univ.filter fun e : Fin 800000 =>
        (Read.val_main_v56 (F := Ideal) x4 (StableHlo.Predicate.ixP e)).toInt = ((r.val : Nat) : Int))
      = Cert.Spec.landing x4 r.val := by
  unfold Cert.Spec.landing
  refine Finset.filter_congr fun e _ => ?_
  have e56 : Read.idx_main_v56 (StableHlo.Predicate.ixP e) = ix1 e := funext fun a => Fin.ext (by
    match a with
    | ⟨0, _⟩ => rfl)
  rw [Read.val_main_v56_apply, e56]

section Out
variable (x0 x1 : Cert.Spec.R2 50000 64) (x2 : Cert.Spec.R2 800000 64) (x3 x4 : Cert.Spec.Words 800000)
  (x5 : Cert.Spec.R2 128 128) (x6 : Cert.Spec.R1 128) (x7 : Cert.Spec.R2 128 128) (x8 : Cert.Spec.R1 128)
  (x9 : Cert.Spec.R2 128 128) (x10 : Cert.Spec.R1 128) (x11 : Cert.Spec.R2 64 128) (x12 : Cert.Spec.R1 128)

/-- The collected scores. -/
theorem den_apply (hs : Cert.Spec.InRange x3) (hd : Cert.Spec.InRange x4) (r : Fin 50000) (h : Fin 8) (z : Fin 1) :
    Read.val_main_v57 (F := Ideal) x0 x1 x2 x3 x4 x5 x6 x7 x8 x11 x12 (ix3 r h z)
      = Cert.Spec.collect3 x4 (Cert.Spec.refOut1 x0 x1 x2 x3 x4 x5 x6 x7 x8 x11 x12) (ix3 r h z) := by
  unfold Read.val_main_v57
  rw [scatter3_apply scatter_S50000x8x1_S800000x1_S800000x8x1_12_0_0_1 rfl rfl rfl rfl, landing_eq, Read.val_main_v55_apply,
    Read.val_main_cst_9_apply, Ideal.ofBits_def, Ideal.ofBits_zero_f32, zero_add]
  unfold Cert.Spec.collect3
  exact Finset.sum_congr rfl fun e _ => score_apply x0 x1 x2 x3 x4 x5 x6 x7 x8 x11 x12 hs hd e h z

/-- The collected messages. -/
theorem num_apply (hs : Cert.Spec.InRange x3) (hd : Cert.Spec.InRange x4) (r : Fin 50000) (h : Fin 8) (d : Fin 16) :
    Read.val_main_v54 (F := Ideal) x0 x1 x2 x3 x4 x5 x6 x7 x8 x9 x10 x11 x12 (ix3 r h d)
      = Cert.Spec.collect3 x4 (fun j : (⟨3, ![800000, 8, 16]⟩ : Shape).Idx =>
          Cert.Spec.projR x0 x1 x9 x10 (ix3 (Cert.Spec.rowOf (x3 (ix1 (j 0)))) (j 1) (j 2))
            * Cert.Spec.refOut1 x0 x1 x2 x3 x4 x5 x6 x7 x8 x11 x12 (ix3 (j 0) (j 1) 0)) (ix3 r h d) := by
  unfold Read.val_main_v54
  rw [scatter3_apply scatter_S50000x8x16_S800000x1_S800000x8x16_12_0_0_1 rfl rfl rfl rfl]
  rw [show Read.val_main_v53 (F := Ideal) x4 = Read.val_main_v56 (F := Ideal) x4 from rfl, landing_eq, Read.val_main_v52_apply,
    Read.val_main_cst_8_apply, Ideal.ofBits_def, Ideal.ofBits_zero_f32, zero_add]
  unfold Cert.Spec.collect3
  refine Finset.sum_congr rfl fun e _ => ?_
  have e50 : Read.idx_main_v50 (ix3 e h d) = ix3 e h 0 := funext fun a => Fin.ext (by
    match a with
    | ⟨0, _⟩ => rfl
    | ⟨1, _⟩ => rfl
    | ⟨2, _⟩ => rfl)
  have h49 : Read.val_main_v49 (F := Ideal) x0 x1 x3 x9 x10 (ix3 e h d)
      = Cert.Spec.projR x0 x1 x9 x10 (ix3 (Cert.Spec.rowOf (x3 (ix1 e))) h d) := gather_apply x0 x1 x9 x10 x3 hs e h d
  rw [Read.val_main_v51_apply, Read.val_main_v50_apply, e50, h49, score_apply x0 x1 x2 x3 x4 x5 x6 x7 x8 x11 x12 hs hd e h 0,
    Ideal.mulf_def]

/-- The first result, index by index. -/
theorem out0_apply (hs : Cert.Spec.InRange x3) (hd : Cert.Spec.InRange x4) (r : Fin 50000) (h : Fin 8) (d : Fin 16) :
    Read.val_main_v61 (F := Ideal) x0 x1 x2 x3 x4 x5 x6 x7 x8 x9 x10 x11 x12 (ix3 r h d)
      = Cert.Spec.refOut0 x0 x1 x2 x3 x4 x5 x6 x7 x8 x9 x10 x11 x12 (ix3 r h d) := by
  have e60 : Read.idx_main_v60 (ix3 r h d) = ix3 r h 0 := funext fun a => Fin.ext (by
    match a with
    | ⟨0, _⟩ => rfl
    | ⟨1, _⟩ => rfl
    | ⟨2, _⟩ => rfl)
  rw [Read.val_main_v61_apply, Ideal.hostDivf_def, num_apply x0 x1 x2 x3 x4 x5 x6 x7 x8 x9 x10 x11 x12 hs hd, Read.val_main_v60_apply, e60,
    Read.val_main_v59_apply, Ideal.addf_def, den_apply x0 x1 x2 x3 x4 x5 x6 x7 x8 x11 x12 hs hd, Read.val_main_v58_apply,
    Read.val_main_cst_10_apply, Ideal.ofBits_def]
  rfl

end Out

section Whole
variable (x0 x1 : Cert.Spec.R2 50000 64) (x2 : Cert.Spec.R2 800000 64) (x3 x4 : Cert.Spec.Words 800000)
  (x5 : Cert.Spec.R2 128 128) (x6 : Cert.Spec.R1 128) (x7 : Cert.Spec.R2 128 128) (x8 : Cert.Spec.R1 128)
  (x9 : Cert.Spec.R2 128 128) (x10 : Cert.Spec.R1 128) (x11 : Cert.Spec.R2 64 128) (x12 : Cert.Spec.R1 128)

/-- The scores as a whole array. -/
theorem out1_eq (hs : Cert.Spec.InRange x3) (hd : Cert.Spec.InRange x4) :
    Read.val_main_v42 (F := Ideal) x0 x1 x2 x3 x4 x5 x6 x7 x8 x11 x12 = Cert.Spec.refOut1 x0 x1 x2 x3 x4 x5 x6 x7 x8 x11 x12 := by
  funext i
  rw [eq_ix3 i]
  exact score_apply x0 x1 x2 x3 x4 x5 x6 x7 x8 x11 x12 hs hd (i 0) (i 1) (i 2)

/-- The first result as a whole array. -/
theorem out0_eq (hs : Cert.Spec.InRange x3) (hd : Cert.Spec.InRange x4) :
    Read.val_main_v61 (F := Ideal) x0 x1 x2 x3 x4 x5 x6 x7 x8 x9 x10 x11 x12
      = Cert.Spec.refOut0 x0 x1 x2 x3 x4 x5 x6 x7 x8 x9 x10 x11 x12 := by
  funext i
  rw [eq_ix3 i]
  exact out0_apply x0 x1 x2 x3 x4 x5 x6 x7 x8 x9 x10 x11 x12 hs hd (i 0) (i 1) (i 2)

end Whole

variable (m : (ℓ : Loc nD τ sig) → Buf (Elt Ideal) ℓ) (ρ : Dev nD → PrngReg)

/-- The whole-array program's run with both results named by the specification, when every source and destination
    word names a node. -/
theorem run_spec (hs : ∀ c : Dev nD, Cert.Spec.InRange (m ((c.tc : Thread nD τ).loc main_arg3)))
    (hd : ∀ c : Dev nD, Cert.Spec.InRange (m ((c.tc : Thread nD τ).loc main_arg4))) :
    θ_run defs (onTc (τ := τ) (main (F := Ideal))) ⟨m, fun _ => 0, ρ⟩ fun r => ∀ c : Dev nD,
      r.2.mem ((c.tc : Thread nD τ).loc main_v61) = Cert.Spec.refOut0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v42) = Cert.Spec.refOut1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c).1.trans ((Read.val_main_v61_eq (F := Ideal) m c).trans (out0_eq _ _ _ _ _ _ _ _ _ _ _ _ _ (hs c) (hd c))),
        (h c).2.1.trans ((Read.val_main_v42_eq (F := Ideal) _ _ _ _ _ _ _ _ _ _ _).trans (out1_eq _ _ _ _ _ _ _ _ _ _ _ (hs c) (hd c))),
        (h c).2.2⟩)
    (Cert.ReferenceIdeal.Value.run (F := Ideal) m ρ)

end Cert.ReferenceIdeal.RefValue

end
-- ==== Proof.lean ====
/-
  The certificate's five claims. The three frames: both printed forms of the blocked program by their launch
  certificates; the whole-array program by its run, the results dropped. Nothing was rewritten by the idealization, so
  it preserves the program trivially. The equivalence: under the precondition every source and destination word names a
  node (read back from the precondition's last two conjuncts); then the blocked program's run ends with its two
  results at the blocked spelling of the layer, the whole-array program's run at the whole-array spelling, of arguments
  that agree; and the two spellings are one function (a contraction over joined rows split in halves, sums against
  0/1 tables read as a head's lanes, one collection over messages and scores side by side read column by column).
-/
import proofs.«414019_j17703855194487_2_alg».proof.Defs
import proofs.«414019_j17703855194487_2_alg».proof.Proof.Gen.Kernel
import proofs.«414019_j17703855194487_2_alg».proof.Proof.Gen.Kernel.Skeleton
import proofs.«414019_j17703855194487_2_alg».proof.Proof.Gen.Kernel.Launch
import proofs.«414019_j17703855194487_2_alg».proof.Proof.Gen.Kernel.Points
import proofs.«414019_j17703855194487_2_alg».proof.Proof.Gen.Kernel.Frame
import proofs.«414019_j17703855194487_2_alg».proof.Proof.Gen.KernelIdeal
import proofs.«414019_j17703855194487_2_alg».proof.Proof.Gen.KernelIdeal.Skeleton
import proofs.«414019_j17703855194487_2_alg».proof.Proof.Gen.KernelIdeal.Launch
import proofs.«414019_j17703855194487_2_alg».proof.Proof.Gen.KernelIdeal.Points
import proofs.«414019_j17703855194487_2_alg».proof.Proof.Gen.KernelIdeal.Frame
import proofs.«414019_j17703855194487_2_alg».proof.Proof.Gen.ReferenceIdeal
import proofs.«414019_j17703855194487_2_alg».proof.Proof.Gen.ReferenceIdeal.Run
import proofs.«414019_j17703855194487_2_alg».proof.Proof.Gen.ReferenceIdeal.Read
import proofs.«414019_j17703855194487_2_alg».proof.Proof.Gen.Pre_finite_inputs
import proofs.«414019_j17703855194487_2_alg».proof.Proof.Spec
import proofs.«414019_j17703855194487_2_alg».proof.Proof.Bridge
import proofs.«414019_j17703855194487_2_alg».proof.Proof.PreDecode
import proofs.«414019_j17703855194487_2_alg».proof.Proof.KernelRun
import proofs.«414019_j17703855194487_2_alg».proof.Proof.KernelValue
import proofs.«414019_j17703855194487_2_alg».proof.Proof.RefValue
import Idealize.ShloMosaic.Adequacy
import Idealize.ShloMosaic.Init

noncomputable section

namespace Cert.Proof

open Idealize.ShloMosaic Idealize.SL.Sem Cert.Kernel

section Claims
variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The whole-array program's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The precondition puts the source and the destination words in range, on every device. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange (m ((c.tc : Thread Cert.KernelIdeal.nD Cert.KernelIdeal.τ).loc Cert.KernelIdeal.main_arg3)) ∧ Cert.Spec.InRange (m ((c.tc : Thread Cert.KernelIdeal.nD Cert.KernelIdeal.τ).loc Cert.KernelIdeal.main_arg4)) :=
  Cert.PreDecode.inRange_of_fn _ _ _ _ _ _ _ _ _ _ _ _ _ (hpre c)

/-- Both programs end at one pair of result arrays: the blocked spelling of the layer, which is the whole-array one. -/
theorem algebraic : Cert.algebraic_KernelIdeal_ReferenceIdeal := by
  intro m ρ m' ρ' hpre hagree
  have hr := inRange_of_pre m hpre
  refine ⟨fun c => Cert.Spec.kerOut0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.kerOut1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KernelValue.W8_out0 m ρ c (hr c).1 (hr c).2),
        (h c).2.1.trans (Cert.KernelIdeal.KernelValue.W8_out1 m ρ c (hr c).1 (hr c).2), (h c).2.2⟩)
      (Cert.KernelIdeal.Run.run (F := Ideal) m ρ)
  · have hs' : ∀ c : Dev Cert.ReferenceIdeal.nD, Cert.Spec.InRange (m' ((c.tc : Thread Cert.ReferenceIdeal.nD Cert.ReferenceIdeal.τ).loc Cert.ReferenceIdeal.main_arg3)) :=
      fun c => (hagree c).2.2.2.1 ▸ (hr c).1
    have hd' : ∀ c : Dev Cert.ReferenceIdeal.nD, Cert.Spec.InRange (m' ((c.tc : Thread Cert.ReferenceIdeal.nD Cert.ReferenceIdeal.τ).loc Cert.ReferenceIdeal.main_arg4)) :=
      fun c => (hagree c).2.2.2.2.1 ▸ (hr c).2
    refine (θ_run Cert.ReferenceIdeal.defs _ _).mono (fun _ h c => ⟨(h c).1.trans ?_, (h c).2.1.trans ?_, (h c).2.2⟩)
      (Cert.ReferenceIdeal.RefValue.run_spec m' ρ' hs' hd')
    · obtain ⟨e0, e1, e2, e3, e4, e5, e6, e7, e8, e9, e10, e11, e12⟩ := hagree c
      exact Cert.Spec.out0_of_agree e0 e1 e2 e3 e4 e5 e6 e7 e8 e9 e10 e11 e12
    · obtain ⟨e0, e1, e2, e3, e4, e5, e6, e7, e8, e9, e10, e11, e12⟩ := hagree c
      exact Cert.Spec.out1_of_agree e0 e1 e2 e3 e4 e5 e6 e7 e8 e11 e12

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
